-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100000 : Shape := ⟨2, ![1, 100000]⟩
abbrev S1 : Shape := ⟨1, ![1]⟩
abbrev S2x4000000 : Shape := ⟨2, ![2, 4000000]⟩
abbrev S4000000 : Shape := ⟨1, ![4000000]⟩
abbrev S7 : Shape := ⟨1, ![7]⟩
abbrev S7x7x5x5 : Shape := ⟨4, ![7, 7, 5, 5]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S4000000 : S_.BroadcastsInDim S4000000 (![] : Fin 0 → Fin S4000000.rank)
  reducesTo_S4000000_S_d0 : S4000000.ReducesTo [0] S_
  bcast_S_S7 : S_.BroadcastsInDim S7 (![] : Fin 0 → Fin S7.rank)
  reducesTo_S7_S_d0 : S7.ReducesTo [0] S_
  bcast_S_S7x7x5x5 : S_.BroadcastsInDim S7x7x5x5 (![] : Fin 0 → Fin S7x7x5x5.rank)
  reducesTo_S7x7x5x5_S_d0_1_2_3 : S7x7x5x5.ReducesTo [0, 1, 2, 3] S_
  bcast_S_S1x100000 : S_.BroadcastsInDim S1x100000 (![] : Fin 0 → Fin S1x100000.rank)
  reducesTo_S1x100000_S_d0_1 : S1x100000.ReducesTo [0, 1] S_

variable [Facts]

def fn_part2 {F : FTy → Type} [FloatOps F] (main_arg0 : IVec S1x100000 32) (main_v33 : IVec S_ 1) : IVec S_ 1 :=
  let main_c_12 : IVec S_ 32 := constantI S_ 32 0#32
  let main_v34 : IVec S1x100000 32 := broadcastInDim S1x100000 ![] bcast_S_S1x100000 main_c_12
  let main_v35 : IVec S1x100000 1 := cmpi .sge main_arg0 main_v34
  let main_c_13 : IVec S_ 32 := constantI S_ 32 7#32
  let main_v36 : IVec S1x100000 32 := broadcastInDim S1x100000 ![] bcast_S_S1x100000 main_c_13
  let main_v37 : IVec S1x100000 1 := cmpi .slt main_arg0 main_v36
  let main_v38 : IVec S1x100000 1 := andi main_v35 main_v37
  let main_c_14 : IVec S_ 1 := constantI S_ 1 1#1
  let main_v39 : IVec S_ 1 := (fun x v => Host.reduce IntOp.andi x v reducesTo_S1x100000_S_d0_1 h_S_) main_v38 main_c_14
  let main_v40 : IVec S_ 1 := andi main_v33 main_v39
  main_v40

def fn_part1 {F : FTy → Type} [FloatOps F] (main_arg0 : IVec S1x100000 32) (main_arg6 : FVec F S7x7x5x5 .f32) (main_arg7 : FVec F S7x7x5x5 .f32) (main_arg8 : FVec F S7x7x5x5 .f32) (main_v13 : IVec S_ 1) (main_v16 : IVec S7 1) : IVec S_ 1 :=
  let main_c_5 : IVec S_ 1 := constantI S_ 1 1#1
  let main_v17 : IVec S_ 1 := (fun x v => Host.reduce IntOp.andi x v reducesTo_S7_S_d0 h_S_) main_v16 main_c_5
  let main_v18 : IVec S_ 1 := andi main_v13 main_v17
  let main_v19 : FVec F S7x7x5x5 .f32 := Host.absf main_arg6
  let main_cst_6 : FVec F S_ .f32 := constant S_ .f32 0x7F800000#32
  let main_v20 : FVec F S7x7x5x5 .f32 := broadcastInDim S7x7x5x5 ![] bcast_S_S7x7x5x5 main_cst_6
  let main_v21 : IVec S7x7x5x5 1 := cmpf .olt main_v19 main_v20
  let main_c_7 : IVec S_ 1 := constantI S_ 1 1#1
  let main_v22 : IVec S_ 1 := (fun x v => Host.reduce IntOp.andi x v reducesTo_S7x7x5x5_S_d0_1_2_3 h_S_) main_v21 main_c_7
  let main_v23 : IVec S_ 1 := andi main_v18 main_v22
  let main_v24 : FVec F S7x7x5x5 .f32 := Host.absf main_arg7
  let main_cst_8 : FVec F S_ .f32 := constant S_ .f32 0x7F800000#32
  let main_v25 : FVec F S7x7x5x5 .f32 := broadcastInDim S7x7x5x5 ![] bcast_S_S7x7x5x5 main_cst_8
  let main_v26 : IVec S7x7x5x5 1 := cmpf .olt main_v24 main_v25
  let main_c_9 : IVec S_ 1 := constantI S_ 1 1#1
  let main_v27 : IVec S_ 1 := (fun x v => Host.reduce IntOp.andi x v reducesTo_S7x7x5x5_S_d0_1_2_3 h_S_) main_v26 main_c_9
  let main_v28 : IVec S_ 1 := andi main_v23 main_v27
  let main_v29 : FVec F S7x7x5x5 .f32 := Host.absf main_arg8
  let main_cst_10 : FVec F S_ .f32 := constant S_ .f32 0x7F800000#32
  let main_v30 : FVec F S7x7x5x5 .f32 := broadcastInDim S7x7x5x5 ![] bcast_S_S7x7x5x5 main_cst_10
  let main_v31 : IVec S7x7x5x5 1 := cmpf .olt main_v29 main_v30
  let main_c_11 : IVec S_ 1 := constantI S_ 1 1#1
  let main_v32 : IVec S_ 1 := (fun x v => Host.reduce IntOp.andi x v reducesTo_S7x7x5x5_S_d0_1_2_3 h_S_) main_v31 main_c_11
  let main_v33 : IVec S_ 1 := andi main_v28 main_v32
  fn_part2 (F := F) main_arg0 main_v33

def fn {F : FTy → Type} [FloatOps F] (main_arg0 : IVec S1x100000 32) (main_arg1 : FVec F S1 .f32) (main_arg2 : IVec S2x4000000 32) (main_arg3 : FVec F S4000000 .f32) (main_arg4 : FVec F S7 .f32) (main_arg5 : FVec F S7 .f32) (main_arg6 : FVec F S7x7x5x5 .f32) (main_arg7 : FVec F S7x7x5x5 .f32) (main_arg8 : FVec F S7x7x5x5 .f32) : IVec S_ 1 :=
  let main_v0 : FVec F S1 .f32 := Host.absf main_arg1
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S4000000 .f32 := Host.absf main_arg3
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_v9 : FVec F S7 .f32 := Host.absf main_arg4
  let main_cst_2 : FVec F S_ .f32 := constant S_ .f32 0x7F800000#32
  let main_v10 : FVec F S7 .f32 := broadcastInDim S7 ![] bcast_S_S7 main_cst_2
  let main_v11 : IVec S7 1 := cmpf .olt main_v9 main_v10
  let main_c_3 : IVec S_ 1 := constantI S_ 1 1#1
  let main_v12 : IVec S_ 1 := (fun x v => Host.reduce IntOp.andi x v reducesTo_S7_S_d0 h_S_) main_v11 main_c_3
  let main_v13 : IVec S_ 1 := andi main_v8 main_v12
  let main_v14 : FVec F S7 .f32 := Host.absf main_arg5
  let main_cst_4 : FVec F S_ .f32 := constant S_ .f32 0x7F800000#32
  let main_v15 : FVec F S7 .f32 := broadcastInDim S7 ![] bcast_S_S7 main_cst_4
  let main_v16 : IVec S7 1 := cmpf .olt main_v14 main_v15
  fn_part1 (F := F) main_arg0 main_arg6 main_arg7 main_arg8 main_v13 main_v16
-- ==== Kernel.lean ====
abbrev S1x100000 : Shape := ⟨2, ![1, 100000]⟩
abbrev S1 : Shape := ⟨1, ![1]⟩
abbrev S2x4000000 : Shape := ⟨2, ![2, 4000000]⟩
abbrev S4000000 : Shape := ⟨1, ![4000000]⟩
abbrev S7 : Shape := ⟨1, ![7]⟩
abbrev S7x7x5x5 : Shape := ⟨4, ![7, 7, 5, 5]⟩
abbrev S100000 : Shape := ⟨1, ![100000]⟩
abbrev S1x4000000 : Shape := ⟨2, ![1, 4000000]⟩
abbrev S_ : Shape := ⟨0, ![]⟩
abbrev S4000000x1 : Shape := ⟨2, ![4000000, 1]⟩
abbrev S49x25 : Shape := ⟨2, ![49, 25]⟩
abbrev S4000000x25 : Shape := ⟨2, ![4000000, 25]⟩
abbrev S4030464 : Shape := ⟨1, ![4030464]⟩
abbrev S4030464x1 : Shape := ⟨2, ![4030464, 1]⟩
abbrev S4030464x25 : Shape := ⟨2, ![4030464, 25]⟩
abbrev S1x1 : Shape := ⟨2, ![1, 1]⟩
abbrev S32768x1 : Shape := ⟨2, ![32768, 1]⟩
abbrev S32768x25 : Shape := ⟨2, ![32768, 25]⟩
abbrev S32768 : Shape := ⟨1, ![32768]⟩
abbrev S1x32768x1 : Shape := ⟨3, ![1, 32768, 1]⟩
abbrev S1x1x1 : Shape := ⟨3, ![1, 1, 1]⟩

abbrev nBuf : Space → Nat
  | .hbm => 190
  | .vmem => 16
  | .smem => 0
  | _ => 0

abbrev hbmTy0_0 (i : Nat) : BufTy := match i % 128 with
  | 0 => ⟨S1x100000, .i32⟩
  | 1 => ⟨S1, .f32⟩
  | 2 => ⟨S2x4000000, .i32⟩
  | 3 => ⟨S4000000, .f32⟩
  | 4 => ⟨S7, .f32⟩
  | 5 => ⟨S7, .f32⟩
  | 6 => ⟨S7x7x5x5, .f32⟩
  | 7 => ⟨S7x7x5x5, .f32⟩
  | 8 => ⟨S7x7x5x5, .f32⟩
  | 9 => ⟨S100000, .i32⟩
  | 10 => ⟨S1x4000000, .i32⟩
  | 11 => ⟨S4000000, .i32⟩
  | 12 => ⟨S1x4000000, .i32⟩
  | 13 => ⟨S4000000, .i32⟩
  | 14 => ⟨S_, .i32⟩
  | 15 => ⟨S4000000, .i32⟩
  | 16 => ⟨S4000000, .i1⟩
  | 17 => ⟨S_, .i32⟩
  | 18 => ⟨S4000000, .i32⟩
  | 19 => ⟨S4000000, .i32⟩
  | 20 => ⟨S4000000, .i32⟩
  | 21 => ⟨S4000000x1, .i32⟩
  | 22 => ⟨S4000000, .i32⟩
  | 23 => ⟨S_, .i32⟩
  | 24 => ⟨S4000000, .i32⟩
  | 25 => ⟨S4000000, .i1⟩
  | 26 => ⟨S_, .i32⟩
  | 27 => ⟨S4000000, .i32⟩
  | 28 => ⟨S4000000, .i32⟩
  | 29 => ⟨S4000000, .i32⟩
  | 30 => ⟨S4000000x1, .i32⟩
  | 31 => ⟨S4000000, .i32⟩
  | 32 => ⟨S_, .i32⟩
  | 33 => ⟨S4000000, .i32⟩
  | 34 => ⟨S4000000, .i32⟩
  | 35 => ⟨S4000000, .i32⟩
  | 36 => ⟨S_, .i32⟩
  | 37 => ⟨S4000000, .i32⟩
  | 38 => ⟨S4000000, .i1⟩
  | 39 => ⟨S_, .i32⟩
  | 40 => ⟨S4000000, .i32⟩
  | 41 => ⟨S4000000, .i32⟩
  | 42 => ⟨S4000000, .i32⟩
  | 43 => ⟨S4000000x1, .i32⟩
  | 44 => ⟨S4000000, .f32⟩
  | 45 => ⟨S_, .i32⟩
  | 46 => ⟨S4000000, .i32⟩
  | 47 => ⟨S4000000, .i1⟩
  | 48 => ⟨S_, .i32⟩
  | 49 => ⟨S4000000, .i32⟩
  | 50 => ⟨S4000000, .i32⟩
  | 51 => ⟨S4000000, .i32⟩
  | 52 => ⟨S4000000x1, .i32⟩
  | 53 => ⟨S4000000, .f32⟩
  | 54 => ⟨S4000000, .f32⟩
  | 55 => ⟨S_, .f32⟩
  | 56 => ⟨S4000000, .f32⟩
  | 57 => ⟨S4000000, .f32⟩
  | 58 => ⟨S4000000, .f32⟩
  | 59 => ⟨S_, .f32⟩
  | 60 => ⟨S4000000, .f32⟩
  | 61 => ⟨S4000000, .f32⟩
  | 62 => ⟨S_, .f32⟩
  | 63 => ⟨S4000000, .f32⟩
  | 64 => ⟨S4000000, .f32⟩
  | 65 => ⟨S4000000, .f32⟩
  | 66 => ⟨S4000000, .f32⟩
  | 67 => ⟨S_, .f32⟩
  | 68 => ⟨S4000000, .f32⟩
  | 69 => ⟨S4000000, .f32⟩
  | 70 => ⟨S_, .f32⟩
  | 71 => ⟨S4000000, .f32⟩
  | 72 => ⟨S4000000, .f32⟩
  | 73 => ⟨S_, .f32⟩
  | 74 => ⟨S100000, .f32⟩
  | 75 => ⟨S_, .i32⟩
  | 76 => ⟨S4000000, .i32⟩
  | 77 => ⟨S4000000, .i1⟩
  | 78 => ⟨S_, .i32⟩
  | 79 => ⟨S4000000, .i32⟩
  | 80 => ⟨S4000000, .i32⟩
  | 81 => ⟨S4000000, .i32⟩
  | 82 => ⟨S4000000x1, .i32⟩
  | 83 => ⟨S100000, .f32⟩
  | 84 => ⟨S_, .i32⟩
  | 85 => ⟨S4000000, .i32⟩
  | 86 => ⟨S4000000, .i1⟩
  | 87 => ⟨S_, .i32⟩
  | 88 => ⟨S4000000, .i32⟩
  | 89 => ⟨S4000000, .i32⟩
  | 90 => ⟨S4000000, .i32⟩
  | 91 => ⟨S4000000x1, .i32⟩
  | 92 => ⟨S100000, .f32⟩
  | 93 => ⟨S_, .i32⟩
  | 94 => ⟨S4000000, .i32⟩
  | 95 => ⟨S4000000, .i1⟩
  | 96 => ⟨S_, .i32⟩
  | 97 => ⟨S4000000, .i32⟩
  | 98 => ⟨S4000000, .i32⟩
  | 99 => ⟨S4000000, .i32⟩
  | 100 => ⟨S4000000x1, .i32⟩
  | 101 => ⟨S4000000, .f32⟩
  | 102 => ⟨S_, .i32⟩
  | 103 => ⟨S4000000, .i32⟩
  | 104 => ⟨S4000000, .i1⟩
  | 105 => ⟨S_, .i32⟩
  | 106 => ⟨S4000000, .i32⟩
  | 107 => ⟨S4000000, .i32⟩
  | 108 => ⟨S4000000, .i32⟩
  | 109 => ⟨S4000000x1, .i32⟩
  | 110 => ⟨S4000000, .f32⟩
  | 111 => ⟨S_, .i32⟩
  | 112 => ⟨S4000000, .i32⟩
  | 113 => ⟨S4000000, .i1⟩
  | 114 => ⟨S_, .i32⟩
  | 115 => ⟨S4000000, .i32⟩
  | 116 => ⟨S4000000, .i32⟩
  | 117 => ⟨S4000000, .i32⟩
  | 118 => ⟨S4000000x1, .i32⟩
  | 119 => ⟨S4000000, .f32⟩
  | 120 => ⟨S_, .i32⟩
  | 121 => ⟨S4000000, .i32⟩
  | 122 => ⟨S4000000, .i1⟩
  | 123 => ⟨S_, .i32⟩
  | 124 => ⟨S4000000, .i32⟩
  | 125 => ⟨S4000000, .i32⟩
  | 126 => ⟨S4000000, .i32⟩
  | 127 => ⟨S4000000x1, .i32⟩
  | _ => ⟨S1x100000, .i32⟩

abbrev hbmTy0_1 (i : Nat) : BufTy := match i % 128 with
  | 0 => ⟨S4000000, .f32⟩
  | 1 => ⟨S4000000, .f32⟩
  | 2 => ⟨S49x25, .f32⟩
  | 3 => ⟨S49x25, .f32⟩
  | 4 => ⟨S49x25, .f32⟩
  | 5 => ⟨S_, .i32⟩
  | 6 => ⟨S4000000, .i32⟩
  | 7 => ⟨S4000000, .i1⟩
  | 8 => ⟨S_, .i32⟩
  | 9 => ⟨S4000000, .i32⟩
  | 10 => ⟨S4000000, .i32⟩
  | 11 => ⟨S4000000, .i32⟩
  | 12 => ⟨S4000000x1, .i32⟩
  | 13 => ⟨S4000000x25, .f32⟩
  | 14 => ⟨S_, .i32⟩
  | 15 => ⟨S4000000, .i32⟩
  | 16 => ⟨S4000000, .i1⟩
  | 17 => ⟨S_, .i32⟩
  | 18 => ⟨S4000000, .i32⟩
  | 19 => ⟨S4000000, .i32⟩
  | 20 => ⟨S4000000, .i32⟩
  | 21 => ⟨S4000000x1, .i32⟩
  | 22 => ⟨S4000000x25, .f32⟩
  | 23 => ⟨S_, .i32⟩
  | 24 => ⟨S4000000, .i32⟩
  | 25 => ⟨S4000000, .i1⟩
  | 26 => ⟨S_, .i32⟩
  | 27 => ⟨S4000000, .i32⟩
  | 28 => ⟨S4000000, .i32⟩
  | 29 => ⟨S4000000, .i32⟩
  | 30 => ⟨S4000000x1, .i32⟩
  | 31 => ⟨S4000000x25, .f32⟩
  | 32 => ⟨S_, .i32⟩
  | 33 => ⟨S_, .f32⟩
  | 34 => ⟨S4030464, .f32⟩
  | 35 => ⟨S4030464x1, .f32⟩
  | 36 => ⟨S_, .i32⟩
  | 37 => ⟨S_, .f32⟩
  | 38 => ⟨S4030464, .f32⟩
  | 39 => ⟨S4030464x1, .f32⟩
  | 40 => ⟨S_, .i32⟩
  | 41 => ⟨S_, .f32⟩
  | 42 => ⟨S4030464, .f32⟩
  | 43 => ⟨S4030464x1, .f32⟩
  | 44 => ⟨S_, .i32⟩
  | 45 => ⟨S_, .f32⟩
  | 46 => ⟨S4030464, .f32⟩
  | 47 => ⟨S4030464x1, .f32⟩
  | 48 => ⟨S_, .i32⟩
  | 49 => ⟨S_, .f32⟩
  | 50 => ⟨S4030464x25, .f32⟩
  | 51 => ⟨S_, .i32⟩
  | 52 => ⟨S_, .f32⟩
  | 53 => ⟨S4030464x25, .f32⟩
  | 54 => ⟨S_, .i32⟩
  | 55 => ⟨S_, .f32⟩
  | 56 => ⟨S4030464x25, .f32⟩
  | 57 => ⟨S1x1, .f32⟩
  | 58 => ⟨S_, .f32⟩
  | 59 => ⟨S_, .f32⟩
  | 60 => ⟨S1, .f32⟩
  | 61 => ⟨S1, .f32⟩
  | _ => ⟨S1x100000, .i32⟩

abbrev hbmTy (i : Nat) : BufTy := match i / 128 with
  | 0 => hbmTy0_0 i
  | 1 => hbmTy0_1 i
  | _ => ⟨S1x100000, .i32⟩

abbrev bufTy : (tb : Table) → Fin (tcTables nBuf tb) → BufTy
  | .hbm, ⟨i, _⟩ => hbmTy i
  | .local _ .vmem, ⟨0, _⟩ => ⟨S32768x1, .f32⟩
  | .local _ .vmem, ⟨1, _⟩ => ⟨S32768x1, .f32⟩
  | .local _ .vmem, ⟨2, _⟩ => ⟨S32768x1, .f32⟩
  | .local _ .vmem, ⟨3, _⟩ => ⟨S32768x1, .f32⟩
  | .local _ .vmem, ⟨4, _⟩ => ⟨S32768x1, .f32⟩
  | .local _ .vmem, ⟨5, _⟩ => ⟨S32768x1, .f32⟩
  | .local _ .vmem, ⟨6, _⟩ => ⟨S32768x1, .f32⟩
  | .local _ .vmem, ⟨7, _⟩ => ⟨S32768x1, .f32⟩
  | .local _ .vmem, ⟨8, _⟩ => ⟨S32768x25, .f32⟩
  | .local _ .vmem, ⟨9, _⟩ => ⟨S32768x25, .f32⟩
  | .local _ .vmem, ⟨10, _⟩ => ⟨S32768x25, .f32⟩
  | .local _ .vmem, ⟨11, _⟩ => ⟨S32768x25, .f32⟩
  | .local _ .vmem, ⟨12, _⟩ => ⟨S32768x25, .f32⟩
  | .local _ .vmem, ⟨13, _⟩ => ⟨S32768x25, .f32⟩
  | .local _ .vmem, ⟨14, _⟩ => ⟨S1x1, .f32⟩
  | .local _ .vmem, ⟨15, _⟩ => ⟨S1x1, .f32⟩
  | _, _ => ⟨S1x100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_c_13 : Ref sig .tc := ⟨.hbm, 75, rfl⟩
abbrev main_v51 : Ref sig .tc := ⟨.hbm, 76, rfl⟩
abbrev main_v52 : Ref sig .tc := ⟨.hbm, 77, rfl⟩
abbrev main_c_14 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_15 : Ref sig .tc := ⟨.hbm, 84, rfl⟩
abbrev main_v58 : Ref sig .tc := ⟨.hbm, 85, rfl⟩
abbrev main_v59 : Ref sig .tc := ⟨.hbm, 86, rfl⟩
abbrev main_c_16 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_17 : Ref sig .tc := ⟨.hbm, 93, rfl⟩
abbrev main_v65 : Ref sig .tc := ⟨.hbm, 94, rfl⟩
abbrev main_v66 : Ref sig .tc := ⟨.hbm, 95, rfl⟩
abbrev main_c_18 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_19 : Ref sig .tc := ⟨.hbm, 102, rfl⟩
abbrev main_v72 : Ref sig .tc := ⟨.hbm, 103, rfl⟩
abbrev main_v73 : Ref sig .tc := ⟨.hbm, 104, rfl⟩
abbrev main_c_20 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_21 : Ref sig .tc := ⟨.hbm, 111, rfl⟩
abbrev main_v79 : Ref sig .tc := ⟨.hbm, 112, rfl⟩
abbrev main_v80 : Ref sig .tc := ⟨.hbm, 113, rfl⟩
abbrev main_c_22 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_23 : Ref sig .tc := ⟨.hbm, 120, rfl⟩
abbrev main_v86 : Ref sig .tc := ⟨.hbm, 121, rfl⟩
abbrev main_v87 : Ref sig .tc := ⟨.hbm, 122, rfl⟩
abbrev main_c_24 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_25 : Ref sig .tc := ⟨.hbm, 133, rfl⟩
abbrev main_v97 : Ref sig .tc := ⟨.hbm, 134, rfl⟩
abbrev main_v98 : Ref sig .tc := ⟨.hbm, 135, rfl⟩
abbrev main_c_26 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_c_27 : Ref sig .tc := ⟨.hbm, 142, rfl⟩
abbrev main_v104 : Ref sig .tc := ⟨.hbm, 143, rfl⟩
abbrev main_v105 : Ref sig .tc := ⟨.hbm, 144, rfl⟩
abbrev main_c_28 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_c_29 : Ref sig .tc := ⟨.hbm, 151, rfl⟩
abbrev main_v111 : Ref sig .tc := ⟨.hbm, 152, rfl⟩
abbrev main_v112 : Ref sig .tc := ⟨.hbm, 153, rfl⟩
abbrev main_c_30 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_31 : Ref sig .tc := ⟨.hbm, 160, rfl⟩
abbrev main_call0_v0 : Ref sig .tc := ⟨.hbm, 161, rfl⟩
abbrev main_v118 : Ref sig .tc := ⟨.hbm, 162, rfl⟩
abbrev main_v119 : Ref sig .tc := ⟨.hbm, 163, rfl⟩
abbrev main_c_32 : Ref sig .tc := ⟨.hbm, 164, rfl⟩
abbrev main_call1_v0 : Ref sig .tc := ⟨.hbm, 165, rfl⟩
abbrev main_v120 : Ref sig .tc := ⟨.hbm, 166, rfl⟩
abbrev main_v121 : Ref sig .tc := ⟨.hbm, 167, rfl⟩
abbrev main_c_33 : Ref sig .tc := ⟨.hbm, 168, rfl⟩
abbrev main_call2_v0 : Ref sig .tc := ⟨.hbm, 169, rfl⟩
abbrev main_v122 : Ref sig .tc := ⟨.hbm, 170, rfl⟩
abbrev main_v123 : Ref sig .tc := ⟨.hbm, 171, rfl⟩
abbrev main_c_34 : Ref sig .tc := ⟨.hbm, 172, rfl⟩
abbrev main_call3_v0 : Ref sig .tc := ⟨.hbm, 173, rfl⟩
abbrev main_v124 : Ref sig .tc := ⟨.hbm, 174, rfl⟩
abbrev main_v125 : Ref sig .tc := ⟨.hbm, 175, rfl⟩
abbrev main_c_35 : Ref sig .tc := ⟨.hbm, 176, rfl⟩
abbrev main_call4_v0 : Ref sig .tc := ⟨.hbm, 177, rfl⟩
abbrev main_v126 : Ref sig .tc := ⟨.hbm, 178, rfl⟩
abbrev main_c_36 : Ref sig .tc := ⟨.hbm, 179, rfl⟩
abbrev main_call5_v0 : Ref sig .tc := ⟨.hbm, 180, rfl⟩
abbrev main_v127 : Ref sig .tc := ⟨.hbm, 181, rfl⟩
abbrev main_c_37 : Ref sig .tc := ⟨.hbm, 182, rfl⟩
abbrev main_call6_v0 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![123], ![false]⟩

def k0_cond2 (i : grid0.Coords) : BitVec 1 :=
  let arg0 : BitVec 32 := BitVec.ofNat 32 (i 0).val
  let c122_i32 : BitVec 32 := 122#32
  let v74 : BitVec 1 := Scalar.cmpi .eq arg0 c122_i32
  let v75 : BitVec 32 := Scalar.extui v74
  let c0_i32_27 : BitVec 32 := 0#32
  let v76 : BitVec 1 := Scalar.cmpi .ne v75 c0_i32_27
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32768x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32768x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32768x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32768x25 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32768x25 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32768x25 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S1x100000_S100000 : S1x100000.ShapeCasts S100000
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S100000 : S_.BroadcastsInDim S100000 (![] : Fin 0 → Fin S100000.rank)
  shapeCasts_S7x7x5x5_S49x25 : S7x7x5x5.ShapeCasts S49x25
  pads_S4000000_S4030464_0304640 : S4000000.Pads (![0] : Fin 1 → Nat) ![30464] ![0] S4030464
  h_S_ : 0 < S_.numel
  shapeCasts_S4030464_S4030464x1 : S4030464.ShapeCasts S4030464x1
  pads_S4000000x25_S4030464x25_0304640_000 : S4000000x25.Pads (![0, 0] : Fin 2 → Nat) ![30464, 0] ![0, 0] S4030464x25
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32768x1_S32768x1_0_0 : ∀ a, (![0, 0] : Fin 2 → Nat) a + S32768x1.size a ≤ S32768x1.size a
  h_S32768x1 : 0 < S32768x1.numel
  shapeCasts_S32768x1_S32768x1 : S32768x1.ShapeCasts S32768x1
  inb_S32768x25_S32768x25_0_0 : ∀ a, (![0, 0] : Fin 2 → Nat) a + S32768x25.size a ≤ S32768x25.size a
  h_S32768x25 : 0 < S32768x25.numel
  shapeCasts_S32768x25_S32768x25 : S32768x25.ShapeCasts S32768x25
  broadcasts_S32768x1_S32768x25 : S32768x1.Broadcasts S32768x25
  reduces_S32768x25_S32768 : S32768x25.Reduces [1] S32768
  shapeCasts_S32768_S32768x1 : S32768.ShapeCasts S32768x1
  shapeCasts_S32768x1_S1x32768x1 : S32768x1.ShapeCasts S1x32768x1
  reduces_S1x32768x1_S1 : S1x32768x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  bcast_S_S1 : S_.BroadcastsInDim S1 (![] : Fin 0 → Fin S1.rank)
  gather_S100000_S4000000x1_S4000000_n_0_n_n_0_1_1_wf : GatherDims.WF S100000 S4000000x1 S4000000 [] [0] [] [0] [] 1 ![1]
  gather_S7_S4000000x1_S4000000_n_0_n_n_0_1_1_wf : GatherDims.WF S7 S4000000x1 S4000000 [] [0] [] [0] [] 1 ![1]
  scatter_S100000_S4000000x1_S4000000_n_0_0_1_wf : ScatterDims.WF S100000 S4000000x1 S4000000 [] [0] [0] 1
  gather_S49x25_S4000000x1_S4000000x25_1_0_n_n_0_1_125_wf : GatherDims.WF S49x25 S4000000x1 S4000000x25 [1] [0] [] [0] [] 1 ![1, 25]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x1.size a ≤ S4030464x1.size a
  hwx0_0 : ∀ i : grid0.Coords, EltTy.bits .f32 = 32 ∨ (Rect.block (s := S4030464x1) S32768x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32768x1.size a ≤ S4030464x1.size a
  hwx0_1 : ∀ i : grid0.Coords, EltTy.bits .f32 = 32 ∨ (Rect.block (s := S4030464x1) S32768x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32768x1.size a ≤ S4030464x1.size a
  hwx0_2 : ∀ i : grid0.Coords, EltTy.bits .f32 = 32 ∨ (Rect.block (s := S4030464x1) S32768x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32768x1.size a ≤ S4030464x1.size a
  hwx0_3 : ∀ i : grid0.Coords, EltTy.bits .f32 = 32 ∨ (Rect.block (s := S4030464x1) S32768x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32768x25.size a ≤ S4030464x25.size a
  hwx0_4 : ∀ i : grid0.Coords, EltTy.bits .f32 = 32 ∨ (Rect.block (s := S4030464x25) S32768x25.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32768x25.size a ≤ S4030464x25.size a
  hwx0_5 : ∀ i : grid0.Coords, EltTy.bits .f32 = 32 ∨ (Rect.block (s := S4030464x25) S32768x25.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32768x25.size a ≤ S4030464x25.size a
  hwx0_6 : ∀ i : grid0.Coords, EltTy.bits .f32 = 32 ∨ (Rect.block (s := S4030464x25) S32768x25.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

def gather_S100000_S4000000x1_S4000000_n_0_n_n_0_1_1 : GatherDims S100000 S4000000x1 S4000000 where
  offsetDims := []
  collapsedSliceDims := [0]
  operandBatchingDims := []
  startIndicesBatchingDims := []
  startIndexMap := [0]
  indexVectorDim := 1
  sliceSizes := ![1]
  wf := gather_S100000_S4000000x1_S4000000_n_0_n_n_0_1_1_wf
def gather_S7_S4000000x1_S4000000_n_0_n_n_0_1_1 : GatherDims S7 S4000000x1 S4000000 where
  offsetDims := []
  collapsedSliceDims := [0]
  operandBatchingDims := []
  startIndicesBatchingDims := []
  startIndexMap := [0]
  indexVectorDim := 1
  sliceSizes := ![1]
  wf := gather_S7_S4000000x1_S4000000_n_0_n_n_0_1_1_wf
def scatter_S100000_S4000000x1_S4000000_n_0_0_1 : ScatterDims S100000 S4000000x1 S4000000 where
  updateWindowDims := []
  insertedWindowDims := [0]
  scatterDimsToOperandDims := [0]
  indexVectorDim := 1
  wf := scatter_S100000_S4000000x1_S4000000_n_0_0_1_wf
def gather_S49x25_S4000000x1_S4000000x25_1_0_n_n_0_1_125 : GatherDims S49x25 S4000000x1 S4000000x25 where
  offsetDims := [1]
  collapsedSliceDims := [0]
  operandBatchingDims := []
  startIndicesBatchingDims := []
  startIndexMap := [0]
  indexVectorDim := 1
  sliceSizes := ![1, 25]
  wf := gather_S49x25_S4000000x1_S4000000x25_1_0_n_n_0_1_125_wf

abbrev win0_0 : Pipeline.Window sig grid0 :=
  Pipeline.Window.ofSpec (Memref.whole main_v119) S32768x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v121) S32768x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v123) S32768x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v125) S32768x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v126) S32768x25.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v127) S32768x25.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v128) S32768x25.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v129) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1x100000 : Shape := ⟨2, ![1, 100000]⟩
abbrev S1 : Shape := ⟨1, ![1]⟩
abbrev S2x4000000 : Shape := ⟨2, ![2, 4000000]⟩
abbrev S4000000 : Shape := ⟨1, ![4000000]⟩
abbrev S7 : Shape := ⟨1, ![7]⟩
abbrev S7x7x5x5 : Shape := ⟨4, ![7, 7, 5, 5]⟩
abbrev S100000 : Shape := ⟨1, ![100000]⟩
abbrev S1x4000000 : Shape := ⟨2, ![1, 4000000]⟩
abbrev S_ : Shape := ⟨0, ![]⟩
abbrev S4000000x1 : Shape := ⟨2, ![4000000, 1]⟩
abbrev S4000000x1x1 : Shape := ⟨3, ![4000000, 1, 1]⟩
abbrev S4000000x2 : Shape := ⟨2, ![4000000, 2]⟩
abbrev S4000000x5x5 : Shape := ⟨3, ![4000000, 5, 5]⟩

abbrev nBuf : Space → Nat
  | .hbm => 240
  | .vmem => 0
  | .smem => 0
  | _ => 0

abbrev hbmTy0_0 (i : Nat) : BufTy := match i % 128 with
  | 0 => ⟨S1x100000, .i32⟩
  | 1 => ⟨S1, .f32⟩
  | 2 => ⟨S2x4000000, .i32⟩
  | 3 => ⟨S4000000, .f32⟩
  | 4 => ⟨S7, .f32⟩
  | 5 => ⟨S7, .f32⟩
  | 6 => ⟨S7x7x5x5, .f32⟩
  | 7 => ⟨S7x7x5x5, .f32⟩
  | 8 => ⟨S7x7x5x5, .f32⟩
  | 9 => ⟨S100000, .i32⟩
  | 10 => ⟨S1x4000000, .i32⟩
  | 11 => ⟨S4000000, .i32⟩
  | 12 => ⟨S1x4000000, .i32⟩
  | 13 => ⟨S4000000, .i32⟩
  | 14 => ⟨S_, .i32⟩
  | 15 => ⟨S4000000, .i32⟩
  | 16 => ⟨S4000000, .i1⟩
  | 17 => ⟨S_, .i32⟩
  | 18 => ⟨S4000000, .i32⟩
  | 19 => ⟨S4000000, .i32⟩
  | 20 => ⟨S4000000, .i32⟩
  | 21 => ⟨S4000000x1, .i32⟩
  | 22 => ⟨S4000000, .i32⟩
  | 23 => ⟨S_, .i32⟩
  | 24 => ⟨S4000000, .i32⟩
  | 25 => ⟨S4000000, .i1⟩
  | 26 => ⟨S_, .i32⟩
  | 27 => ⟨S4000000, .i32⟩
  | 28 => ⟨S4000000, .i32⟩
  | 29 => ⟨S4000000, .i32⟩
  | 30 => ⟨S4000000x1, .i32⟩
  | 31 => ⟨S4000000, .i32⟩
  | 32 => ⟨S_, .i32⟩
  | 33 => ⟨S4000000, .i32⟩
  | 34 => ⟨S4000000, .i1⟩
  | 35 => ⟨S_, .i32⟩
  | 36 => ⟨S4000000, .i32⟩
  | 37 => ⟨S4000000, .i32⟩
  | 38 => ⟨S4000000, .i32⟩
  | 39 => ⟨S4000000x1, .i32⟩
  | 40 => ⟨S4000000, .f32⟩
  | 41 => ⟨S_, .i32⟩
  | 42 => ⟨S4000000, .i32⟩
  | 43 => ⟨S4000000, .i1⟩
  | 44 => ⟨S_, .i32⟩
  | 45 => ⟨S4000000, .i32⟩
  | 46 => ⟨S4000000, .i32⟩
  | 47 => ⟨S4000000, .i32⟩
  | 48 => ⟨S4000000x1, .i32⟩
  | 49 => ⟨S4000000, .f32⟩
  | 50 => ⟨S4000000, .f32⟩
  | 51 => ⟨S_, .f32⟩
  | 52 => ⟨S4000000, .f32⟩
  | 53 => ⟨S4000000, .f32⟩
  | 54 => ⟨S4000000, .f32⟩
  | 55 => ⟨S_, .f32⟩
  | 56 => ⟨S4000000, .f32⟩
  | 57 => ⟨S4000000, .f32⟩
  | 58 => ⟨S_, .f32⟩
  | 59 => ⟨S4000000, .f32⟩
  | 60 => ⟨S4000000, .f32⟩
  | 61 => ⟨S4000000, .f32⟩
  | 62 => ⟨S_, .f32⟩
  | 63 => ⟨S4000000, .f32⟩
  | 64 => ⟨S4000000, .f32⟩
  | 65 => ⟨S_, .f32⟩
  | 66 => ⟨S4000000, .f32⟩
  | 67 => ⟨S4000000, .f32⟩
  | 68 => ⟨S_, .f32⟩
  | 69 => ⟨S100000, .f32⟩
  | 70 => ⟨S_, .i32⟩
  | 71 => ⟨S4000000, .i32⟩
  | 72 => ⟨S4000000, .i1⟩
  | 73 => ⟨S_, .i32⟩
  | 74 => ⟨S4000000, .i32⟩
  | 75 => ⟨S4000000, .i32⟩
  | 76 => ⟨S4000000, .i32⟩
  | 77 => ⟨S4000000x1, .i32⟩
  | 78 => ⟨S100000, .f32⟩
  | 79 => ⟨S_, .i32⟩
  | 80 => ⟨S4000000, .i32⟩
  | 81 => ⟨S4000000, .i1⟩
  | 82 => ⟨S_, .i32⟩
  | 83 => ⟨S4000000, .i32⟩
  | 84 => ⟨S4000000, .i32⟩
  | 85 => ⟨S4000000, .i32⟩
  | 86 => ⟨S4000000x1, .i32⟩
  | 87 => ⟨S100000, .f32⟩
  | 88 => ⟨S_, .i32⟩
  | 89 => ⟨S4000000, .i32⟩
  | 90 => ⟨S4000000, .i1⟩
  | 91 => ⟨S_, .i32⟩
  | 92 => ⟨S4000000, .i32⟩
  | 93 => ⟨S4000000, .i32⟩
  | 94 => ⟨S4000000, .i32⟩
  | 95 => ⟨S4000000x1, .i32⟩
  | 96 => ⟨S4000000, .f32⟩
  | 97 => ⟨S4000000x1x1, .f32⟩
  | 98 => ⟨S_, .i32⟩
  | 99 => ⟨S4000000, .i32⟩
  | 100 => ⟨S4000000, .i1⟩
  | 101 => ⟨S_, .i32⟩
  | 102 => ⟨S4000000, .i32⟩
  | 103 => ⟨S4000000, .i32⟩
  | 104 => ⟨S4000000, .i32⟩
  | 105 => ⟨S4000000x1, .i32⟩
  | 106 => ⟨S4000000, .f32⟩
  | 107 => ⟨S4000000x1x1, .f32⟩
  | 108 => ⟨S_, .i32⟩
  | 109 => ⟨S4000000, .i32⟩
  | 110 => ⟨S4000000, .i1⟩
  | 111 => ⟨S_, .i32⟩
  | 112 => ⟨S4000000, .i32⟩
  | 113 => ⟨S4000000, .i32⟩
  | 114 => ⟨S4000000, .i32⟩
  | 115 => ⟨S_, .i32⟩
  | 116 => ⟨S4000000, .i32⟩
  | 117 => ⟨S4000000, .i1⟩
  | 118 => ⟨S_, .i32⟩
  | 119 => ⟨S4000000, .i32⟩
  | 120 => ⟨S4000000, .i32⟩
  | 121 => ⟨S4000000, .i32⟩
  | 122 => ⟨S4000000x1, .i32⟩
  | 123 => ⟨S4000000x1, .i32⟩
  | 124 => ⟨S4000000x2, .i32⟩
  | 125 => ⟨S4000000x5x5, .f32⟩
  | 126 => ⟨S_, .i32⟩
  | 127 => ⟨S4000000, .i32⟩
  | _ => ⟨S1x100000, .i32⟩

abbrev hbmTy0_1 (i : Nat) : BufTy := match i % 128 with
  | 0 => ⟨S4000000, .i1⟩
  | 1 => ⟨S_, .i32⟩
  | 2 => ⟨S4000000, .i32⟩
  | 3 => ⟨S4000000, .i32⟩
  | 4 => ⟨S4000000, .i32⟩
  | 5 => ⟨S_, .i32⟩
  | 6 => ⟨S4000000, .i32⟩
  | 7 => ⟨S4000000, .i1⟩
  | 8 => ⟨S_, .i32⟩
  | 9 => ⟨S4000000, .i32⟩
  | 10 => ⟨S4000000, .i32⟩
  | 11 => ⟨S4000000, .i32⟩
  | 12 => ⟨S4000000x1, .i32⟩
  | 13 => ⟨S4000000x1, .i32⟩
  | 14 => ⟨S4000000x2, .i32⟩
  | 15 => ⟨S4000000x5x5, .f32⟩
  | 16 => ⟨S_, .i32⟩
  | 17 => ⟨S4000000, .i32⟩
  | 18 => ⟨S4000000, .i1⟩
  | 19 => ⟨S_, .i32⟩
  | 20 => ⟨S4000000, .i32⟩
  | 21 => ⟨S4000000, .i32⟩
  | 22 => ⟨S4000000, .i32⟩
  | 23 => ⟨S_, .i32⟩
  | 24 => ⟨S4000000, .i32⟩
  | 25 => ⟨S4000000, .i1⟩
  | 26 => ⟨S_, .i32⟩
  | 27 => ⟨S4000000, .i32⟩
  | 28 => ⟨S4000000, .i32⟩
  | 29 => ⟨S4000000, .i32⟩
  | 30 => ⟨S4000000x1, .i32⟩
  | 31 => ⟨S4000000x1, .i32⟩
  | 32 => ⟨S4000000x2, .i32⟩
  | 33 => ⟨S4000000x5x5, .f32⟩
  | 34 => ⟨S4000000x5x5, .f32⟩
  | 35 => ⟨S4000000x5x5, .f32⟩
  | 36 => ⟨S4000000x5x5, .f32⟩
  | 37 => ⟨S4000000x5x5, .f32⟩
  | 38 => ⟨S4000000x5x5, .f32⟩
  | 39 => ⟨S4000000x5x5, .f32⟩
  | 40 => ⟨S4000000x5x5, .f32⟩
  | 41 => ⟨S_, .f32⟩
  | 42 => ⟨S4000000x5x5, .f32⟩
  | 43 => ⟨S4000000x5x5, .f32⟩
  | 44 => ⟨S4000000x5x5, .f32⟩
  | 45 => ⟨S_, .f32⟩
  | 46 => ⟨S4000000, .f32⟩
  | 47 => ⟨S4000000x5x5, .f32⟩
  | 48 => ⟨S_, .f32⟩
  | 49 => ⟨S4000000, .f32⟩
  | 50 => ⟨S4000000, .f32⟩
  | 51 => ⟨S_, .i32⟩
  | 52 => ⟨S4000000, .i32⟩
  | 53 => ⟨S4000000, .i1⟩
  | 54 => ⟨S_, .i32⟩
  | 55 => ⟨S4000000, .i32⟩
  | 56 => ⟨S4000000, .i32⟩
  | 57 => ⟨S4000000, .i32⟩
  | 58 => ⟨S4000000x1, .i32⟩
  | 59 => ⟨S4000000, .f32⟩
  | 60 => ⟨S_, .i32⟩
  | 61 => ⟨S4000000, .i32⟩
  | 62 => ⟨S4000000, .i1⟩
  | 63 => ⟨S_, .i32⟩
  | 64 => ⟨S4000000, .i32⟩
  | 65 => ⟨S4000000, .i32⟩
  | 66 => ⟨S4000000, .i32⟩
  | 67 => ⟨S4000000x1, .i32⟩
  | 68 => ⟨S4000000, .f32⟩
  | 69 => ⟨S4000000, .f32⟩
  | 70 => ⟨S_, .f32⟩
  | 71 => ⟨S4000000, .f32⟩
  | 72 => ⟨S4000000, .f32⟩
  | 73 => ⟨S4000000, .f32⟩
  | 74 => ⟨S_, .f32⟩
  | 75 => ⟨S4000000, .f32⟩
  | 76 => ⟨S4000000, .f32⟩
  | 77 => ⟨S4000000, .f32⟩
  | 78 => ⟨S_, .f32⟩
  | 79 => ⟨S4000000, .f32⟩
  | 80 => ⟨S4000000, .f32⟩
  | 81 => ⟨S_, .f32⟩
  | 82 => ⟨S4000000, .f32⟩
  | 83 => ⟨S4000000, .f32⟩
  | 84 => ⟨S4000000, .f32⟩
  | 85 => ⟨S4000000, .f32⟩
  | 86 => ⟨S4000000, .f32⟩
  | 87 => ⟨S4000000, .f32⟩
  | 88 => ⟨S4000000, .f32⟩
  | 89 => ⟨S4000000, .f32⟩
  | 90 => ⟨S4000000, .f32⟩
  | 91 => ⟨S4000000, .f32⟩
  | 92 => ⟨S4000000, .f32⟩
  | 93 => ⟨S4000000, .f32⟩
  | 94 => ⟨S4000000, .f32⟩
  | 95 => ⟨S4000000, .f32⟩
  | 96 => ⟨S4000000, .f32⟩
  | 97 => ⟨S4000000, .f32⟩
  | 98 => ⟨S_, .f32⟩
  | 99 => ⟨S4000000, .f32⟩
  | 100 => ⟨S4000000, .f32⟩
  | 101 => ⟨S4000000, .f32⟩
  | 102 => ⟨S_, .f32⟩
  | 103 => ⟨S4000000, .f32⟩
  | 104 => ⟨S4000000, .f32⟩
  | 105 => ⟨S4000000, .f32⟩
  | 106 => ⟨S4000000, .f32⟩
  | 107 => ⟨S_, .f32⟩
  | 108 => ⟨S_, .f32⟩
  | 109 => ⟨S_, .f32⟩
  | 110 => ⟨S1, .f32⟩
  | 111 => ⟨S1, .f32⟩
  | _ => ⟨S1x100000, .i32⟩

abbrev hbmTy (i : Nat) : BufTy := match i / 128 with
  | 0 => hbmTy0_0 i
  | 1 => hbmTy0_1 i
  | _ => ⟨S1x100000, .i32⟩

abbrev bufTy : (tb : Table) → Fin (tcTables nBuf tb) → BufTy
  | .hbm, ⟨i, _⟩ => hbmTy i
  | _, _ => ⟨S1x100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_c_12 : Ref sig .tc := ⟨.hbm, 70, rfl⟩
abbrev main_v47 : Ref sig .tc := ⟨.hbm, 71, rfl⟩
abbrev main_v48 : Ref sig .tc := ⟨.hbm, 72, rfl⟩
abbrev main_c_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_14 : Ref sig .tc := ⟨.hbm, 79, rfl⟩
abbrev main_v54 : Ref sig .tc := ⟨.hbm, 80, rfl⟩
abbrev main_v55 : Ref sig .tc := ⟨.hbm, 81, rfl⟩
abbrev main_c_15 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_16 : Ref sig .tc := ⟨.hbm, 88, rfl⟩
abbrev main_v61 : Ref sig .tc := ⟨.hbm, 89, rfl⟩
abbrev main_v62 : Ref sig .tc := ⟨.hbm, 90, rfl⟩
abbrev main_c_17 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_18 : Ref sig .tc := ⟨.hbm, 98, rfl⟩
abbrev main_v69 : Ref sig .tc := ⟨.hbm, 99, rfl⟩
abbrev main_v70 : Ref sig .tc := ⟨.hbm, 100, rfl⟩
abbrev main_c_19 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_20 : Ref sig .tc := ⟨.hbm, 108, rfl⟩
abbrev main_v77 : Ref sig .tc := ⟨.hbm, 109, rfl⟩
abbrev main_v78 : Ref sig .tc := ⟨.hbm, 110, rfl⟩
abbrev main_c_21 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_22 : Ref sig .tc := ⟨.hbm, 115, rfl⟩
abbrev main_v82 : Ref sig .tc := ⟨.hbm, 116, rfl⟩
abbrev main_v83 : Ref sig .tc := ⟨.hbm, 117, rfl⟩
abbrev main_c_23 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_24 : Ref sig .tc := ⟨.hbm, 126, rfl⟩
abbrev main_v91 : Ref sig .tc := ⟨.hbm, 127, rfl⟩
abbrev main_v92 : Ref sig .tc := ⟨.hbm, 128, rfl⟩
abbrev main_c_25 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_26 : Ref sig .tc := ⟨.hbm, 133, rfl⟩
abbrev main_v96 : Ref sig .tc := ⟨.hbm, 134, rfl⟩
abbrev main_v97 : Ref sig .tc := ⟨.hbm, 135, rfl⟩
abbrev main_c_27 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_c_28 : Ref sig .tc := ⟨.hbm, 144, rfl⟩
abbrev main_v105 : Ref sig .tc := ⟨.hbm, 145, rfl⟩
abbrev main_v106 : Ref sig .tc := ⟨.hbm, 146, rfl⟩
abbrev main_c_29 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_30 : Ref sig .tc := ⟨.hbm, 151, rfl⟩
abbrev main_v110 : Ref sig .tc := ⟨.hbm, 152, rfl⟩
abbrev main_v111 : Ref sig .tc := ⟨.hbm, 153, rfl⟩
abbrev main_c_31 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_32 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_33 : Ref sig .tc := ⟨.hbm, 173, rfl⟩
abbrev main_v129 : Ref sig .tc := ⟨.hbm, 174, rfl⟩
abbrev main_v130 : Ref sig .tc := ⟨.hbm, 175, rfl⟩
abbrev main_cst_34 : Ref sig .tc := ⟨.hbm, 176, rfl⟩
abbrev main_v131 : Ref sig .tc := ⟨.hbm, 177, rfl⟩
abbrev main_v132 : Ref sig .tc := ⟨.hbm, 178, rfl⟩
abbrev main_c_35 : Ref sig .tc := ⟨.hbm, 179, rfl⟩
abbrev main_v133 : Ref sig .tc := ⟨.hbm, 180, rfl⟩
abbrev main_v134 : Ref sig .tc := ⟨.hbm, 181, rfl⟩
abbrev main_c_36 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_c_37 : Ref sig .tc := ⟨.hbm, 188, rfl⟩
abbrev main_v140 : Ref sig .tc := ⟨.hbm, 189, rfl⟩
abbrev main_v141 : Ref sig .tc := ⟨.hbm, 190, rfl⟩
abbrev main_c_38 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_39 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_cst_40 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_41 : Ref sig .tc := ⟨.hbm, 206, rfl⟩
abbrev main_v154 : Ref sig .tc := ⟨.hbm, 207, rfl⟩
abbrev main_v155 : Ref sig .tc := ⟨.hbm, 208, rfl⟩
abbrev main_cst_42 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_cst_43 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_cst_44 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_cst_45 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩

abbrev nD : Nat := 1
abbrev τ : Topo := Topo.v7x

variable {F : FTy → Type} [FloatOps F]

class Facts₀ : Prop where
  shapeCasts_S1x100000_S100000 : S1x100000.ShapeCasts S100000
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S100000 : S_.BroadcastsInDim S100000 (![] : Fin 0 → Fin S100000.rank)
  bcast_S4000000_S4000000x1x1_0 : S4000000.BroadcastsInDim S4000000x1x1 (![0] : Fin 1 → Fin S4000000x1x1.rank)
  concatenates_S4000000x1_S4000000x1_S4000000x2_d1 : Shape.Concatenates [S4000000x1, S4000000x1] S4000000x2 1
  bcast_S4000000x1x1_S4000000x5x5_0_1_2 : S4000000x1x1.BroadcastsInDim S4000000x5x5 (![0, 1, 2] : Fin 3 → Fin S4000000x5x5.rank)
  bcast_S_S4000000x5x5 : S_.BroadcastsInDim S4000000x5x5 (![] : Fin 0 → Fin S4000000x5x5.rank)
  reducesTo_S4000000x5x5_S4000000_d1_2 : S4000000x5x5.ReducesTo [1, 2] S4000000
  h_S_ : 0 < S_.numel
  reducesTo_S4000000_S_d0 : S4000000.ReducesTo [0] S_
  bcast_S_S1 : S_.BroadcastsInDim S1 (![] : Fin 0 → Fin S1.rank)
  gather_S100000_S4000000x1_S4000000_n_0_n_n_0_1_1_wf : GatherDims.WF S100000 S4000000x1 S4000000 [] [0] [] [0] [] 1 ![1]
  gather_S7_S4000000x1_S4000000_n_0_n_n_0_1_1_wf : GatherDims.WF S7 S4000000x1 S4000000 [] [0] [] [0] [] 1 ![1]
  scatter_S100000_S4000000x1_S4000000_n_0_0_1_wf : ScatterDims.WF S100000 S4000000x1 S4000000 [] [0] [0] 1
  gather_S7x7x5x5_S4000000x2_S4000000x5x5_12_01_n_n_01_1_1155_wf : GatherDims.WF S7x7x5x5 S4000000x2 S4000000x5x5 [1, 2] [0, 1] [] [0, 1] [] 1 ![1, 1, 5, 5]

variable [Facts₀]

def gather_S100000_S4000000x1_S4000000_n_0_n_n_0_1_1 : GatherDims S100000 S4000000x1 S4000000 where
  offsetDims := []
  collapsedSliceDims := [0]
  operandBatchingDims := []
  startIndicesBatchingDims := []
  startIndexMap := [0]
  indexVectorDim := 1
  sliceSizes := ![1]
  wf := gather_S100000_S4000000x1_S4000000_n_0_n_n_0_1_1_wf
def gather_S7_S4000000x1_S4000000_n_0_n_n_0_1_1 : GatherDims S7 S4000000x1 S4000000 where
  offsetDims := []
  collapsedSliceDims := [0]
  operandBatchingDims := []
  startIndicesBatchingDims := []
  startIndexMap := [0]
  indexVectorDim := 1
  sliceSizes := ![1]
  wf := gather_S7_S4000000x1_S4000000_n_0_n_n_0_1_1_wf
def scatter_S100000_S4000000x1_S4000000_n_0_0_1 : ScatterDims S100000 S4000000x1 S4000000 where
  updateWindowDims := []
  insertedWindowDims := [0]
  scatterDimsToOperandDims := [0]
  indexVectorDim := 1
  wf := scatter_S100000_S4000000x1_S4000000_n_0_0_1_wf
def gather_S7x7x5x5_S4000000x2_S4000000x5x5_12_01_n_n_01_1_1155 : GatherDims S7x7x5x5 S4000000x2 S4000000x5x5 where
  offsetDims := [1, 2]
  collapsedSliceDims := [0, 1]
  operandBatchingDims := []
  startIndicesBatchingDims := []
  startIndexMap := [0, 1]
  indexVectorDim := 1
  sliceSizes := ![1, 1, 5, 5]
  wf := gather_S7x7x5x5_S4000000x2_S4000000x5x5_12_01_n_n_01_1_1155_wf

class Facts : Prop extends Facts₀ where

variable [Facts]
-- ==== Proof.Spec.lean ====
/-
  The mathematics of one pair, over the extended reals, free of any program.

  For a pair with coordination numbers ci, cj, distance d, charge product q and, at each of its reference points k,
  reference coordination numbers ra k, rb k and a reference coefficient cp k:
    weight      g k  = exp (-4 ((ci - ra k)^2 + (cj - rb k)^2))
    coefficient C6   = (sum_k g k * cp k) / (sum_k g k)
    radius      b    = 0.3 sqrt (3 q) + 5
    term             = 1 * C6 / (d^6 + b^6) + 0.2641 * ((3 C6) q) / (d^8 + b^8),
  with d^6 = d^2 (d^2 d^2) and d^8 = (d^2 d^2)(d^2 d^2), as both programs multiply them out. The constants stay the
  32-bit words both programs carry; only the zero word and, for the row of zeros a padded tile holds, the words of
  5, 3 and 0.3 are ever evaluated.
-/
import Idealize.ShloMosaic.PureOps.Ideal
import Idealize.ShloMosaic.PureOps.Ideal.Laws
import Mathlib.Algebra.BigOperators.Fin
import Mathlib.Algebra.BigOperators.Group.Finset.Basic
import Mathlib.Data.Fintype.BigOperators
import Mathlib.Logic.Equiv.Fin.Basic

noncomputable section

namespace Cert.Dispersion

open Idealize.ShloMosaic

/-- A 32-bit float word read as an extended real. -/
abbrev lit (w : BitVec 32) : EReal := Ideal.ofBits .f32 w

/-- The Gaussian weight of one reference point. -/
def gpt (ci cj ra rb : EReal) : EReal :=
  Ideal.exp (lit 0xC0800000#32 * ((ci - ra) * (ci - ra) + (cj - rb) * (cj - rb)))

/-- The damping radius 0.3 sqrt (3 q) + 5. -/
def bjr (q : EReal) : EReal := lit 0x3E99999A#32 * Ideal.sqrt (lit 0x40400000#32 * q) + lit 0x40A00000#32

/-- The damped two-body term of a pair with interpolated coefficient c, charge product q and distance d. -/
def damped (c q d : EReal) : EReal :=
  Ideal.div (lit 0x3F800000#32 * c)
      ((d * d) * ((d * d) * (d * d)) + (bjr q * bjr q) * ((bjr q * bjr q) * (bjr q * bjr q)))
    + Ideal.div (lit 0x3E87381D#32 * ((lit 0x40400000#32 * c) * q))
      (((d * d) * (d * d)) * ((d * d) * (d * d)) + ((bjr q * bjr q) * (bjr q * bjr q)) * ((bjr q * bjr q) * (bjr q * bjr q)))

/-- The weighted mean of the reference coefficients. -/
def c6mean {ι : Type} [Fintype ι] (ci cj : EReal) (ra rb cp : ι → EReal) : EReal :=
  Ideal.div (∑ k, gpt ci cj (ra k) (rb k) * cp k) (∑ k, gpt ci cj (ra k) (rb k))

/-- The two-body term of one pair, over any finite set of reference points. -/
def pairTerm {ι : Type} [Fintype ι] (ci cj d q : EReal) (ra rb cp : ι → EReal) : EReal :=
  damped (c6mean ci cj ra rb cp) q d

/-- The term does not depend on how the reference points are numbered. -/
theorem pairTerm_equiv {ι κ : Type} [Fintype ι] [Fintype κ] (e : ι ≃ κ) (ci cj d q : EReal) (ra rb cp : κ → EReal) :
    pairTerm ci cj d q (fun k => ra (e k)) (fun k => rb (e k)) (fun k => cp (e k)) = pairTerm ci cj d q ra rb cp := by
  have h1 : ∑ k, gpt ci cj (ra (e k)) (rb (e k)) * cp (e k) = ∑ k, gpt ci cj (ra k) (rb k) * cp k :=
    Equiv.sum_comp e (fun k => gpt ci cj (ra k) (rb k) * cp k)
  have h2 : ∑ k, gpt ci cj (ra (e k)) (rb (e k)) = ∑ k, gpt ci cj (ra k) (rb k) :=
    Equiv.sum_comp e (fun k => gpt ci cj (ra k) (rb k))
  simp only [pairTerm, c6mean]
  rw [h1, h2]

/-- The zero word is zero. -/
theorem lit_zero : lit 0x00000000#32 = 0 := by
  exact Ideal.ofBits_zero_f32

/-- Zero over a nonzero divisor is zero. -/
private theorem div_zero_left {y : EReal} (hy : y ≠ 0) : Ideal.div 0 y = 0 := by
  unfold Ideal.div
  rw [if_neg hy, zero_mul]

/-- The word of 5: sign 0, exponent 129, fraction 2^21, that is (2^23 + 2^21) 2^(129 - 127 - 23) = 5. -/
private theorem lit_five : lit 0x40A00000#32 = ((5 : ℝ) : EReal) := by
  simp [Ideal.ofBits, Ideal.ieee, -EReal.coe_mul]; norm_num

/-- A padded row (every entry zero, 25 reference points) contributes exactly zero: the weights are all 1, their sum
    25, the coefficient 0 / 25 = 0, the radius 5, both numerators 0 over denominators 5^6 and 5^8. -/
theorem pairTerm_pad :
    pairTerm (ι := Fin 25) 0 0 0 0 (fun _ => 0) (fun _ => 0) (fun _ => 0) = 0 := by
  have hg : gpt 0 0 0 0 = 1 := by
    unfold gpt
    rw [sub_zero, mul_zero, add_zero, mul_zero, ← EReal.coe_zero, Ideal.exp_coe, Real.exp_zero, EReal.coe_one]
  have h25 : (∑ _k : Fin 25, (1 : EReal)) ≠ 0 := by
    rw [Finset.sum_const, Finset.card_univ, Fintype.card_fin, EReal.nsmul_eq_mul, mul_one, ← EReal.coe_coe_eq_natCast]
    exact EReal.coe_ne_zero.mpr (by norm_num)
  have hc : c6mean (ι := Fin 25) 0 0 (fun _ => 0) (fun _ => 0) (fun _ => 0) = 0 := by
    unfold c6mean
    simp only [hg, mul_zero, Finset.sum_const_zero]
    exact div_zero_left h25
  have hb : bjr 0 = ((5 : ℝ) : EReal) := by
    unfold bjr
    rw [mul_zero, ← EReal.coe_zero, Ideal.sqrt_coe, if_neg (lt_irrefl 0), Real.sqrt_zero, EReal.coe_zero, mul_zero,
      zero_add, lit_five]
  have h5 : ((5 : ℝ) : EReal) ≠ 0 := EReal.coe_ne_zero.mpr (by norm_num)
  have h55 : ((5 : ℝ) : EReal) * ((5 : ℝ) : EReal) ≠ 0 := mul_ne_zero h5 h5
  unfold pairTerm
  rw [hc]
  unfold damped
  rw [hb]
  simp only [mul_zero, zero_add]
  rw [div_zero_left (mul_ne_zero h55 (mul_ne_zero h55 h55)),
    div_zero_left (mul_ne_zero (mul_ne_zero h55 h55) (mul_ne_zero h55 h55)), add_zero]

/-- The words of 16 and -16: exponent 131, fraction 0, that is 2^23 2^(131 - 127 - 23) = 16, with the sign bit clear and set. -/
private theorem lit_sixteen : lit 0x41800000#32 = ((16 : ℝ) : EReal) := by
  simp [Ideal.ofBits, Ideal.ieee, -EReal.coe_mul]; norm_num

private theorem lit_neg_sixteen : lit 0xC1800000#32 = ((-16 : ℝ) : EReal) := by
  simp [Ideal.ofBits, Ideal.ieee, -EReal.coe_mul]; norm_num

/-- The two spellings of the logistic exponent: (-16) z and -(16 z). -/
theorem neg16_mul (z : EReal) : lit 0xC1800000#32 * z = -(lit 0x41800000#32 * z) := by
  rw [lit_neg_sixteen, lit_sixteen, EReal.coe_neg, neg_mul]

/-- A row function on the first 4,000,000 naturals, continued by zero. -/
private def tail (f : Fin 4000000 → EReal) (q : ℕ) : EReal := if h : q < 4000000 then f ⟨q, h⟩ else 0

/-- The sum over 123 tiles of 32,768 rows of a row function that is f on the first 4,000,000 rows and zero on the
    30,464 rows after them is the sum of f. -/
theorem sum_tiles (f : Fin 4000000 → EReal) (g : Fin 123 → Fin 32768 → EReal)
    (hg : ∀ (t : Fin 123) (r : Fin 32768),
      g t r = if h : t.val * 32768 + r.val < 4000000 then f ⟨t.val * 32768 + r.val, h⟩ else 0) :
    ∑ t, ∑ r, g t r = ∑ p, f p := by
  have hG : ∀ (t : Fin 123) (r : Fin 32768),
      g t r = tail f ((finProdFinEquiv (t, r) : Fin (123 * 32768)) : ℕ) := by
    intro t r
    have e : t.val * 32768 + r.val = ((finProdFinEquiv (t, r) : Fin (123 * 32768)) : ℕ) := by
      simp only [finProdFinEquiv_apply_val]; omega
    rw [← e]
    exact hg t r
  calc ∑ t, ∑ r, g t r
      = ∑ x : Fin 123 × Fin 32768, tail f ((finProdFinEquiv x : Fin (123 * 32768)) : ℕ) := by
        rw [Fintype.sum_prod_type]
        exact Finset.sum_congr rfl fun t _ => Finset.sum_congr rfl fun r _ => hG t r
    _ = ∑ q : Fin (123 * 32768), tail f (q : ℕ) :=
        Equiv.sum_comp finProdFinEquiv (fun q : Fin (123 * 32768) => tail f (q : ℕ))
    _ = ∑ q ∈ Finset.range (123 * 32768), tail f q := Fin.sum_univ_eq_sum_range (tail f) (123 * 32768)
    _ = ∑ q ∈ Finset.range 4000000, tail f q :=
        (Finset.sum_subset (Finset.range_subset_range.mpr (by norm_num)) fun q _ hq => by
          have hq' : ¬ q < 4000000 := fun h => hq (Finset.mem_range.mpr h)
          simp only [tail, dif_neg hq']).symm
    _ = ∑ p, f p := (Finset.sum_fin_eq_sum_range f).symm

/-- The 25 reference points as a 5 x 5 block: point 5 a + b is (a, b). -/
def pt55 : Fin 5 × Fin 5 ≃ Fin 25 := finProdFinEquiv

theorem pt55_val (a b : Fin 5) : (pt55 (a, b)).val = b.val + 5 * a.val := by
  exact finProdFinEquiv_apply_val (a, b)

end Cert.Dispersion

end
-- ==== Proof.LibColumn.lean ====
/-
  A column kept after a sum over the last axis, read at an index.

  A length-a vector viewed as an a × 1 column reads, at (i, 0), the vector at i; an a × 1 column repeated along
  b columns reads, at (i, j), the column at (i, 0), whatever j. Together they say that a row total broadcast
  back over its row is that total at every column.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KBody.lean ====
/-
  What one grid point's body computes, at the extended reals: the scalar accumulator is raised by the sum, over the
  32,768 rows of the point's tile, of the row's two-body term; at the grid's first point the accumulator starts at 0.
-/
import proofs.«407585_j32469952757807_1_alg».proof.Proof.Gen.KernelIdeal.Skeleton
import proofs.«407585_j32469952757807_1_alg».proof.Proof.Spec
import proofs.«407585_j32469952757807_1_alg».proof.Proof.LibColumn
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.TcCoe Idealize.ShloMosaic.ValueIdx
open Cert.Dispersion

/-- The two-body term of row r of a tile, from the tile's four columns and three 25-wide tables. -/
def rowTerm (x0 x1 x2 x3 : Vec Ideal S32768x1 .f32) (x4 x5 x6 : Vec Ideal S32768x25 .f32) (r : Fin 32768) : EReal :=
  pairTerm (x0 (ix2 r 0)) (x1 (ix2 r 0)) (x2 (ix2 r 0)) (x3 (ix2 r 0))
    (fun k : Fin 25 => x4 (ix2 r k)) (fun k : Fin 25 => x5 (ix2 r k)) (fun k : Fin 25 => x6 (ix2 r k))

/-- The tile's sum. -/
def tileSum (x0 x1 x2 x3 : Vec Ideal S32768x1 .f32) (x4 x5 x6 : Vec Ideal S32768x25 .f32) : EReal :=
  ∑ r : Fin 32768, rowTerm x0 x1 x2 x3 x4 x5 x6 r

/-- The one index of a one-by-one array. -/
private theorem idx11 (j : S1x1.Idx) : j = ix2 0 0 := by
  funext a
  match a with
  | ⟨0, _⟩ => exact Fin.ext (Nat.lt_one_iff.mp (j _).isLt)
  | ⟨1, _⟩ => exact Fin.ext (Nat.lt_one_iff.mp (j _).isLt)

/-- The one index of a one-element vector. -/
private theorem idx1 (j : S1.Idx) : j = ix1 0 := by
  funext a
  match a with
  | ⟨0, _⟩ => exact Fin.ext (Nat.lt_one_iff.mp (j _).isLt)

/-- The rows of a one-by-32768-by-one array. -/
private def rowEquiv : S1x32768x1.Idx ≃ Fin 32768 where
  toFun i := i 1
  invFun r := ix3 0 r 0
  left_inv i := by
    funext a
    match a with
    | ⟨0, _⟩ => exact Fin.ext (Nat.lt_one_iff.mp (i _).isLt).symm
    | ⟨1, _⟩ => rfl
    | ⟨2, _⟩ => exact Fin.ext (Nat.lt_one_iff.mp (i _).isLt).symm
  right_inv _ := rfl

/-- The accumulator's cell after one element m is added to it. -/
private theorem cell_apply (m : FVec Ideal S1 .f32) (v64 : Vec Ideal S1x1 .f32) (j : S1x1.Idx) :
    shapeCast S1x1 (addf v64 (broadcast S1x1 (extractAt ![0, 0, 0] (shapeCast S1x1x1 m shapeCasts_S1_S1x1x1)
        inpos_S1x1x1_p0_0_0))) shapeCasts_S1x1_S1x1 j
      = v64 (ix2 0 0) + m (ix1 0) := by
  rw [shapeCast_self, idx11 j]
  show v64 (ix2 0 0) + m (Shape.reshapeEquiv shapeCasts_S1_S1x1x1 _) = _
  rw [idx1 (Shape.reshapeEquiv shapeCasts_S1_S1x1x1 _)]

/-- The sum of a column over its one-by-32768-by-one recast is the sum over its rows. -/
private theorem total_apply (c : FVec Ideal S32768x1 .f32) (j : S1.Idx) :
    multiReduction (F := Ideal) .add [1, 2] S1 (shapeCast S1x32768x1 c shapeCasts_S32768x1_S1x32768x1) 0x00000000#32
        reduces_S1x32768x1_S1 (.inl rfl) rfl j
      = ∑ r : Fin 32768, c (ix2 r 0) := by
  refine (Ideal.multiReduction_add_total _ _ reduces_S1x32768x1_S1 (by decide) (.inl rfl) rfl j).trans ?_
  refine (Equiv.sum_comp rowEquiv.symm (fun i => shapeCast S1x32768x1 c shapeCasts_S32768x1_S1x32768x1 i)).symm.trans ?_
  exact Finset.sum_congr rfl fun r _ => shapeCast_ab_1ab_apply c shapeCasts_S32768x1_S1x32768x1 0 r 0

/-- A sum over the 25 columns, kept as a column: at row r it is the sum of the row. -/
private theorem laneSum_apply (v : FVec Ideal S32768x25 .f32) (r : Fin 32768) :
    shapeCast S32768x1 (multiReduction (F := Ideal) .add [1] S32768 v 0x00000000#32 reduces_S32768x25_S32768 (.inl rfl) rfl)
        shapeCasts_S32768_S32768x1 (ix2 r 0)
      = ∑ k : Fin 25, v (ix2 r k) := by
  refine (Cert.LibColumn.shapeCast_a_a1_apply _ shapeCasts_S32768_S32768x1 r 0).trans ?_
  refine (Ideal.multiReduction_add_single v _ reduces_S32768x25_S32768 (.inl rfl) rfl (ix1 r)).trans ?_
  refine Finset.sum_congr rfl fun k _ => congrArg v ?_
  funext a
  match a with
  | ⟨0, _⟩ => exact Fin.ext rfl
  | ⟨1, _⟩ => exact Fin.ext rfl

/-- The weight of reference point k of row r, as the kernel computes it. -/
private theorem weight_apply (a b : FVec Ideal S32768x1 .f32) (p q : FVec Ideal S32768x25 .f32) (r : Fin 32768) (k : Fin 25) :
    exp (mulf (broadcast S32768x25 (Scalar.ofBits (F := Ideal) .f32 0xC0800000#32))
        (addf (mulf (subf (broadcastTo S32768x25 a broadcasts_S32768x1_S32768x25) p) (subf (broadcastTo S32768x25 a broadcasts_S32768x1_S32768x25) p))
              (mulf (subf (broadcastTo S32768x25 b broadcasts_S32768x1_S32768x25) q) (subf (broadcastTo S32768x25 b broadcasts_S32768x1_S32768x25) q))))
        (ix2 r k)
      = gpt (a (ix2 r 0)) (b (ix2 r 0)) (p (ix2 r k)) (q (ix2 r k)) := by
  have ha := Cert.LibColumn.broadcastTo_a1_ab_apply a broadcasts_S32768x1_S32768x25 r k
  have hb := Cert.LibColumn.broadcastTo_a1_ab_apply b broadcasts_S32768x1_S32768x25 r k
  show Ideal.exp (lit 0xC0800000#32
      * ((broadcastTo S32768x25 a broadcasts_S32768x1_S32768x25 (ix2 r k) - p (ix2 r k))
            * (broadcastTo S32768x25 a broadcasts_S32768x1_S32768x25 (ix2 r k) - p (ix2 r k))
          + (broadcastTo S32768x25 b broadcasts_S32768x1_S32768x25 (ix2 r k) - q (ix2 r k))
            * (broadcastTo S32768x25 b broadcasts_S32768x1_S32768x25 (ix2 r k) - q (ix2 r k)))) = _
  rw [ha, hb]
  rfl

/-- The interpolated coefficient of row r, as the kernel computes it. -/
private theorem pay5_apply (x0 x1 : Vec Ideal S32768x1 .f32) (x4 x5 x6 : Vec Ideal S32768x25 .f32) (r : Fin 32768) :
    k0_pay5 (F := Ideal) x0 x1 x4 x5 x6 (ix2 r 0)
      = c6mean (x0 (ix2 r 0)) (x1 (ix2 r 0)) (fun k : Fin 25 => x4 (ix2 r k)) (fun k : Fin 25 => x5 (ix2 r k))
          (fun k : Fin 25 => x6 (ix2 r k)) := by
  unfold k0_pay5 c6mean
  simp only [shapeCast_self]
  refine (divf_apply _ _ _).trans ?_
  refine congrArg₂ Ideal.div ?_ ?_
  · refine (laneSum_apply _ r).trans ?_
    exact Finset.sum_congr rfl fun k _ =>
      (mulf_apply _ _ _).trans (congrArg (fun t : EReal => t * x6 (ix2 r k)) (weight_apply x0 x1 x4 x5 r k))
  · refine (laneSum_apply _ r).trans ?_
    exact Finset.sum_congr rfl fun k _ => weight_apply x0 x1 x4 x5 r k

/-- The second numerator's factor of row r: three times the coefficient, times the charge product. -/
private theorem pay6_apply (x0 x1 x3 : Vec Ideal S32768x1 .f32) (x4 x5 x6 : Vec Ideal S32768x25 .f32) (r : Fin 32768) :
    k0_pay6 (F := Ideal) x0 x1 x3 x4 x5 x6 (ix2 r 0)
      = (lit 0x40400000#32 * k0_pay5 (F := Ideal) x0 x1 x4 x5 x6 (ix2 r 0)) * x3 (ix2 r 0) := by
  unfold k0_pay6 k0_pay4
  simp only [shapeCast_self]
  rfl

/-- The damping radius with the word under the root left free: 0.3 sqrt (w q) + 5. -/
private def rad (w q : EReal) : EReal := lit 0x3E99999A#32 * Ideal.sqrt (w * q) + lit 0x40A00000#32

/-- The row's term from the five values the last stretch of the body reads at that row: distance d, charge product q,
    coefficient c, the second numerator's factor n and the word w under the root. -/
private def scal (d q c n w : EReal) : EReal :=
  Ideal.div (lit 0x3F800000#32 * c)
      ((d * d) * ((d * d) * (d * d)) + (rad w q * rad w q) * ((rad w q * rad w q) * (rad w q * rad w q)))
    + Ideal.div (lit 0x3E87381D#32 * n)
      (((d * d) * (d * d)) * ((d * d) * (d * d))
        + ((rad w q * rad w q) * (rad w q * rad w q)) * ((rad w q * rad w q) * (rad w q * rad w q)))

/-- With the factor (3 c) q and the word of 3 it is the pair's damped term. -/
private theorem scal_damped (d q c : EReal) :
    scal d q c ((lit 0x40400000#32 * c) * q) (lit 0x40400000#32) = damped c q d := rfl

/-- The body's last stretch over any five columns: the cell is raised by the sum of the rows' terms. -/
private theorem pay1_apply (v8 v10 v32 v35 v36 : FVec Ideal S32768x1 .f32) (v64 : Vec Ideal S1x1 .f32) :
    k0_pay1 (F := Ideal) v8 v10 v32 v35 v36 v64
      = fun _ => v64 (ix2 0 0)
          + ∑ r : Fin 32768, scal (v8 (ix2 r 0)) (v10 (ix2 r 0)) (v32 (ix2 r 0)) (v35 (ix2 r 0)) (v36 (ix2 r 0)) := by
  funext j
  refine (cell_apply _ v64 j).trans ?_
  refine congrArg (v64 (ix2 0 0) + ·) ?_
  exact total_apply (fun i => scal (v8 i) (v10 i) (v32 i) (v35 i) (v36 i)) (ix1 0)

/-- The accumulator's start: zero. -/
theorem acc_init : k0_pay2 (F := Ideal) = fun _ => (0 : EReal) := by
  unfold k0_pay2
  refine (shapeCast_self _ _).trans ?_
  funext j
  exact lit_zero

/-- One point's step: the accumulator plus the tile's sum. -/
theorem acc_step (x0 x1 x2 x3 : Vec Ideal S32768x1 .f32) (x4 x5 x6 : Vec Ideal S32768x25 .f32) (acc : Vec Ideal S1x1 .f32) :
    k0_pay1 (F := Ideal) (k0_pay3 x2) (k0_pay4 x3) (k0_pay5 x0 x1 x4 x5 x6) (k0_pay6 x0 x1 x3 x4 x5 x6) k0_pay7 acc
      = fun _ => acc (ix2 0 0) + tileSum x0 x1 x2 x3 x4 x5 x6 := by
  refine (pay1_apply _ _ _ _ _ acc).trans ?_
  funext _
  refine congrArg (acc (ix2 0 0) + ·) (Finset.sum_congr rfl fun r _ => ?_)
  have h3 : k0_pay3 (F := Ideal) x2 = x2 := shapeCast_self _ _
  have h4 : k0_pay4 (F := Ideal) x3 = x3 := shapeCast_self _ _
  have h7 : k0_pay7 (F := Ideal) (ix2 r 0) = lit 0x40400000#32 := rfl
  rw [h3, h4, h7, pay6_apply, pay5_apply]
  exact scal_damped _ _ _

end Cert.KernelIdeal.Body

end
-- ==== Proof.KArr.lean ====
/-
  The kernel program's host arithmetic before its one pipelined region, written as functions of the nine argument
  arrays. Per pair p of the 4,000,000 pairs: the species of its two atoms (two takes out of the species row), the
  coordination numbers of the two atoms (a logistic counting term scattered and accumulated over all pairs, then
  taken back per pair), the product of the two atoms' charge scales, and three rows of 25 reference values taken
  out of the 49 x 25 flattenings of the 7 x 7 x 5 x 5 tables at the row number 7 * species_i + species_j.
-/
import proofs.«407585_j32469952757807_1_alg».proof.Proof.Gen.KernelIdeal

noncomputable section

namespace Cert.KernelIdeal.Arr

open Cert.KernelIdeal Cert.KernelIdeal.Gen Idealize.ShloMosaic Idealize.ShloMosaic.TcCoe

variable {F : FTy → Type} [FloatOps F]

/-- Integer, and float, array contents of a shape. -/
abbrev CI (F : FTy → Type) (S : Shape) : Type := (⟨S, .i32⟩ : BufTy).Contents (Elt F)
abbrev CF (F : FTy → Type) (S : Shape) : Type := (⟨S, .f32⟩ : BufTy).Contents (Elt F)

/-- The species of every atom: the one row of the species input. -/
def sp (a0 : CI F S1x100000) : CI F S100000 := shapeCast _ a0 shapeCasts_S1x100000_S100000

/-- The first and the second atom of every pair: the two rows of the pair list. -/
def rowI (a2 : CI F S2x4000000) : CI F S4000000 :=
  shapeCast _ (extractStridedSlice S1x4000000 ![0, 0] a2 slices_S2x4000000_S1x4000000_0_0) shapeCasts_S1x4000000_S4000000
def rowJ (a2 : CI F S2x4000000) : CI F S4000000 :=
  shapeCast _ (extractStridedSlice S1x4000000 ![1, 0] a2 slices_S2x4000000_S1x4000000_1_0) shapeCasts_S1x4000000_S4000000

/-- An index vector made ready for a take: a negative entry is raised by the axis length n, and the vector becomes
    a column of start indices. -/
def wrapTo (n : BitVec 32) (x : CI F S4000000) : CI F S4000000x1 :=
  broadcastInDim S4000000x1 ![0] bcast_S4000000_S4000000x1_0
    (select (cmpi .slt x (broadcastInDim S4000000 ![] bcast_S_S4000000 (constantI S_ 32 0#32)))
      (addi x (broadcastInDim S4000000 ![] bcast_S_S4000000 (constantI S_ 32 n))) x)

/-- The species of each pair's first, and second, atom. -/
def si (a0 : CI F S1x100000) (a2 : CI F S2x4000000) : CI F S4000000 :=
  Host.gather gather_S100000_S4000000x1_S4000000_n_0_n_n_0_1_1 (sp a0) (wrapTo 100000#32 (rowI a2))
def sj (a0 : CI F S1x100000) (a2 : CI F S2x4000000) : CI F S4000000 :=
  Host.gather gather_S100000_S4000000x1_S4000000_n_0_n_n_0_1_1 (sp a0) (wrapTo 100000#32 (rowJ a2))

/-- A per-element table of 7 values taken at a species vector. -/
def take7 (tab : CF F S7) (s : CI F S4000000) : CF F S4000000 :=
  Host.gather gather_S7_S4000000x1_S4000000_n_0_n_n_0_1_1 tab (wrapTo 7#32 s)

/-- A constant spread over the pairs. -/
def splat (w : BitVec 32) : CF F S4000000 := broadcastInDim S4000000 ![] bcast_S_S4000000 (constant S_ .f32 w)

/-- The argument of the counting function, before its scale: (4/3) (r_i + r_j) / d - 1. -/
def zarg (a0 : CI F S1x100000) (a2 : CI F S2x4000000) (a3 : CF F S4000000) (a4 : CF F S7) : CF F S4000000 :=
  subf (Host.divf (mulf (splat 0x3FAAAAAB#32) (addf (take7 a4 (si a0 a2)) (take7 a4 (sj a0 a2)))) a3) (splat 0x3F800000#32)

/-- The counting term of every pair, as this program spells the logistic function: 1 / (1 + exp (-(16 z))). -/
def counting (a0 : CI F S1x100000) (a2 : CI F S2x4000000) (a3 : CF F S4000000) (a4 : CF F S7) : CF F S4000000 :=
  Host.divf (splat 0x3F800000#32) (addf (splat 0x3F800000#32)
    (Host.exp (Host.negf (mulf (splat 0x41800000#32) (zarg a0 a2 a3 a4)))))

/-- The coordination number of every atom, from a counting term per pair: the term accumulated at the pair's first
    atom, then at its second. -/
def cnOf (a2 : CI F S2x4000000) (cnt : CF F S4000000) : CF F S100000 :=
  Host.scatterAdd scatter_S100000_S4000000x1_S4000000_n_0_0_1
    (Host.scatterAdd scatter_S100000_S4000000x1_S4000000_n_0_0_1
      (broadcastInDim S100000 ![] bcast_S_S100000 (constant S_ .f32 0x00000000#32)) (wrapTo 100000#32 (rowI a2)) cnt)
    (wrapTo 100000#32 (rowJ a2)) cnt

/-- The coordination numbers taken back at each pair's first, and second, atom. -/
def cnAtI (a2 : CI F S2x4000000) (cn : CF F S100000) : CF F S4000000 :=
  Host.gather gather_S100000_S4000000x1_S4000000_n_0_n_n_0_1_1 cn (wrapTo 100000#32 (rowI a2))
def cnAtJ (a2 : CI F S2x4000000) (cn : CF F S100000) : CF F S4000000 :=
  Host.gather gather_S100000_S4000000x1_S4000000_n_0_n_n_0_1_1 cn (wrapTo 100000#32 (rowJ a2))

def cni (a0 : CI F S1x100000) (a2 : CI F S2x4000000) (a3 : CF F S4000000) (a4 : CF F S7) : CF F S4000000 :=
  cnAtI a2 (cnOf a2 (counting a0 a2 a3 a4))
def cnj (a0 : CI F S1x100000) (a2 : CI F S2x4000000) (a3 : CF F S4000000) (a4 : CF F S7) : CF F S4000000 :=
  cnAtJ a2 (cnOf a2 (counting a0 a2 a3 a4))

/-- The product of the two atoms' charge scales. -/
def sq (a0 : CI F S1x100000) (a2 : CI F S2x4000000) (a5 : CF F S7) : CF F S4000000 :=
  mulf (take7 a5 (si a0 a2)) (take7 a5 (sj a0 a2))

/-- The row number of a pair in a flattened table: 7 * species_i + species_j. -/
def rowNo (a0 : CI F S1x100000) (a2 : CI F S2x4000000) : CI F S4000000 :=
  addi (muli (si a0 a2) (broadcastInDim S4000000 ![] bcast_S_S4000000 (constantI S_ 32 7#32))) (sj a0 a2)

/-- One 7 x 7 x 5 x 5 table, flattened to 49 x 25 and taken at every pair's row number. -/
def rows25 (tab : CF F S7x7x5x5) (a0 : CI F S1x100000) (a2 : CI F S2x4000000) : CF F S4000000x25 :=
  Host.gather gather_S49x25_S4000000x1_S4000000x25_1_0_n_n_0_1_125 (shapeCast _ tab shapeCasts_S7x7x5x5_S49x25)
    (wrapTo 49#32 (rowNo a0 a2))

/-- A pair vector, and a pair table, lengthened by 30,464 zero rows to 123 tiles of 32,768 rows; the vector as a
    column. -/
def padCol (x : CF F S4000000) : CF F S4030464x1 :=
  shapeCast _ (pad S4030464 ![0] ![30464] ![0] x (sitofp .f32 (constantI S_ 32 0#32)) pads_S4000000_S4030464_0304640 h_S_)
    shapeCasts_S4030464_S4030464x1
def padTab (x : CF F S4000000x25) : CF F S4030464x25 :=
  pad S4030464x25 ![0, 0] ![30464, 0] ![0, 0] x (sitofp .f32 (constantI S_ 32 0#32)) pads_S4000000x25_S4030464x25_0304640_000 h_S_

end Cert.KernelIdeal.Arr

end
-- ==== Proof.KHost.lean ====
/-
  What the pipelined region finds in its seven input arrays: the per-pair vectors (the two coordination numbers,
  the distance, the charge product) as columns lengthened by zero rows to 123 * 32,768 rows, and the per-pair rows
  of 25 reference values, lengthened likewise — each the host operations before the region applied to the
  argument arrays.
-/
import proofs.«407585_j32469952757807_1_alg».proof.Proof.Gen.KernelIdeal.Frame
import proofs.«407585_j32469952757807_1_alg».proof.Proof.KArr
import Idealize.ShloMosaic.Lib.ValueIdx
import Idealize.ShloMosaic.Lib.ValueLayout
import Idealize.ShloMosaic.Lib.Pipeline.Value
import Idealize.ShloMosaic.Lib.StableHlo.Run

set_option maxRecDepth 16384
set_option Elab.async false

noncomputable section

namespace Cert.KernelIdeal.Win

open Cert.KernelIdeal Cert.KernelIdeal.Gen Cert.KernelIdeal.Arr
open Idealize.ShloMosaic Idealize.ShloMosaic.TcCoe Idealize.ShloMosaic.ValueIdx Idealize.SL.Sem

variable (m : (ℓ : Loc nD τ sig) → Buf (Elt Ideal) ℓ)

/-- The nine argument arrays of core c at launch. -/
abbrev A0 (c : Dev nD) : CI Ideal S1x100000 := m ((c.tc : Thread nD τ).loc main_arg0)
abbrev A1 (c : Dev nD) : CF Ideal S1 := m ((c.tc : Thread nD τ).loc main_arg1)
abbrev A2 (c : Dev nD) : CI Ideal S2x4000000 := m ((c.tc : Thread nD τ).loc main_arg2)
abbrev A3 (c : Dev nD) : CF Ideal S4000000 := m ((c.tc : Thread nD τ).loc main_arg3)
abbrev A4 (c : Dev nD) : CF Ideal S7 := m ((c.tc : Thread nD τ).loc main_arg4)
abbrev A5 (c : Dev nD) : CF Ideal S7 := m ((c.tc : Thread nD τ).loc main_arg5)
abbrev A6 (c : Dev nD) : CF Ideal S7x7x5x5 := m ((c.tc : Thread nD τ).loc main_arg6)
abbrev A7 (c : Dev nD) : CF Ideal S7x7x5x5 := m ((c.tc : Thread nD τ).loc main_arg7)
abbrev A8 (c : Dev nD) : CF Ideal S7x7x5x5 := m ((c.tc : Thread nD τ).loc main_arg8)

/-- The seven arrays the region stages, as it finds them. -/
abbrev W0 (c : Dev nD) : CF Ideal S4030464x1 := V m c main_v119
abbrev W1 (c : Dev nD) : CF Ideal S4030464x1 := V m c main_v121
abbrev W2 (c : Dev nD) : CF Ideal S4030464x1 := V m c main_v123
abbrev W3 (c : Dev nD) : CF Ideal S4030464x1 := V m c main_v125
abbrev W4 (c : Dev nD) : CF Ideal S4030464x25 := V m c main_v126
abbrev W5 (c : Dev nD) : CF Ideal S4030464x25 := V m c main_v127
abbrev W6 (c : Dev nD) : CF Ideal S4030464x25 := V m c main_v128

open Idealize.ShloMosaic.StableHlo

/-! ## The host operations in four stretches

The 152 operations of the first list are cut into three consecutive windows (operations 1 to 60, 61 to 120 and 121 to 152);
the seven pad calls and the reshapes after them are the fourth. After each stretch the buffers a later stretch reads
are given by name, so that a value used many times (the species vectors, the counting term) is written once. -/

/-- Core c's buffers at launch, as a valuation. -/
def val0 (c : Dev nD) : Valuation τ sig (Elt Ideal) := fun b => m (c, b)
/-- After operations 1 to 60. -/
def val1 (c : Dev nD) : Valuation τ sig (Elt Ideal) := after main_part0_ops0 (val0 m c)
/-- After operations 61 to 120. -/
def val2 (c : Dev nD) : Valuation τ sig (Elt Ideal) := after main_part1_ops0 (val1 m c)
/-- After operations 121 to 152. -/
def val3 (c : Dev nD) : Valuation τ sig (Elt Ideal) := after main_part2_ops0 (val2 m c)
/-- After the pad calls and the reshapes: the region's entry. -/
def val4 (c : Dev nD) : Valuation τ sig (Elt Ideal) :=
  after (List.flatten [hostOps0_1, hostOps0_2, hostOps0_3, hostOps0_4, hostOps0_5, hostOps0_6, hostOps0_7, hostOps0_8, hostOps0_9, hostOps0_10, hostOps0_11, hostOps0_12, hostOps0_13]) (val3 m c)

/-- The first list is its three windows in a row. -/
theorem hostOps0_split : (hostOps0 : List (HloOp τ sig (Elt Ideal))) = main_part0_ops0 ++ (main_part1_ops0 ++ main_part2_ops0) := rfl

/-- The region's entry valuation is the four stretches in a row. -/
theorem V0_eq (c : Dev nD) : V0 m c = val4 m c := by
  unfold val4 val3 val2 val1
  show after (List.flatten (hostOps0 :: [hostOps0_1, hostOps0_2, hostOps0_3, hostOps0_4, hostOps0_5, hostOps0_6, hostOps0_7, hostOps0_8, hostOps0_9, hostOps0_10, hostOps0_11, hostOps0_12, hostOps0_13])) (val0 m c) = _
  rw [List.flatten_cons, StableHlo.after_append, hostOps0_split, StableHlo.after_append, StableHlo.after_append]

theorem val0_arg0 (c : Dev nD) : val0 m c (no_index (Proc.devRef .tc main_arg0)) = A0 m c := rfl
theorem val0_arg2 (c : Dev nD) : val0 m c (no_index (Proc.devRef .tc main_arg2)) = A2 m c := rfl
theorem val0_arg3 (c : Dev nD) : val0 m c (no_index (Proc.devRef .tc main_arg3)) = A3 m c := rfl
theorem val0_arg4 (c : Dev nD) : val0 m c (no_index (Proc.devRef .tc main_arg4)) = A4 m c := rfl
theorem val0_arg5 (c : Dev nD) : val0 m c (no_index (Proc.devRef .tc main_arg5)) = A5 m c := rfl
theorem val0_arg6 (c : Dev nD) : val0 m c (no_index (Proc.devRef .tc main_arg6)) = A6 m c := rfl
theorem val0_arg7 (c : Dev nD) : val0 m c (no_index (Proc.devRef .tc main_arg7)) = A7 m c := rfl
theorem val0_arg8 (c : Dev nD) : val0 m c (no_index (Proc.devRef .tc main_arg8)) = A8 m c := rfl

/-! ### After operations 1 to 60 -/

set_option maxHeartbeats 2000000 in
theorem val1_v2 (c : Dev nD) : val1 m c (no_index (Proc.devRef .tc main_v2)) = rowI (A2 m c) := by
  unfold val1
  simp only [main_part0_ops0]
  after_results_simp
  simp only [val0_arg2] <;> rfl
set_option maxHeartbeats 2000000 in
theorem val1_v4 (c : Dev nD) : val1 m c (no_index (Proc.devRef .tc main_v4)) = rowJ (A2 m c) := by
  unfold val1
  simp only [main_part0_ops0]
  after_results_simp
  simp only [val0_arg2] <;> rfl
set_option maxHeartbeats 2000000 in
theorem val1_v11 (c : Dev nD) : val1 m c (no_index (Proc.devRef .tc main_v11)) = si (A0 m c) (A2 m c) := by
  unfold val1
  simp only [main_part0_ops0]
  after_results_simp
  simp only [val0_arg0, val0_arg2] <;> rfl
set_option maxHeartbeats 2000000 in
theorem val1_v18 (c : Dev nD) : val1 m c (no_index (Proc.devRef .tc main_v18)) = sj (A0 m c) (A2 m c) := by
  unfold val1
  simp only [main_part0_ops0]
  after_results_simp
  simp only [val0_arg0, val0_arg2] <;> rfl
set_option maxHeartbeats 2000000 in
theorem val1_v21 (c : Dev nD) : val1 m c (no_index (Proc.devRef .tc main_v21)) = rowNo (A0 m c) (A2 m c) := by
  unfold val1
  simp only [main_part0_ops0]
  after_results_simp
  simp only [val0_arg0, val0_arg2] <;> rfl
set_option maxHeartbeats 2000000 in
theorem val1_v45 (c : Dev nD) : val1 m c (no_index (Proc.devRef .tc main_v45)) = Host.exp (Host.negf (mulf (splat 0x41800000#32) (zarg (A0 m c) (A2 m c) (A3 m c) (A4 m c)))) := by
  unfold val1
  simp only [main_part0_ops0]
  after_results_simp
  simp only [val0_arg0, val0_arg2, val0_arg3, val0_arg4] <;> rfl
set_option maxHeartbeats 2000000 in
theorem val1_arg3 (c : Dev nD) : val1 m c (no_index (Proc.devRef .tc main_arg3)) = A3 m c := by
  unfold val1
  simp only [main_part0_ops0]
  after_results_simp
  simp only [val0_arg3] <;> rfl
set_option maxHeartbeats 2000000 in
theorem val1_arg5 (c : Dev nD) : val1 m c (no_index (Proc.devRef .tc main_arg5)) = A5 m c := by
  unfold val1
  simp only [main_part0_ops0]
  after_results_simp
  simp only [val0_arg5] <;> rfl
set_option maxHeartbeats 2000000 in
theorem val1_arg6 (c : Dev nD) : val1 m c (no_index (Proc.devRef .tc main_arg6)) = A6 m c := by
  unfold val1
  simp only [main_part0_ops0]
  after_results_simp
  simp only [val0_arg6] <;> rfl
set_option maxHeartbeats 2000000 in
theorem val1_arg7 (c : Dev nD) : val1 m c (no_index (Proc.devRef .tc main_arg7)) = A7 m c := by
  unfold val1
  simp only [main_part0_ops0]
  after_results_simp
  simp only [val0_arg7] <;> rfl
set_option maxHeartbeats 2000000 in
theorem val1_arg8 (c : Dev nD) : val1 m c (no_index (Proc.devRef .tc main_arg8)) = A8 m c := by
  unfold val1
  simp only [main_part0_ops0]
  after_results_simp
  simp only [val0_arg8] <;> rfl
set_option maxHeartbeats 2000000 in
theorem val1_v46 (c : Dev nD) : val1 m c (no_index (Proc.devRef .tc main_v46)) = splat 0x3F800000#32 := by
  unfold val1
  simp only [main_part0_ops0]
  after_results_simp
  all_goals rfl

/-! ### After operations 61 to 120 -/

set_option maxHeartbeats 2000000 in
theorem val2_v71 (c : Dev nD) : val2 m c (no_index (Proc.devRef .tc main_v71)) = cni (A0 m c) (A2 m c) (A3 m c) (A4 m c) := by
  unfold val2
  simp only [main_part1_ops0]
  after_results_simp
  simp only [val1_v2, val1_v4, val1_v45, val1_v46] <;> rfl
set_option maxHeartbeats 2000000 in
theorem val2_v78 (c : Dev nD) : val2 m c (no_index (Proc.devRef .tc main_v78)) = cnj (A0 m c) (A2 m c) (A3 m c) (A4 m c) := by
  unfold val2
  simp only [main_part1_ops0]
  after_results_simp
  simp only [val1_v2, val1_v4, val1_v45, val1_v46] <;> rfl
set_option maxHeartbeats 2000000 in
theorem val2_v85 (c : Dev nD) : val2 m c (no_index (Proc.devRef .tc main_v85)) = take7 (A5 m c) (si (A0 m c) (A2 m c)) := by
  unfold val2
  simp only [main_part1_ops0]
  after_results_simp
  simp only [val1_v11, val1_arg5] <;> rfl
set_option maxHeartbeats 2000000 in
theorem val2_v92 (c : Dev nD) : val2 m c (no_index (Proc.devRef .tc main_v92)) = take7 (A5 m c) (sj (A0 m c) (A2 m c)) := by
  unfold val2
  simp only [main_part1_ops0]
  after_results_simp
  simp only [val1_v18, val1_arg5] <;> rfl
set_option maxHeartbeats 2000000 in
theorem val2_v21 (c : Dev nD) : val2 m c (no_index (Proc.devRef .tc main_v21)) = rowNo (A0 m c) (A2 m c) := by
  unfold val2
  simp only [main_part1_ops0]
  after_results_simp
  simp only [val1_v21] <;> rfl
set_option maxHeartbeats 2000000 in
theorem val2_arg3 (c : Dev nD) : val2 m c (no_index (Proc.devRef .tc main_arg3)) = A3 m c := by
  unfold val2
  simp only [main_part1_ops0]
  after_results_simp
  simp only [val1_arg3] <;> rfl
set_option maxHeartbeats 2000000 in
theorem val2_arg6 (c : Dev nD) : val2 m c (no_index (Proc.devRef .tc main_arg6)) = A6 m c := by
  unfold val2
  simp only [main_part1_ops0]
  after_results_simp
  simp only [val1_arg6] <;> rfl
set_option maxHeartbeats 2000000 in
theorem val2_arg7 (c : Dev nD) : val2 m c (no_index (Proc.devRef .tc main_arg7)) = A7 m c := by
  unfold val2
  simp only [main_part1_ops0]
  after_results_simp
  simp only [val1_arg7] <;> rfl
set_option maxHeartbeats 2000000 in
theorem val2_arg8 (c : Dev nD) : val2 m c (no_index (Proc.devRef .tc main_arg8)) = A8 m c := by
  unfold val2
  simp only [main_part1_ops0]
  after_results_simp
  simp only [val1_arg8] <;> rfl

/-! ### After operations 121 to 152 -/

set_option maxHeartbeats 2000000 in
theorem val3_v93 (c : Dev nD) : val3 m c (no_index (Proc.devRef .tc main_v93)) = sq (A0 m c) (A2 m c) (A5 m c) := by
  unfold val3
  simp only [main_part2_ops0]
  after_results_simp
  simp only [val2_v85, val2_v92] <;> rfl
set_option maxHeartbeats 2000000 in
theorem val3_v103 (c : Dev nD) : val3 m c (no_index (Proc.devRef .tc main_v103)) = rows25 (A7 m c) (A0 m c) (A2 m c) := by
  unfold val3
  simp only [main_part2_ops0]
  after_results_simp
  simp only [val2_arg7, val2_v21] <;> rfl
set_option maxHeartbeats 2000000 in
theorem val3_v110 (c : Dev nD) : val3 m c (no_index (Proc.devRef .tc main_v110)) = rows25 (A8 m c) (A0 m c) (A2 m c) := by
  unfold val3
  simp only [main_part2_ops0]
  after_results_simp
  simp only [val2_arg8, val2_v21] <;> rfl
set_option maxHeartbeats 2000000 in
theorem val3_v117 (c : Dev nD) : val3 m c (no_index (Proc.devRef .tc main_v117)) = rows25 (A6 m c) (A0 m c) (A2 m c) := by
  unfold val3
  simp only [main_part2_ops0]
  after_results_simp
  simp only [val2_arg6, val2_v21] <;> rfl
set_option maxHeartbeats 2000000 in
theorem val3_c_31 (c : Dev nD) : val3 m c (no_index (Proc.devRef .tc main_c_31)) = constantI S_ 32 0#32 := by
  unfold val3
  simp only [main_part2_ops0]
  after_results_simp
  all_goals rfl
set_option maxHeartbeats 2000000 in
theorem val3_v71 (c : Dev nD) : val3 m c (no_index (Proc.devRef .tc main_v71)) = cni (A0 m c) (A2 m c) (A3 m c) (A4 m c) := by
  unfold val3
  simp only [main_part2_ops0]
  after_results_simp
  simp only [val2_v71] <;> rfl
set_option maxHeartbeats 2000000 in
theorem val3_v78 (c : Dev nD) : val3 m c (no_index (Proc.devRef .tc main_v78)) = cnj (A0 m c) (A2 m c) (A3 m c) (A4 m c) := by
  unfold val3
  simp only [main_part2_ops0]
  after_results_simp
  simp only [val2_v78] <;> rfl
set_option maxHeartbeats 2000000 in
theorem val3_arg3 (c : Dev nD) : val3 m c (no_index (Proc.devRef .tc main_arg3)) = A3 m c := by
  unfold val3
  simp only [main_part2_ops0]
  after_results_simp
  simp only [val2_arg3] <;> rfl

/-! ### After the pad calls and the reshapes

Each pad call lengthens whatever array its operand buffer holds, and the reshape after it makes the result a column:
stated for an arbitrary valuation and an arbitrary operand, then used at the valuation after operation 152. -/

set_option maxHeartbeats 2000000 in
theorem tail_v119 (Vv : Valuation τ sig (Elt Ideal)) (x : CF Ideal S4000000)
    (hx : Vv (no_index (Proc.devRef .tc main_v71)) = x)
    (hc : Vv (no_index (Proc.devRef .tc main_c_31)) = constantI S_ 32 0#32) :
    after (List.flatten [hostOps0_1, hostOps0_2, hostOps0_3, hostOps0_4, hostOps0_5, hostOps0_6, hostOps0_7, hostOps0_8, hostOps0_9, hostOps0_10, hostOps0_11, hostOps0_12, hostOps0_13]) Vv (no_index (Proc.devRef .tc main_v119)) = padCol x := by
  simp only [hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  simp only [hx, hc]
  rfl
set_option maxHeartbeats 2000000 in
theorem tail_v121 (Vv : Valuation τ sig (Elt Ideal)) (x : CF Ideal S4000000)
    (hx : Vv (no_index (Proc.devRef .tc main_v78)) = x) :
    after (List.flatten [hostOps0_1, hostOps0_2, hostOps0_3, hostOps0_4, hostOps0_5, hostOps0_6, hostOps0_7, hostOps0_8, hostOps0_9, hostOps0_10, hostOps0_11, hostOps0_12, hostOps0_13]) Vv (no_index (Proc.devRef .tc main_v121)) = padCol x := by
  simp only [hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  simp only [hx]
  rfl
set_option maxHeartbeats 2000000 in
theorem tail_v123 (Vv : Valuation τ sig (Elt Ideal)) (x : CF Ideal S4000000)
    (hx : Vv (no_index (Proc.devRef .tc main_arg3)) = x) :
    after (List.flatten [hostOps0_1, hostOps0_2, hostOps0_3, hostOps0_4, hostOps0_5, hostOps0_6, hostOps0_7, hostOps0_8, hostOps0_9, hostOps0_10, hostOps0_11, hostOps0_12, hostOps0_13]) Vv (no_index (Proc.devRef .tc main_v123)) = padCol x := by
  simp only [hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  simp only [hx]
  rfl
set_option maxHeartbeats 2000000 in
theorem tail_v125 (Vv : Valuation τ sig (Elt Ideal)) (x : CF Ideal S4000000)
    (hx : Vv (no_index (Proc.devRef .tc main_v93)) = x) :
    after (List.flatten [hostOps0_1, hostOps0_2, hostOps0_3, hostOps0_4, hostOps0_5, hostOps0_6, hostOps0_7, hostOps0_8, hostOps0_9, hostOps0_10, hostOps0_11, hostOps0_12, hostOps0_13]) Vv (no_index (Proc.devRef .tc main_v125)) = padCol x := by
  simp only [hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  simp only [hx]
  rfl
set_option maxHeartbeats 2000000 in
theorem tail_v126 (Vv : Valuation τ sig (Elt Ideal)) (x : CF Ideal S4000000x25)
    (hx : Vv (no_index (Proc.devRef .tc main_v103)) = x) :
    after (List.flatten [hostOps0_1, hostOps0_2, hostOps0_3, hostOps0_4, hostOps0_5, hostOps0_6, hostOps0_7, hostOps0_8, hostOps0_9, hostOps0_10, hostOps0_11, hostOps0_12, hostOps0_13]) Vv (no_index (Proc.devRef .tc main_v126)) = padTab x := by
  simp only [hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  simp only [hx]
  rfl
set_option maxHeartbeats 2000000 in
theorem tail_v127 (Vv : Valuation τ sig (Elt Ideal)) (x : CF Ideal S4000000x25)
    (hx : Vv (no_index (Proc.devRef .tc main_v110)) = x) :
    after (List.flatten [hostOps0_1, hostOps0_2, hostOps0_3, hostOps0_4, hostOps0_5, hostOps0_6, hostOps0_7, hostOps0_8, hostOps0_9, hostOps0_10, hostOps0_11, hostOps0_12, hostOps0_13]) Vv (no_index (Proc.devRef .tc main_v127)) = padTab x := by
  simp only [hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  simp only [hx]
  rfl
set_option maxHeartbeats 2000000 in
theorem tail_v128 (Vv : Valuation τ sig (Elt Ideal)) (x : CF Ideal S4000000x25)
    (hx : Vv (no_index (Proc.devRef .tc main_v117)) = x) :
    after (List.flatten [hostOps0_1, hostOps0_2, hostOps0_3, hostOps0_4, hostOps0_5, hostOps0_6, hostOps0_7, hostOps0_8, hostOps0_9, hostOps0_10, hostOps0_11, hostOps0_12, hostOps0_13]) Vv (no_index (Proc.devRef .tc main_v128)) = padTab x := by
  simp only [hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  simp only [hx]
  rfl

theorem val4_v119 (c : Dev nD) : val4 m c (no_index (Proc.devRef .tc main_v119)) = padCol (cni (A0 m c) (A2 m c) (A3 m c) (A4 m c)) := by
  unfold val4
  exact tail_v119 (val3 m c) _ (val3_v71 m c) (val3_c_31 m c)
theorem val4_v121 (c : Dev nD) : val4 m c (no_index (Proc.devRef .tc main_v121)) = padCol (cnj (A0 m c) (A2 m c) (A3 m c) (A4 m c)) := by
  unfold val4
  exact tail_v121 (val3 m c) _ (val3_v78 m c)
theorem val4_v123 (c : Dev nD) : val4 m c (no_index (Proc.devRef .tc main_v123)) = padCol (A3 m c) := by
  unfold val4
  exact tail_v123 (val3 m c) _ (val3_arg3 m c)
theorem val4_v125 (c : Dev nD) : val4 m c (no_index (Proc.devRef .tc main_v125)) = padCol (sq (A0 m c) (A2 m c) (A5 m c)) := by
  unfold val4
  exact tail_v125 (val3 m c) _ (val3_v93 m c)
theorem val4_v126 (c : Dev nD) : val4 m c (no_index (Proc.devRef .tc main_v126)) = padTab (rows25 (A7 m c) (A0 m c) (A2 m c)) := by
  unfold val4
  exact tail_v126 (val3 m c) _ (val3_v103 m c)
theorem val4_v127 (c : Dev nD) : val4 m c (no_index (Proc.devRef .tc main_v127)) = padTab (rows25 (A8 m c) (A0 m c) (A2 m c)) := by
  unfold val4
  exact tail_v127 (val3 m c) _ (val3_v110 m c)
theorem val4_v128 (c : Dev nD) : val4 m c (no_index (Proc.devRef .tc main_v128)) = padTab (rows25 (A6 m c) (A0 m c) (A2 m c)) := by
  unfold val4
  exact tail_v128 (val3 m c) _ (val3_v117 m c)

/-! ## The arrays, from the host operations before the region -/

theorem W0_eq (c : Dev nD) : W0 m c = padCol (cni (A0 m c) (A2 m c) (A3 m c) (A4 m c)) :=
  (congrFun (V0_eq m c) (Proc.devRef .tc main_v119)).trans (val4_v119 m c)
theorem W1_eq (c : Dev nD) : W1 m c = padCol (cnj (A0 m c) (A2 m c) (A3 m c) (A4 m c)) :=
  (congrFun (V0_eq m c) (Proc.devRef .tc main_v121)).trans (val4_v121 m c)
theorem W2_eq (c : Dev nD) : W2 m c = padCol (A3 m c) :=
  (congrFun (V0_eq m c) (Proc.devRef .tc main_v123)).trans (val4_v123 m c)
theorem W3_eq (c : Dev nD) : W3 m c = padCol (sq (A0 m c) (A2 m c) (A5 m c)) :=
  (congrFun (V0_eq m c) (Proc.devRef .tc main_v125)).trans (val4_v125 m c)
theorem W4_eq (c : Dev nD) : W4 m c = padTab (rows25 (A7 m c) (A0 m c) (A2 m c)) :=
  (congrFun (V0_eq m c) (Proc.devRef .tc main_v126)).trans (val4_v126 m c)
theorem W5_eq (c : Dev nD) : W5 m c = padTab (rows25 (A8 m c) (A0 m c) (A2 m c)) :=
  (congrFun (V0_eq m c) (Proc.devRef .tc main_v127)).trans (val4_v127 m c)
theorem W6_eq (c : Dev nD) : W6 m c = padTab (rows25 (A6 m c) (A0 m c) (A2 m c)) :=
  (congrFun (V0_eq m c) (Proc.devRef .tc main_v128)).trans (val4_v128 m c)

end Cert.KernelIdeal.Win

end
-- ==== Proof.KWin.lean ====
/-
  What a tile of the seven input arrays holds. Grid point t stages rows t * 32,768 ... t * 32,768 + 32,767 of each
  array; a row below 4,000,000 is the pair's own entry, a row from 4,000,000 on is a row of zeros.
-/
import proofs.«407585_j32469952757807_1_alg».proof.Proof.Gen.KernelIdeal.Frame
import proofs.«407585_j32469952757807_1_alg».proof.Proof.KArr
import proofs.«407585_j32469952757807_1_alg».proof.Proof.KBody
import proofs.«407585_j32469952757807_1_alg».proof.Proof.KHost
import Idealize.ShloMosaic.Lib.ValueIdx
import Idealize.ShloMosaic.Lib.ValueLayout
import Idealize.ShloMosaic.Lib.Pipeline.Value
import Idealize.ShloMosaic.Lib.KernelVsHost
import proofs.«407585_j32469952757807_1_alg».proof.Proof.LibColumn

set_option maxRecDepth 16384

noncomputable section

namespace Cert.KernelIdeal.Win

open Cert.KernelIdeal Cert.KernelIdeal.Gen Cert.KernelIdeal.Arr Cert.KernelIdeal.Body
open Idealize.ShloMosaic Idealize.ShloMosaic.TcCoe Idealize.ShloMosaic.ValueIdx Idealize.SL.Sem

variable (m : (ℓ : Loc nD τ sig) → Buf (Elt Ideal) ℓ)

/-! ## A lengthened array read at a row -/

/-- The value the added rows hold: the integer zero converted to a float, the real number zero. -/
theorem padVal_eq : sitofp (F := Ideal) .f32 (constantI S_ 32 0#32) (Shape.Idx.first h_S_) = (0 : EReal) := by
  rw [sitofp_apply, constantI_apply]
  show ((((0#32 : BitVec 32).toInt : ℤ) : ℝ) : EReal) = 0
  rw [show (0#32 : BitVec 32).toInt = 0 by decide, Int.cast_zero, EReal.coe_zero]

/-- The lengthened column at row q: the vector's entry q below row 4,000,000 (no low padding, no interior
    padding, so row q of the result is row q of the operand), zero from there on. -/
theorem padCol_apply (x : CF Ideal S4000000) (q : Fin 4030464) :
    padCol x (ix2 q 0) = if h : q.val < 4000000 then x (ix1 ⟨q.val, h⟩) else (0 : EReal) := by
  unfold padCol
  rw [Cert.LibColumn.shapeCast_a_a1_apply]
  by_cases h : q.val < 4000000
  · rw [dif_pos h]
    exact pad_apply_of_inside _ _ _ x _ pads_S4000000_S4030464_0304640 h_S_ _ (ix1 (⟨q.val, h⟩ : Fin 4000000)) (by
      intro a
      have ha : a = 0 := Subsingleton.elim _ _
      subst ha
      show q.val = 0 + q.val * (0 + 1); omega)
  · rw [dif_neg h]
    refine (pad_apply_of_not_inside _ _ _ x _ pads_S4000000_S4030464_0304640 h_S_ _ (0 : Fin 1) (by
      intro hin
      have e : (q.val - 0) / (0 + 1) < 4000000 := hin.2.2
      omega)).trans padVal_eq

/-- The lengthened table at row q, column k: the table's entry (q, k) below row 4,000,000 (the columns are not
    padded at all), zero from there on. -/
theorem padTab_apply (x : CF Ideal S4000000x25) (q : Fin 4030464) (k : Fin 25) :
    padTab x (ix2 q k) = if h : q.val < 4000000 then x (ix2 ⟨q.val, h⟩ k) else (0 : EReal) := by
  unfold padTab
  by_cases h : q.val < 4000000
  · rw [dif_pos h]
    exact pad_apply_of_inside _ _ _ x _ pads_S4000000x25_S4030464x25_0304640_000 h_S_ _ (ix2 (⟨q.val, h⟩ : Fin 4000000) k) (by
      intro a
      match a with
      | ⟨0, _⟩ => show q.val = 0 + q.val * (0 + 1); omega
      | ⟨1, _⟩ => show k.val = 0 + k.val * (0 + 1); omega)
  · rw [dif_neg h]
    refine (pad_apply_of_not_inside _ _ _ x _ pads_S4000000x25_S4030464x25_0304640_000 h_S_ _ (0 : Fin 2) (by
      intro hin
      have e : (q.val - 0) / (0 + 1) < 4000000 := hin.2.2
      omega)).trans padVal_eq

/-! ## The tiles -/

/-- Row r of tile t is row t * 32,768 + r of the array. -/
def rowOf (t : Fin cfg0.N) (r : Fin 32768) : Fin 4030464 :=
  ⟨t.val * 32768 + r.val, by have := t.isLt; have := r.isLt; have h : cfg0.N = 123 := N_0; omega⟩

/-! ## A block read off an arbitrary array

Each of the seven windows moves with the grid point along the rows only. The reads are stated over an arbitrary
array of the window's shape, so that nothing here depends on how the array was computed. -/

/-- Window 0's block index at grid point t is (t, 0). -/
theorem idx_facts0 : ∀ t : Fin cfg0.N, win0_0.index t (0 : Fin 2) = t.val ∧ win0_0.index t (1 : Fin 2) = 0 :=
  (by decide +kernel : ∀ t : Fin grid0.N, _)

/-- Window 0's block at point t, read off ANY array X at (r, 0): a block's coordinate is its index times its size
    plus the coordinate inside it, so the row is t * 32,768 + r and the column 0 * 1 + 0. -/
theorem blk0_read (X : CF Ideal S4030464x1) (t : Fin cfg0.N) (r : Fin 32768) :
    ((cfg0.win 0).blk t).view.read (Elt Ideal) X (ix2 r 0) = X (ix2 (rowOf t r) 0) := by
  obtain ⟨e0, e1⟩ := idx_facts0 t
  show X (((cfg0.win 0).blk t).view.emb (ix2 r 0)) = X (ix2 (rowOf t r) 0)
  refine congrArg X (funext fun a => Fin.ext ?_)
  match a with
  | ⟨0, _⟩ => show win0_0.index t (0 : Fin 2) * 32768 + 1 * r.val = t.val * 32768 + r.val; rw [e0]; omega
  | ⟨1, _⟩ => show win0_0.index t (1 : Fin 2) * 1 + 1 * 0 = 0; rw [e1]

/-- Window 1's block index at grid point t is (t, 0). -/
theorem idx_facts1 : ∀ t : Fin cfg0.N, win0_1.index t (0 : Fin 2) = t.val ∧ win0_1.index t (1 : Fin 2) = 0 :=
  (by decide +kernel : ∀ t : Fin grid0.N, _)

/-- Window 1's block at point t, read off ANY array X at (r, 0): a block's coordinate is its index times its size
    plus the coordinate inside it, so the row is t * 32,768 + r and the column 0 * 1 + 0. -/
theorem blk1_read (X : CF Ideal S4030464x1) (t : Fin cfg0.N) (r : Fin 32768) :
    ((cfg0.win 1).blk t).view.read (Elt Ideal) X (ix2 r 0) = X (ix2 (rowOf t r) 0) := by
  obtain ⟨e0, e1⟩ := idx_facts1 t
  show X (((cfg0.win 1).blk t).view.emb (ix2 r 0)) = X (ix2 (rowOf t r) 0)
  refine congrArg X (funext fun a => Fin.ext ?_)
  match a with
  | ⟨0, _⟩ => show win0_1.index t (0 : Fin 2) * 32768 + 1 * r.val = t.val * 32768 + r.val; rw [e0]; omega
  | ⟨1, _⟩ => show win0_1.index t (1 : Fin 2) * 1 + 1 * 0 = 0; rw [e1]

/-- Window 2's block index at grid point t is (t, 0). -/
theorem idx_facts2 : ∀ t : Fin cfg0.N, win0_2.index t (0 : Fin 2) = t.val ∧ win0_2.index t (1 : Fin 2) = 0 :=
  (by decide +kernel : ∀ t : Fin grid0.N, _)

/-- Window 2's block at point t, read off ANY array X at (r, 0): a block's coordinate is its index times its size
    plus the coordinate inside it, so the row is t * 32,768 + r and the column 0 * 1 + 0. -/
theorem blk2_read (X : CF Ideal S4030464x1) (t : Fin cfg0.N) (r : Fin 32768) :
    ((cfg0.win 2).blk t).view.read (Elt Ideal) X (ix2 r 0) = X (ix2 (rowOf t r) 0) := by
  obtain ⟨e0, e1⟩ := idx_facts2 t
  show X (((cfg0.win 2).blk t).view.emb (ix2 r 0)) = X (ix2 (rowOf t r) 0)
  refine congrArg X (funext fun a => Fin.ext ?_)
  match a with
  | ⟨0, _⟩ => show win0_2.index t (0 : Fin 2) * 32768 + 1 * r.val = t.val * 32768 + r.val; rw [e0]; omega
  | ⟨1, _⟩ => show win0_2.index t (1 : Fin 2) * 1 + 1 * 0 = 0; rw [e1]

/-- Window 3's block index at grid point t is (t, 0). -/
theorem idx_facts3 : ∀ t : Fin cfg0.N, win0_3.index t (0 : Fin 2) = t.val ∧ win0_3.index t (1 : Fin 2) = 0 :=
  (by decide +kernel : ∀ t : Fin grid0.N, _)

/-- Window 3's block at point t, read off ANY array X at (r, 0): a block's coordinate is its index times its size
    plus the coordinate inside it, so the row is t * 32,768 + r and the column 0 * 1 + 0. -/
theorem blk3_read (X : CF Ideal S4030464x1) (t : Fin cfg0.N) (r : Fin 32768) :
    ((cfg0.win 3).blk t).view.read (Elt Ideal) X (ix2 r 0) = X (ix2 (rowOf t r) 0) := by
  obtain ⟨e0, e1⟩ := idx_facts3 t
  show X (((cfg0.win 3).blk t).view.emb (ix2 r 0)) = X (ix2 (rowOf t r) 0)
  refine congrArg X (funext fun a => Fin.ext ?_)
  match a with
  | ⟨0, _⟩ => show win0_3.index t (0 : Fin 2) * 32768 + 1 * r.val = t.val * 32768 + r.val; rw [e0]; omega
  | ⟨1, _⟩ => show win0_3.index t (1 : Fin 2) * 1 + 1 * 0 = 0; rw [e1]

/-- Window 4's block index at grid point t is (t, 0). -/
theorem idx_facts4 : ∀ t : Fin cfg0.N, win0_4.index t (0 : Fin 2) = t.val ∧ win0_4.index t (1 : Fin 2) = 0 :=
  (by decide +kernel : ∀ t : Fin grid0.N, _)

/-- Window 4's block at point t, read off ANY array X at (r, k): the row is t * 32,768 + r, and the block spans
    all 25 columns, so the column is 0 * 25 + k. -/
theorem blk4_read (X : CF Ideal S4030464x25) (t : Fin cfg0.N) (r : Fin 32768) (k : Fin 25) :
    ((cfg0.win 4).blk t).view.read (Elt Ideal) X (ix2 r k) = X (ix2 (rowOf t r) k) := by
  obtain ⟨e0, e1⟩ := idx_facts4 t
  show X (((cfg0.win 4).blk t).view.emb (ix2 r k)) = X (ix2 (rowOf t r) k)
  refine congrArg X (funext fun a => Fin.ext ?_)
  match a with
  | ⟨0, _⟩ => show win0_4.index t (0 : Fin 2) * 32768 + 1 * r.val = t.val * 32768 + r.val; rw [e0]; omega
  | ⟨1, _⟩ => show win0_4.index t (1 : Fin 2) * 25 + 1 * k.val = k.val; rw [e1]; omega

/-- Window 5's block index at grid point t is (t, 0). -/
theorem idx_facts5 : ∀ t : Fin cfg0.N, win0_5.index t (0 : Fin 2) = t.val ∧ win0_5.index t (1 : Fin 2) = 0 :=
  (by decide +kernel : ∀ t : Fin grid0.N, _)

/-- Window 5's block at point t, read off ANY array X at (r, k): the row is t * 32,768 + r, and the block spans
    all 25 columns, so the column is 0 * 25 + k. -/
theorem blk5_read (X : CF Ideal S4030464x25) (t : Fin cfg0.N) (r : Fin 32768) (k : Fin 25) :
    ((cfg0.win 5).blk t).view.read (Elt Ideal) X (ix2 r k) = X (ix2 (rowOf t r) k) := by
  obtain ⟨e0, e1⟩ := idx_facts5 t
  show X (((cfg0.win 5).blk t).view.emb (ix2 r k)) = X (ix2 (rowOf t r) k)
  refine congrArg X (funext fun a => Fin.ext ?_)
  match a with
  | ⟨0, _⟩ => show win0_5.index t (0 : Fin 2) * 32768 + 1 * r.val = t.val * 32768 + r.val; rw [e0]; omega
  | ⟨1, _⟩ => show win0_5.index t (1 : Fin 2) * 25 + 1 * k.val = k.val; rw [e1]; omega

/-- Window 6's block index at grid point t is (t, 0). -/
theorem idx_facts6 : ∀ t : Fin cfg0.N, win0_6.index t (0 : Fin 2) = t.val ∧ win0_6.index t (1 : Fin 2) = 0 :=
  (by decide +kernel : ∀ t : Fin grid0.N, _)

/-- Window 6's block at point t, read off ANY array X at (r, k): the row is t * 32,768 + r, and the block spans
    all 25 columns, so the column is 0 * 25 + k. -/
theorem blk6_read (X : CF Ideal S4030464x25) (t : Fin cfg0.N) (r : Fin 32768) (k : Fin 25) :
    ((cfg0.win 6).blk t).view.read (Elt Ideal) X (ix2 r k) = X (ix2 (rowOf t r) k) := by
  obtain ⟨e0, e1⟩ := idx_facts6 t
  show X (((cfg0.win 6).blk t).view.emb (ix2 r k)) = X (ix2 (rowOf t r) k)
  refine congrArg X (funext fun a => Fin.ext ?_)
  match a with
  | ⟨0, _⟩ => show win0_6.index t (0 : Fin 2) * 32768 + 1 * r.val = t.val * 32768 + r.val; rw [e0]; omega
  | ⟨1, _⟩ => show win0_6.index t (1 : Fin 2) * 25 + 1 * k.val = k.val; rw [e1]; omega

/-- The point's seven input blocks, at their literal types. -/
abbrev B0 (c : Dev nD) (t : Fin cfg0.N) : Vec Ideal S32768x1 .f32 := iblk m c 0 t
abbrev B1 (c : Dev nD) (t : Fin cfg0.N) : Vec Ideal S32768x1 .f32 := iblk m c 1 t
abbrev B2 (c : Dev nD) (t : Fin cfg0.N) : Vec Ideal S32768x1 .f32 := iblk m c 2 t
abbrev B3 (c : Dev nD) (t : Fin cfg0.N) : Vec Ideal S32768x1 .f32 := iblk m c 3 t
abbrev B4 (c : Dev nD) (t : Fin cfg0.N) : Vec Ideal S32768x25 .f32 := iblk m c 4 t
abbrev B5 (c : Dev nD) (t : Fin cfg0.N) : Vec Ideal S32768x25 .f32 := iblk m c 5 t
abbrev B6 (c : Dev nD) (t : Fin cfg0.N) : Vec Ideal S32768x25 .f32 := iblk m c 6 t

theorem B0_apply (c : Dev nD) (t : Fin cfg0.N) (r : Fin 32768) : B0 m c t (ix2 r 0) = W0 m c (ix2 (rowOf t r) 0) :=
  blk0_read (W0 m c) t r
theorem B1_apply (c : Dev nD) (t : Fin cfg0.N) (r : Fin 32768) : B1 m c t (ix2 r 0) = W1 m c (ix2 (rowOf t r) 0) :=
  blk1_read (W1 m c) t r
theorem B2_apply (c : Dev nD) (t : Fin cfg0.N) (r : Fin 32768) : B2 m c t (ix2 r 0) = W2 m c (ix2 (rowOf t r) 0) :=
  blk2_read (W2 m c) t r
theorem B3_apply (c : Dev nD) (t : Fin cfg0.N) (r : Fin 32768) : B3 m c t (ix2 r 0) = W3 m c (ix2 (rowOf t r) 0) :=
  blk3_read (W3 m c) t r
theorem B4_apply (c : Dev nD) (t : Fin cfg0.N) (r : Fin 32768) (k : Fin 25) : B4 m c t (ix2 r k) = W4 m c (ix2 (rowOf t r) k) :=
  blk4_read (W4 m c) t r k
theorem B5_apply (c : Dev nD) (t : Fin cfg0.N) (r : Fin 32768) (k : Fin 25) : B5 m c t (ix2 r k) = W5 m c (ix2 (rowOf t r) k) :=
  blk5_read (W5 m c) t r k
theorem B6_apply (c : Dev nD) (t : Fin cfg0.N) (r : Fin 32768) (k : Fin 25) : B6 m c t (ix2 r k) = W6 m c (ix2 (rowOf t r) k) :=
  blk6_read (W6 m c) t r k

/-- The tile sum of grid point t. -/
def tileAt (c : Dev nD) (t : Fin cfg0.N) : EReal :=
  tileSum (B0 m c t) (B1 m c t) (B2 m c t) (B3 m c t) (B4 m c t) (B5 m c t) (B6 m c t)

end Cert.KernelIdeal.Win

end
-- ==== Proof.KAcc.lean ====
/-
  The scalar accumulator the kernel carries from grid point to grid point. It starts at zero at the first point,
  every point adds its tile's sum, and the last point copies it into the output cell's staging buffer.
-/
import proofs.«407585_j32469952757807_1_alg».proof.Proof.Gen.KernelIdeal.Frame
import proofs.«407585_j32469952757807_1_alg».proof.Proof.KBody
import proofs.«407585_j32469952757807_1_alg».proof.Proof.KWin
import Idealize.ShloMosaic.Lib.ValueIdx
import Idealize.ShloMosaic.Lib.Pipeline.Value
import Idealize.ShloMosaic.Lib.Tactic
import Mathlib.Algebra.BigOperators.Group.Finset.Basic
import Mathlib.Algebra.BigOperators.Group.Finset.Piecewise
import Mathlib.Data.Fintype.Basic
import Mathlib.Data.EReal.Basic

set_option maxRecDepth 16384

noncomputable section

namespace Cert.KernelIdeal.Out

open Cert.KernelIdeal Cert.KernelIdeal.Gen Cert.KernelIdeal.Body Cert.KernelIdeal.Win
open Idealize.ShloMosaic Idealize.ShloMosaic.TcCoe Idealize.ShloMosaic.ValueIdx Idealize.SL.Sem
open Idealize.ShloMosaic.Tactic

/-! ## What each control case leaves in the scratch cell and in the output cell -/

section Pieces

variable {F : FTy → Type} [FloatOps F]

private theorem hz : (![0, 0] : Fin 2 → Nat) = fun _ => 0 := funext fun a => by fin_cases a <;> rfl

/-- A middle point: the scratch cell holding `acc` ends holding the step applied to `acc`. -/
private theorem scratch_B (c : Dev nD) (i : grid0.Coords) (arg1 : Memref sig .tc .vmem S32768x1 .f32) (harg1 : arg1.IsWhole) (arg2 : Memref sig .tc .vmem S32768x1 .f32) (harg2 : arg2.IsWhole) (arg3 : Memref sig .tc .vmem S32768x1 .f32) (harg3 : arg3.IsWhole) (arg4 : Memref sig .tc .vmem S32768x1 .f32) (harg4 : arg4.IsWhole) (arg5 : Memref sig .tc .vmem S32768x25 .f32) (harg5 : arg5.IsWhole) (arg6 : Memref sig .tc .vmem S32768x25 .f32) (harg6 : arg6.IsWhole) (arg7 : Memref sig .tc .vmem S32768x25 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 x1 x2 x3 : Vec F S32768x1 .f32) (x4 x5 x6 : Vec F S32768x25 .f32) (acc : Vec F S1x1 .f32) :
    sout0_B_0 c i arg1 harg1 arg2 harg2 arg3 harg3 arg4 harg4 arg5 harg5 arg6 harg6 arg7 harg7 arg8 harg8 arg9 harg9 hc0 hc1 x0 x1 x2 x3 x4 x5 x6 acc = k0_pay1 (k0_pay3 x2) (k0_pay4 x3) (k0_pay5 x0 x1 x4 x5 x6) (k0_pay6 x0 x1 x3 x4 x5 x6) k0_pay7 acc := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 x6 acc)]
  unfold kernelRun0_B
  dsimp only
  sl_unfold_words
  rw [View.canon_unit_zero (S := S1x1) hz]
  simp only [View.readAt_eq_ld, harg1.read_unread, harg2.read_unread, harg3.read_unread, harg4.read_unread, harg5.read_unread, harg6.read_unread, harg7.read_unread, harg8.read_unread, harg9.read_unread, View.ld_unit_zero (S := S32768x1) hz, View.ld_unit_zero (S := S32768x25) hz, View.ld_unit_zero (S := S1x1) hz, View.readCov_unit_zero (S := S1x1) _ hz]

/-- The first point: the scratch cell is reset to the start value, read back, and ends holding the step applied to it. -/
private theorem scratch_A (c : Dev nD) (i : grid0.Coords) (arg1 : Memref sig .tc .vmem S32768x1 .f32) (harg1 : arg1.IsWhole) (arg2 : Memref sig .tc .vmem S32768x1 .f32) (harg2 : arg2.IsWhole) (arg3 : Memref sig .tc .vmem S32768x1 .f32) (harg3 : arg3.IsWhole) (arg4 : Memref sig .tc .vmem S32768x1 .f32) (harg4 : arg4.IsWhole) (arg5 : Memref sig .tc .vmem S32768x25 .f32) (harg5 : arg5.IsWhole) (arg6 : Memref sig .tc .vmem S32768x25 .f32) (harg6 : arg6.IsWhole) (arg7 : Memref sig .tc .vmem S32768x25 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 x1 x2 x3 : Vec F S32768x1 .f32) (x4 x5 x6 : Vec F S32768x25 .f32) :
    sout0_A_0 c i arg1 harg1 arg2 harg2 arg3 harg3 arg4 harg4 arg5 harg5 arg6 harg6 arg7 harg7 arg8 harg8 arg9 harg9 hc0 hc1 x0 x1 x2 x3 x4 x5 x6 = k0_pay1 (k0_pay3 x2) (k0_pay4 x3) (k0_pay5 x0 x1 x4 x5 x6) (k0_pay6 x0 x1 x3 x4 x5 x6) k0_pay7 k0_pay2 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5 x6)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg9.read_unread, View.ld_unit_zero (S := S32768x1) hz, View.ld_unit_zero (S := S32768x25) hz, View.ld_unit_zero (S := S1x1) hz, View.readCov_unit_zero (S := S1x1) _ hz]

/-- The last point: the scratch cell holding `acc` ends holding the step applied to `acc`, -/
private theorem scratch_C (c : Dev nD) (i : grid0.Coords) (arg1 : Memref sig .tc .vmem S32768x1 .f32) (harg1 : arg1.IsWhole) (arg2 : Memref sig .tc .vmem S32768x1 .f32) (harg2 : arg2.IsWhole) (arg3 : Memref sig .tc .vmem S32768x1 .f32) (harg3 : arg3.IsWhole) (arg4 : Memref sig .tc .vmem S32768x1 .f32) (harg4 : arg4.IsWhole) (arg5 : Memref sig .tc .vmem S32768x25 .f32) (harg5 : arg5.IsWhole) (arg6 : Memref sig .tc .vmem S32768x25 .f32) (harg6 : arg6.IsWhole) (arg7 : Memref sig .tc .vmem S32768x25 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 x1 x2 x3 : Vec F S32768x1 .f32) (x4 x5 x6 : Vec F S32768x25 .f32) (acc : Vec F S1x1 .f32) :
    sout0_C_0 c i arg1 harg1 arg2 harg2 arg3 harg3 arg4 harg4 arg5 harg5 arg6 harg6 arg7 harg7 arg8 harg8 arg9 harg9 hc0 hc1 x0 x1 x2 x3 x4 x5 x6 acc = k0_pay1 (k0_pay3 x2) (k0_pay4 x3) (k0_pay5 x0 x1 x4 x5 x6) (k0_pay6 x0 x1 x3 x4 x5 x6) k0_pay7 acc := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 x6 acc)]
  unfold kernelRun0_C
  dsimp only
  sl_unfold_words
  rw [View.canon_unit_zero (S := S1x1) hz]
  simp only [View.readAt_eq_ld, harg1.read_unread, harg2.read_unread, harg3.read_unread, harg4.read_unread, harg5.read_unread, harg6.read_unread, harg7.read_unread, harg8.read_unread, harg9.read_unread, View.ld_unit_zero (S := S32768x1) hz, View.ld_unit_zero (S := S32768x25) hz, View.ld_unit_zero (S := S1x1) hz, View.readCov_unit_zero (S := S1x1) _ hz]

/-- and the output cell, stored from the scratch cell after its update, ends holding the same. -/
private theorem out_C (c : Dev nD) (i : grid0.Coords) (arg1 : Memref sig .tc .vmem S32768x1 .f32) (harg1 : arg1.IsWhole) (arg2 : Memref sig .tc .vmem S32768x1 .f32) (harg2 : arg2.IsWhole) (arg3 : Memref sig .tc .vmem S32768x1 .f32) (harg3 : arg3.IsWhole) (arg4 : Memref sig .tc .vmem S32768x1 .f32) (harg4 : arg4.IsWhole) (arg5 : Memref sig .tc .vmem S32768x25 .f32) (harg5 : arg5.IsWhole) (arg6 : Memref sig .tc .vmem S32768x25 .f32) (harg6 : arg6.IsWhole) (arg7 : Memref sig .tc .vmem S32768x25 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 x1 x2 x3 : Vec F S32768x1 .f32) (x4 x5 x6 : Vec F S32768x25 .f32) (acc : Vec F S1x1 .f32) :
    out0_C_7 c i arg1 harg1 arg2 harg2 arg3 harg3 arg4 harg4 arg5 harg5 arg6 harg6 arg7 harg7 arg8 harg8 arg9 harg9 hc0 hc1 x0 x1 x2 x3 x4 x5 x6 acc = k0_pay1 (k0_pay3 x2) (k0_pay4 x3) (k0_pay5 x0 x1 x4 x5 x6) (k0_pay6 x0 x1 x3 x4 x5 x6) k0_pay7 acc := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 x4 x5 x6 acc)]
  unfold kernelRun0_C
  dsimp only
  sl_unfold_words
  rw [View.canon_unit_zero (S := S1x1) hz]
  simp only [View.readAt_eq_ld, harg1.read_unread, harg2.read_unread, harg3.read_unread, harg4.read_unread, harg5.read_unread, harg6.read_unread, harg7.read_unread, harg8.read_unread, harg9.read_unread, View.ld_unit_zero (S := S32768x1) hz, View.ld_unit_zero (S := S32768x25) hz, View.ld_unit_zero (S := S1x1) hz, View.readCov_unit_zero (S := S1x1) _ hz]

end Pieces

/-! ## Sums over the points up to a bound -/

/-- Raising the bound by one adds the next term. -/
private theorem sum_le_succ {N : ℕ} (f : Fin N → EReal) (n : ℕ) (h : n + 1 < N) :
    (∑ t : Fin N, if t.val ≤ n + 1 then f t else 0)
      = (∑ t : Fin N, if t.val ≤ n then f t else 0) + f ⟨n + 1, h⟩ := by
  have e : ∀ t : Fin N, (if t.val ≤ n + 1 then f t else 0)
      = (if t.val ≤ n then f t else 0) + (if t = ⟨n + 1, h⟩ then f t else 0) := by
    intro t
    by_cases h1 : t.val ≤ n
    · have h2 : t ≠ ⟨n + 1, h⟩ := fun e => by have := congrArg Fin.val e; dsimp only at this; omega
      rw [if_pos h1, if_pos (by omega), if_neg h2, add_zero]
    · by_cases h2 : t.val = n + 1
      · rw [if_neg h1, if_pos (by omega), if_pos (Fin.ext h2), zero_add]
      · have h3 : t ≠ ⟨n + 1, h⟩ := fun e => h2 (congrArg Fin.val e)
        rw [if_neg h1, if_neg (by omega), if_neg h3, add_zero]
  rw [Finset.sum_congr rfl (fun t _ => e t), Finset.sum_add_distrib, Finset.sum_ite_eq' Finset.univ (⟨n + 1, h⟩ : Fin N) f,
    if_pos (Finset.mem_univ _)]

/-- With the bound at zero only the first term is left. -/
private theorem sum_le_zero {N : ℕ} (f : Fin N → EReal) (h : 0 < N) :
    (∑ t : Fin N, if t.val ≤ 0 then f t else 0) = f ⟨0, h⟩ := by
  have e : ∀ t : Fin N, (if t.val ≤ 0 then f t else 0) = (if t = ⟨0, h⟩ then f t else 0) := by
    intro t
    by_cases h1 : t.val = 0
    · rw [if_pos (by omega), if_pos (Fin.ext h1)]
    · have h3 : t ≠ ⟨0, h⟩ := fun e => h1 (congrArg Fin.val e)
      rw [if_neg (by omega), if_neg h3]
  rw [Finset.sum_congr rfl (fun t _ => e t), Finset.sum_ite_eq' Finset.univ (⟨0, h⟩ : Fin N) f, if_pos (Finset.mem_univ _)]

/-- With the bound at the last index every term is kept. -/
private theorem sum_le_last {N : ℕ} (f : Fin N → EReal) (n : ℕ) (h : N ≤ n + 1) :
    (∑ t : Fin N, if t.val ≤ n then f t else 0) = ∑ t : Fin N, f t :=
  Finset.sum_congr rfl fun t _ => if_pos (by have := t.isLt; omega)

variable (m : (ℓ : Loc nD τ sig) → Buf (Elt Ideal) ℓ)

/-- The accumulator after point n: the sum of the tile sums of the points up to n. -/
theorem acc_after (c : Dev nD) (n : ℕ) (hn : n < cfg0.N) :
    (outsAt0 m c n hn).2 = fun _ => ∑ t : Fin cfg0.N, if t.val ≤ n then tileAt m c t else 0 := by
  have hN : cfg0.N = 123 := N_0
  induction n with
  | zero =>
    -- the first point: the start value 0, raised by the first tile's sum
    have h0 : (⟨0, hn⟩ : Fin cfg0.N).val % 123 = 0 := rfl
    have h1 : ¬(⟨0, hn⟩ : Fin cfg0.N).val % 123 = 122 := by dsimp only; omega
    rw [outsAt0_A m c ⟨0, hn⟩ h0 h1]
    dsimp only
    refine (scratch_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole cc0_scratch0)
      ((hcond0_0 ⟨0, hn⟩).mpr h0) (fun h => h1 ((hcond0_1 ⟨0, hn⟩).mp h)) (B0 m c ⟨0, hn⟩) (B1 m c ⟨0, hn⟩) (B2 m c ⟨0, hn⟩) (B3 m c ⟨0, hn⟩) (B4 m c ⟨0, hn⟩) (B5 m c ⟨0, hn⟩) (B6 m c ⟨0, hn⟩)).trans ?_
    rw [acc_init]
    refine (acc_step (B0 m c ⟨0, hn⟩) (B1 m c ⟨0, hn⟩) (B2 m c ⟨0, hn⟩) (B3 m c ⟨0, hn⟩) (B4 m c ⟨0, hn⟩) (B5 m c ⟨0, hn⟩) (B6 m c ⟨0, hn⟩) (fun _ => (0 : EReal))).trans ?_
    funext _
    show (0 : EReal) + tileAt m c ⟨0, hn⟩ = _
    rw [zero_add]
    exact (sum_le_zero (fun t => tileAt m c t) hn).symm
  | succ n ih =>
    have h0 : ¬(⟨n + 1, hn⟩ : Fin cfg0.N).val % 123 = 0 := by dsimp only; omega
    have ih' := ih (Nat.lt_of_succ_lt hn)
    by_cases h1 : (⟨n + 1, hn⟩ : Fin cfg0.N).val % 123 = 122
    · -- the last point
      rw [outsAt0_C m c ⟨n + 1, hn⟩ h0 h1]
      dsimp only
      refine (scratch_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole cc0_scratch0)
        (fun h => h0 ((hcond0_0 ⟨n + 1, hn⟩).mp h)) ((hcond0_1 ⟨n + 1, hn⟩).mpr h1) (B0 m c ⟨n + 1, hn⟩) (B1 m c ⟨n + 1, hn⟩) (B2 m c ⟨n + 1, hn⟩) (B3 m c ⟨n + 1, hn⟩) (B4 m c ⟨n + 1, hn⟩) (B5 m c ⟨n + 1, hn⟩) (B6 m c ⟨n + 1, hn⟩)
        (outsAt0 m c n (Nat.lt_of_succ_lt hn)).2).trans ?_
      rw [ih']
      refine (acc_step (B0 m c ⟨n + 1, hn⟩) (B1 m c ⟨n + 1, hn⟩) (B2 m c ⟨n + 1, hn⟩) (B3 m c ⟨n + 1, hn⟩) (B4 m c ⟨n + 1, hn⟩) (B5 m c ⟨n + 1, hn⟩) (B6 m c ⟨n + 1, hn⟩) (fun _ => ∑ t : Fin cfg0.N, if t.val ≤ n then tileAt m c t else 0)).trans ?_
      funext _
      show (∑ t : Fin cfg0.N, if t.val ≤ n then tileAt m c t else 0) + tileAt m c ⟨n + 1, hn⟩ = _
      exact (sum_le_succ (fun t => tileAt m c t) n hn).symm
    · -- a middle point
      rw [outsAt0_B m c ⟨n + 1, hn⟩ h0 h1]
      dsimp only
      refine (scratch_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole cc0_scratch0)
        (fun h => h0 ((hcond0_0 ⟨n + 1, hn⟩).mp h)) (fun h => h1 ((hcond0_1 ⟨n + 1, hn⟩).mp h)) (B0 m c ⟨n + 1, hn⟩) (B1 m c ⟨n + 1, hn⟩) (B2 m c ⟨n + 1, hn⟩) (B3 m c ⟨n + 1, hn⟩) (B4 m c ⟨n + 1, hn⟩) (B5 m c ⟨n + 1, hn⟩) (B6 m c ⟨n + 1, hn⟩)
        (outsAt0 m c n (Nat.lt_of_succ_lt hn)).2).trans ?_
      rw [ih']
      refine (acc_step (B0 m c ⟨n + 1, hn⟩) (B1 m c ⟨n + 1, hn⟩) (B2 m c ⟨n + 1, hn⟩) (B3 m c ⟨n + 1, hn⟩) (B4 m c ⟨n + 1, hn⟩) (B5 m c ⟨n + 1, hn⟩) (B6 m c ⟨n + 1, hn⟩) (fun _ => ∑ t : Fin cfg0.N, if t.val ≤ n then tileAt m c t else 0)).trans ?_
      funext _
      show (∑ t : Fin cfg0.N, if t.val ≤ n then tileAt m c t else 0) + tileAt m c ⟨n + 1, hn⟩ = _
      exact (sum_le_succ (fun t => tileAt m c t) n hn).symm

/-- The output cell the last point leaves in its staging buffer: the accumulator. -/
theorem out_last (c : Dev nD) (hn : 122 < cfg0.N) :
    (outsAt0 m c 122 hn).1 = fun _ => ∑ t : Fin cfg0.N, tileAt m c t := by
  have hN : cfg0.N = 123 := N_0
  have h0 : ¬(⟨122, hn⟩ : Fin cfg0.N).val % 123 = 0 := by dsimp only; omega
  have h1 : (⟨122, hn⟩ : Fin cfg0.N).val % 123 = 122 := rfl
  -- the last point stores into the output cell what the scratch cell holds after its update
  have e : (outsAt0 m c 122 hn).1 = (outsAt0 m c 122 hn).2 := by
    rw [outsAt0_C m c ⟨122, hn⟩ h0 h1]
    dsimp only
    exact (out_C (F := Ideal) c (grid0.coords ⟨122, hn⟩) (ms0_0 ⟨122, hn⟩) (hs0_0 ⟨122, hn⟩) (ms0_1 ⟨122, hn⟩) (hs0_1 ⟨122, hn⟩) (ms0_2 ⟨122, hn⟩) (hs0_2 ⟨122, hn⟩) (ms0_3 ⟨122, hn⟩) (hs0_3 ⟨122, hn⟩) (ms0_4 ⟨122, hn⟩) (hs0_4 ⟨122, hn⟩) (ms0_5 ⟨122, hn⟩) (hs0_5 ⟨122, hn⟩) (ms0_6 ⟨122, hn⟩) (hs0_6 ⟨122, hn⟩) (ms0_7 ⟨122, hn⟩) (hs0_7 ⟨122, hn⟩) scM0_0 (Memref.isWhole_whole cc0_scratch0)
        (fun h => h0 ((hcond0_0 ⟨122, hn⟩).mp h)) ((hcond0_1 ⟨122, hn⟩).mpr h1) (B0 m c ⟨122, hn⟩) (B1 m c ⟨122, hn⟩) (B2 m c ⟨122, hn⟩) (B3 m c ⟨122, hn⟩) (B4 m c ⟨122, hn⟩) (B5 m c ⟨122, hn⟩) (B6 m c ⟨122, hn⟩)
        (outsAt0 m c 121 (by omega)).2).trans
      (scratch_C (F := Ideal) c (grid0.coords ⟨122, hn⟩) (ms0_0 ⟨122, hn⟩) (hs0_0 ⟨122, hn⟩) (ms0_1 ⟨122, hn⟩) (hs0_1 ⟨122, hn⟩) (ms0_2 ⟨122, hn⟩) (hs0_2 ⟨122, hn⟩) (ms0_3 ⟨122, hn⟩) (hs0_3 ⟨122, hn⟩) (ms0_4 ⟨122, hn⟩) (hs0_4 ⟨122, hn⟩) (ms0_5 ⟨122, hn⟩) (hs0_5 ⟨122, hn⟩) (ms0_6 ⟨122, hn⟩) (hs0_6 ⟨122, hn⟩) (ms0_7 ⟨122, hn⟩) (hs0_7 ⟨122, hn⟩) scM0_0 (Memref.isWhole_whole cc0_scratch0)
        (fun h => h0 ((hcond0_0 ⟨122, hn⟩).mp h)) ((hcond0_1 ⟨122, hn⟩).mpr h1) (B0 m c ⟨122, hn⟩) (B1 m c ⟨122, hn⟩) (B2 m c ⟨122, hn⟩) (B3 m c ⟨122, hn⟩) (B4 m c ⟨122, hn⟩) (B5 m c ⟨122, hn⟩) (B6 m c ⟨122, hn⟩)
        (outsAt0 m c 121 (by omega)).2).symm
  rw [e, acc_after m c 122 hn]
  funext _
  exact sum_le_last (fun t => tileAt m c t) 122 (by omega)

end Cert.KernelIdeal.Out

end
-- ==== Proof.KOut.lean ====
/-
  The kernel program's result. The region's one output, a single cell, ends at the sum over all 123 grid points of
  the point's tile sum: the scalar accumulator starts at zero at the first point, every point adds its tile's sum,
  and the last point copies the accumulator out. The host operations after the region then give the energy less
  that sum.
-/
import proofs.«407585_j32469952757807_1_alg».proof.Proof.Gen.KernelIdeal.Frame
import proofs.«407585_j32469952757807_1_alg».proof.Proof.KBody
import proofs.«407585_j32469952757807_1_alg».proof.Proof.KWin
import proofs.«407585_j32469952757807_1_alg».proof.Proof.KAcc
import Idealize.ShloMosaic.Lib.ValueIdx
import Idealize.ShloMosaic.Lib.Pipeline.Value
import Idealize.ShloMosaic.Lib.StableHlo.Run

set_option maxRecDepth 16384

noncomputable section

namespace Cert.KernelIdeal.Out

open Cert.KernelIdeal Cert.KernelIdeal.Gen Cert.KernelIdeal.Body Cert.KernelIdeal.Win
open Idealize.ShloMosaic Idealize.ShloMosaic.TcCoe Idealize.ShloMosaic.ValueIdx Idealize.SL.Sem

variable (m : (ℓ : Loc nD τ sig) → Buf (Elt Ideal) ℓ) (ρ : Dev nD → PrngReg)

/-- The grid's last point. -/
theorem lt_last : 122 < cfg0.N := Nat.lt_of_lt_of_eq (by decide : 122 < 123) N_0.symm

/-- The one write-back, at the last point, writes the accumulated sum into the cell: the window is uncut, so what is
    written is all the staging buffer holds, and a constant array read through any block is that constant. -/
theorem flushed_eq (c : Dev nD) (t : Fin cfg0.N) (hf : (cfg0.win 7).flush t = true) :
    (dats m 0 c).flushed 7 t
      = ((cfg0.win 7).blk t).view.read (Elt Ideal) ((fun _ => ∑ t : Fin cfg0.N, tileAt m c t : Vec Ideal S1x1 .f32)) := by
  have hN : cfg0.N = 123 := N_0
  have h1 : t.val = 122 := by have := (flush0_7 t).mp hf; have := t.isLt; omega
  obtain rfl : t = ⟨122, lt_last⟩ := Fin.ext h1
  show (cfg0.win 7).cut (grid0.coords _) ((dats m 0 c).after 7 _) = _
  rw [after0_7, out_last]
  funext j
  rw [View.read_apply]
  rfl

/-- The output window's block index is zero on both axes at every point. -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- An index of the one-cell array is in point t's block iff each coordinate is in the block's range on its axis. -/
theorem mem_blk (t : Fin cfg0.N) (i : S1x1.Idx) :
    i ∈ ((cfg0.win 7).blk t).view.set ↔ ∀ a : Fin 2, win0_7.index t a * S1x1.size a ≤ (i a).val ∧ (i a).val < win0_7.index t a * S1x1.size a + S1x1.size a := by
  show i ∈ ((View.whole main_v129).slice (win0_7.rect t)).set ↔ _
  rw [View.set_slice_whole, Rect.mem_set_unit]
  exact Iff.rfl

/-- The output array after the region. -/
theorem out_array (c : Dev nD) :
    ((dats m 0 c).arrAt 7 cfg0.N : Vec Ideal S1x1 .f32) = fun _ => ∑ t : Fin cfg0.N, tileAt m c t := by
  -- the last point's block is the whole one-cell array
  have hcover : ∀ i : S1x1.Idx, ∃ t : Fin cfg0.N, (cfg0.win 7).flush t = true ∧ i ∈ ((cfg0.win 7).blk t).view.set := by
    intro i
    refine ⟨⟨122, lt_last⟩, (flush0_7 _).mpr rfl, ?_⟩
    rw [mem_blk]
    obtain ⟨e0, e1⟩ := idx7 ⟨122, lt_last⟩
    intro a
    have h0 : (i 0).val < 1 := (i 0).isLt
    have h1 : (i 1).val < 1 := (i 1).isLt
    match a with
    | ⟨0, _⟩ => show win0_7.index _ (0 : Fin 2) * 1 ≤ (i 0).val ∧ (i 0).val < win0_7.index _ (0 : Fin 2) * 1 + 1; omega
    | ⟨1, _⟩ => show win0_7.index _ (1 : Fin 2) * 1 ≤ (i 1).val ∧ (i 1).val < win0_7.index _ (1 : Fin 2) * 1 + 1; omega
  exact (dats m 0 c).arrAt_eq_of_cover 7 _ (flushed_eq m c) hcover

/-- The result array after the host operations that follow the region: the output cell is read as a scalar, negated,
    spread to one element and added to the energy argument, which no operation before or after the region writes. -/
theorem tail_value (c : Dev nD) :
    (Pipeline.afterTail₀ cfgs (dats m) 0 (V0 m) [hostOps1] c main_v133 : Vec Ideal S1 .f32)
      = fun i => A1 m c i + -(∑ t : Fin cfg0.N, tileAt m c t) := by
  unfold Pipeline.afterTail₀
  show StableHlo.after hostOps1 _ (Proc.devRef .tc main_v133) = _
  after_results
  have e7 : Pipeline.withArrays (cfgs 0).spec c (V0 m c) (fun w => (dats m 0 c).arrAt w (cfgs 0).N) (Proc.devRef .tc main_v129)
      = (fun _ => ∑ t : Fin cfg0.N, tileAt m c t : Vec Ideal S1x1 .f32) :=
    (Pipeline.withArrays_arr spec0 launch0.win.arr_inj c _ _ 7).trans (out_array m c)
  have e1 : Pipeline.withArrays (cfgs 0).spec c (V0 m c) (fun w => (dats m 0 c).arrAt w (cfgs 0).N) (Proc.devRef .tc main_arg1)
      = A1 m c :=
    (Pipeline.withArrays_of_ne _ c (V0 m c) _ main_arg1 (by exact (by decide : ∀ w, Pipeline.arrRef spec0 w ≠ main_arg1))).trans
      (V_main_arg1 m c)
  rw [e7, e1]
  funext i
  rw [addf_apply]
  -- a constant cell read at any index is the constant; the host's negation at the extended reals is negation
  rfl

/-- The kernel program's run: the result array holds the energy less the sum of all tile sums; the arguments are
    unchanged. -/
theorem run :
    θ_run defs (onTc (τ := τ) (main (F := Ideal))) ⟨m, fun _ => 0, ρ⟩ (fun r => ∀ c : Dev nD,
      (r.2.mem ((c.tc : Thread nD τ).loc main_v133) : Vec Ideal S1 .f32)
          = (fun i => A1 m c i + -(∑ t : Fin cfg0.N, tileAt m c t))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      ((h c).2 main_v133 (Pipeline.mem_restRefs_of main_v133 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Out

end
-- ==== Proof.RArr.lean ====
/-
  The reference program's arithmetic, written as functions of the nine argument arrays. Per pair p: the species of
  its two atoms, the coordination numbers of the two atoms, the product of their charge scales, three 5 x 5 blocks of
  reference values taken out of the 7 x 7 x 5 x 5 tables at (species_i, species_j); then the Gaussian weights over
  the 25 reference points, the interpolated C6, the damped two-body term, and the energy less the sum of all terms.
-/
import proofs.«407585_j32469952757807_1_alg».proof.Proof.Gen.ReferenceIdeal

noncomputable section

namespace Cert.ReferenceIdeal.Arr

open Cert.ReferenceIdeal Cert.ReferenceIdeal.Gen Idealize.ShloMosaic Idealize.ShloMosaic.TcCoe

variable {F : FTy → Type} [FloatOps F]

/-- Integer, and float, array contents of a shape. -/
abbrev CI (F : FTy → Type) (S : Shape) : Type := (⟨S, .i32⟩ : BufTy).Contents (Elt F)
abbrev CF (F : FTy → Type) (S : Shape) : Type := (⟨S, .f32⟩ : BufTy).Contents (Elt F)

/-- The species of every atom: the one row of the species input. -/
def sp (a0 : CI F S1x100000) : CI F S100000 := shapeCast _ a0 shapeCasts_S1x100000_S100000

/-- The first and the second atom of every pair: the two rows of the pair list. -/
def rowI (a2 : CI F S2x4000000) : CI F S4000000 :=
  shapeCast _ (extractStridedSlice S1x4000000 ![0, 0] a2 slices_S2x4000000_S1x4000000_0_0) shapeCasts_S1x4000000_S4000000
def rowJ (a2 : CI F S2x4000000) : CI F S4000000 :=
  shapeCast _ (extractStridedSlice S1x4000000 ![1, 0] a2 slices_S2x4000000_S1x4000000_1_0) shapeCasts_S1x4000000_S4000000

/-- An index vector made ready for a take: a negative entry is raised by the axis length n, and the vector becomes
    a column of start indices. -/
def wrapTo (n : BitVec 32) (x : CI F S4000000) : CI F S4000000x1 :=
  broadcastInDim S4000000x1 ![0] bcast_S4000000_S4000000x1_0
    (select (cmpi .slt x (broadcastInDim S4000000 ![] bcast_S_S4000000 (constantI S_ 32 0#32)))
      (addi x (broadcastInDim S4000000 ![] bcast_S_S4000000 (constantI S_ 32 n))) x)

/-- The species of each pair's first, and second, atom. -/
def si (a0 : CI F S1x100000) (a2 : CI F S2x4000000) : CI F S4000000 :=
  Host.gather gather_S100000_S4000000x1_S4000000_n_0_n_n_0_1_1 (sp a0) (wrapTo 100000#32 (rowI a2))
def sj (a0 : CI F S1x100000) (a2 : CI F S2x4000000) : CI F S4000000 :=
  Host.gather gather_S100000_S4000000x1_S4000000_n_0_n_n_0_1_1 (sp a0) (wrapTo 100000#32 (rowJ a2))

/-- A per-element table of 7 values taken at a species vector. -/
def take7 (tab : CF F S7) (s : CI F S4000000) : CF F S4000000 :=
  Host.gather gather_S7_S4000000x1_S4000000_n_0_n_n_0_1_1 tab (wrapTo 7#32 s)

/-- A constant spread over the pairs. -/
def splat (w : BitVec 32) : CF F S4000000 := broadcastInDim S4000000 ![] bcast_S_S4000000 (constant S_ .f32 w)

/-- The argument of the counting function, before its scale: (4/3) (r_i + r_j) / d - 1. -/
def zarg (a0 : CI F S1x100000) (a2 : CI F S2x4000000) (a3 : CF F S4000000) (a4 : CF F S7) : CF F S4000000 :=
  subf (Host.divf (mulf (splat 0x3FAAAAAB#32) (addf (take7 a4 (si a0 a2)) (take7 a4 (sj a0 a2)))) a3) (splat 0x3F800000#32)

/-- The counting term of every pair, as this program spells the logistic function: 1 / (1 + exp ((-16) z)). -/
def counting (a0 : CI F S1x100000) (a2 : CI F S2x4000000) (a3 : CF F S4000000) (a4 : CF F S7) : CF F S4000000 :=
  Host.divf (splat 0x3F800000#32) (addf (splat 0x3F800000#32)
    (Host.exp (mulf (splat 0xC1800000#32) (zarg a0 a2 a3 a4))))

/-- The coordination number of every atom, from a counting term per pair: the term accumulated at the pair's first
    atom, then at its second. -/
def cnOf (a2 : CI F S2x4000000) (cnt : CF F S4000000) : CF F S100000 :=
  Host.scatterAdd scatter_S100000_S4000000x1_S4000000_n_0_0_1
    (Host.scatterAdd scatter_S100000_S4000000x1_S4000000_n_0_0_1
      (broadcastInDim S100000 ![] bcast_S_S100000 (constant S_ .f32 0x00000000#32)) (wrapTo 100000#32 (rowI a2)) cnt)
    (wrapTo 100000#32 (rowJ a2)) cnt

/-- The coordination numbers taken back at each pair's first, and second, atom. -/
def cnAtI (a2 : CI F S2x4000000) (cn : CF F S100000) : CF F S4000000 :=
  Host.gather gather_S100000_S4000000x1_S4000000_n_0_n_n_0_1_1 cn (wrapTo 100000#32 (rowI a2))
def cnAtJ (a2 : CI F S2x4000000) (cn : CF F S100000) : CF F S4000000 :=
  Host.gather gather_S100000_S4000000x1_S4000000_n_0_n_n_0_1_1 cn (wrapTo 100000#32 (rowJ a2))

def cni (a0 : CI F S1x100000) (a2 : CI F S2x4000000) (a3 : CF F S4000000) (a4 : CF F S7) : CF F S4000000 :=
  cnAtI a2 (cnOf a2 (counting a0 a2 a3 a4))
def cnj (a0 : CI F S1x100000) (a2 : CI F S2x4000000) (a3 : CF F S4000000) (a4 : CF F S7) : CF F S4000000 :=
  cnAtJ a2 (cnOf a2 (counting a0 a2 a3 a4))

/-- The product of the two atoms' charge scales. -/
def sq (a0 : CI F S1x100000) (a2 : CI F S2x4000000) (a5 : CF F S7) : CF F S4000000 :=
  mulf (take7 a5 (si a0 a2)) (take7 a5 (sj a0 a2))

/-- A pair vector spread over the 5 x 5 reference points. -/
def over55 (x : CF F S4000000) : CF F S4000000x5x5 :=
  broadcastInDim S4000000x5x5 ![0, 1, 2] bcast_S4000000x1x1_S4000000x5x5_0_1_2
    (broadcastInDim S4000000x1x1 ![0] bcast_S4000000_S4000000x1x1_0 x)

/-- The two species of every pair side by side: the start indices of a take out of a 7 x 7 x 5 x 5 table. -/
def pairIdx (a0 : CI F S1x100000) (a2 : CI F S2x4000000) : CI F S4000000x2 :=
  concatenate S4000000x2 1 [⟨S4000000x1, wrapTo 7#32 (si a0 a2)⟩, ⟨S4000000x1, wrapTo 7#32 (sj a0 a2)⟩]
    concatenates_S4000000x1_S4000000x1_S4000000x2_d1

/-- One 7 x 7 x 5 x 5 table taken at every pair's (species_i, species_j): a 5 x 5 block per pair. -/
def blocks55 (tab : CF F S7x7x5x5) (a0 : CI F S1x100000) (a2 : CI F S2x4000000) : CF F S4000000x5x5 :=
  Host.gather gather_S7x7x5x5_S4000000x2_S4000000x5x5_12_01_n_n_01_1_1155 tab (pairIdx a0 a2)

/-- The deviation of a coordination number from a table of reference coordination numbers. -/
def dev (cn : CF F S4000000) (ref : CF F S4000000x5x5) : CF F S4000000x5x5 := subf (over55 cn) ref

/-- The Gaussian weight of every reference point: exp (-4 ((cn_i - a)^2 + (cn_j - b)^2)). -/
def gauss (da db : CF F S4000000x5x5) : CF F S4000000x5x5 :=
  Host.exp (mulf (broadcastInDim S4000000x5x5 ![] bcast_S_S4000000x5x5 (constant S_ .f32 0xC0800000#32))
    (addf (mulf da da) (mulf db db)))

/-- The interpolated C6 of every pair: the weighted mean of its 25 reference values. -/
def c6 (g cp : CF F S4000000x5x5) : CF F S4000000 :=
  Host.divf (Host.reduceAdd (mulf g cp) (constant S_ .f32 0x00000000#32) reducesTo_S4000000x5x5_S4000000_d1_2 h_S_)
    (Host.reduceAdd g (constant S_ .f32 0x00000000#32) reducesTo_S4000000x5x5_S4000000_d1_2 h_S_)

/-- The damping radius 0.3 sqrt (3 q) + 5. -/
def bj (q : CF F S4000000) : CF F S4000000 :=
  addf (mulf (splat 0x3E99999A#32) (Host.sqrt (mulf (splat 0x40400000#32) q))) (splat 0x40A00000#32)

/-- The damped two-body term 1 * C6 / (d^6 + b^6) + 0.2641 (3 C6 q) / (d^8 + b^8), the powers by repeated squaring. -/
def twoBody (c q d b : CF F S4000000) : CF F S4000000 :=
  addf
    (Host.divf (mulf (splat 0x3F800000#32) c)
      (addf (mulf (mulf d d) (mulf (mulf d d) (mulf d d))) (mulf (mulf b b) (mulf (mulf b b) (mulf b b)))))
    (Host.divf (mulf (splat 0x3E87381D#32) (mulf (mulf (splat 0x40400000#32) c) q))
      (addf (mulf (mulf (mulf d d) (mulf d d)) (mulf (mulf d d) (mulf d d)))
        (mulf (mulf (mulf b b) (mulf b b)) (mulf (mulf b b) (mulf b b)))))

/-- The energy less the sum of the two-body terms of all pairs. -/
def result (a1 : CF F S1) (tb : CF F S4000000) : CF F S1 :=
  addf a1 (broadcastInDim S1 ![] bcast_S_S1
    (Host.negf (Host.reduceAdd tb (constant S_ .f32 0x00000000#32) reducesTo_S4000000_S_d0 h_S_)))

end Cert.ReferenceIdeal.Arr

end
-- ==== Proof.RVal.lean ====
/-
  The reference program's result, read at the extended reals: the energy less the sum, over the 4,000,000 pairs, of
  the pair's two-body term over its 5 x 5 block of reference points.
-/
import proofs.«407585_j32469952757807_1_alg».proof.Proof.RArr
import proofs.«407585_j32469952757807_1_alg».proof.Proof.Spec
import Idealize.ShloMosaic.Lib.ValueIdx
import Idealize.ShloMosaic.Lib.ValueLayout
import Idealize.ShloMosaic.Lib.Pipeline.Value

set_option maxRecDepth 16384

noncomputable section

namespace Cert.ReferenceIdeal.RefValue

open Cert.ReferenceIdeal Cert.ReferenceIdeal.Gen Cert.ReferenceIdeal.Arr
open Idealize.ShloMosaic Idealize.ShloMosaic.TcCoe Idealize.ShloMosaic.ValueIdx Idealize.SL.Sem
open Cert.Dispersion

/-- The two-body terms of all pairs, from the argument arrays. -/
def tbOf {F : FTy → Type} [FloatOps F] (a0 : CI F S1x100000) (a2 : CI F S2x4000000) (a3 : CF F S4000000) (a4 a5 : CF F S7)
    (a6 a7 a8 : CF F S7x7x5x5) : CF F S4000000 :=
  twoBody
    (c6 (gauss (dev (cni a0 a2 a3 a4) (blocks55 a7 a0 a2)) (dev (cnj a0 a2 a3 a4) (blocks55 a8 a0 a2))) (blocks55 a6 a0 a2))
    (sq a0 a2 a5) a3 (bj (sq a0 a2 a5))

variable (m : (ℓ : Loc nD τ sig) → Buf (Elt Ideal) ℓ)

/-- The nine argument arrays of core c at launch. -/
abbrev A0 (c : Dev nD) : CI Ideal S1x100000 := m ((c.tc : Thread nD τ).loc main_arg0)
abbrev A1 (c : Dev nD) : CF Ideal S1 := m ((c.tc : Thread nD τ).loc main_arg1)
abbrev A2 (c : Dev nD) : CI Ideal S2x4000000 := m ((c.tc : Thread nD τ).loc main_arg2)
abbrev A3 (c : Dev nD) : CF Ideal S4000000 := m ((c.tc : Thread nD τ).loc main_arg3)
abbrev A4 (c : Dev nD) : CF Ideal S7 := m ((c.tc : Thread nD τ).loc main_arg4)
abbrev A5 (c : Dev nD) : CF Ideal S7 := m ((c.tc : Thread nD τ).loc main_arg5)
abbrev A6 (c : Dev nD) : CF Ideal S7x7x5x5 := m ((c.tc : Thread nD τ).loc main_arg6)
abbrev A7 (c : Dev nD) : CF Ideal S7x7x5x5 := m ((c.tc : Thread nD τ).loc main_arg7)
abbrev A8 (c : Dev nD) : CF Ideal S7x7x5x5 := m ((c.tc : Thread nD τ).loc main_arg8)

/-- The pair term of pair p, over its 5 x 5 block of reference points. -/
def pairAt (a0 : CI Ideal S1x100000) (a2 : CI Ideal S2x4000000) (a3 : CF Ideal S4000000) (a4 a5 : CF Ideal S7)
    (a6 a7 a8 : CF Ideal S7x7x5x5) (p : Fin 4000000) : EReal :=
  pairTerm (ι := Fin 5 × Fin 5) (cni a0 a2 a3 a4 (ix1 p)) (cnj a0 a2 a3 a4 (ix1 p)) (a3 (ix1 p)) (sq a0 a2 a5 (ix1 p))
    (fun ab => blocks55 a7 a0 a2 (ix3 p ab.1 ab.2)) (fun ab => blocks55 a8 a0 a2 (ix3 p ab.1 ab.2))
    (fun ab => blocks55 a6 a0 a2 (ix3 p ab.1 ab.2))

/-- A constant spread over the pairs reads as its word everywhere. -/
theorem splat_apply (w : BitVec 32) (i : S4000000.Idx) : splat (F := Ideal) w i = lit w := rfl

/-- A pair vector spread over the 5 x 5 reference points reads, at (p, a, b), the vector at p. -/
theorem over55_apply (x : CF Ideal S4000000) (p : Fin 4000000) (a b : Fin 5) : over55 x (ix3 p a b) = x (ix1 p) := by
  unfold over55 broadcastInDim
  apply congrArg x
  funext d
  match d with
  | ⟨0, _⟩ => exact Fin.ext rfl

/-- The deviation at (p, a, b): the coordination number of pair p less the reference value there. -/
theorem dev_apply (cn : CF Ideal S4000000) (ref : CF Ideal S4000000x5x5) (p : Fin 4000000) (a b : Fin 5) :
    dev cn ref (ix3 p a b) = cn (ix1 p) - ref (ix3 p a b) := by
  unfold dev
  rw [subf_apply, over55_apply]

/-- The Gaussian weight at an index, from the two deviations there. -/
theorem gauss_apply (da db : CF Ideal S4000000x5x5) (j : S4000000x5x5.Idx) :
    gauss da db j = Ideal.exp (lit 0xC0800000#32 * (da j * da j + db j * db j)) := rfl

/-- The weight of reference point (a, b) of pair p is the Gaussian weight of the specification. -/
theorem gauss_dev_apply (ci cj : CF Ideal S4000000) (ra rb : CF Ideal S4000000x5x5) (p : Fin 4000000) (a b : Fin 5) :
    gauss (dev ci ra) (dev cj rb) (ix3 p a b) = gpt (ci (ix1 p)) (cj (ix1 p)) (ra (ix3 p a b)) (rb (ix3 p a b)) := by
  rw [gauss_apply, dev_apply, dev_apply]
  rfl

/-- The indices of a 4,000,000 x 5 x 5 array that reduce, over the two trailing axes, to pair p are the 25 indices
    (p, a, b): a sum over them is the sum over the 5 x 5 block. -/
theorem sum_fiber (x : S4000000x5x5.Idx → EReal) (p : Fin 4000000)
    [DecidablePred fun i : S4000000x5x5.Idx => reducesTo_S4000000x5x5_S4000000_d1_2.drop i = ix1 p] :
    ∑ i ∈ Finset.univ.filter (fun i => reducesTo_S4000000x5x5_S4000000_d1_2.drop i = ix1 p), x i
      = ∑ ab : Fin 5 × Fin 5, x (ix3 p ab.1 ab.2) := by
  have hdrop : ∀ i : S4000000x5x5.Idx, reducesTo_S4000000x5x5_S4000000_d1_2.drop i = ix1 p ↔ i 0 = p := by
    intro i
    have hv : ((reducesTo_S4000000x5x5_S4000000_d1_2.drop i (0 : Fin 1)) : ℕ) = ((i 0 : Fin 4000000) : ℕ) :=
      Shape.ReducesTo.drop_apply_val_of_eq reducesTo_S4000000x5x5_S4000000_d1_2 i 0 0
    constructor
    · intro h
      apply Fin.ext
      rw [← hv, h]
    · intro h
      funext d
      match d with
      | ⟨0, _⟩ => exact Fin.ext (hv.trans (congrArg Fin.val h))
  refine Finset.sum_nbij' (fun i => ((i 1 : Fin 5), (i 2 : Fin 5))) (fun ab => ix3 p ab.1 ab.2) ?_ ?_ ?_ ?_ ?_
  · intro i _; exact Finset.mem_univ _
  · intro ab _
    rw [Finset.mem_filter]
    exact ⟨Finset.mem_univ _, (hdrop _).mpr rfl⟩
  · intro i hi
    have h0 : i 0 = p := (hdrop i).mp (Finset.mem_filter.mp hi).2
    rw [← h0]
    exact (eq_ix3 i).symm
  · intro ab _; rfl
  · intro i hi
    have h0 : i 0 = p := (hdrop i).mp (Finset.mem_filter.mp hi).2
    rw [← h0]
    exact congrArg x (eq_ix3 i)

/-- The host's sum over the two trailing axes, read at pair p: the initial value plus the sum over the 5 x 5 block. -/
theorem hostReduceAdd_fiber (x : S4000000x5x5.Idx → EReal) (init : EReal) (p : Fin 4000000) :
    Ideal.hostReduceAdd reducesTo_S4000000x5x5_S4000000_d1_2 x init (ix1 p)
      = init + ∑ ab : Fin 5 × Fin 5, x (ix3 p ab.1 ab.2) := by
  unfold Ideal.hostReduceAdd
  rw [sum_fiber]

/-- The program's interpolated coefficient at an index is the host quotient of its two host sums … -/
theorem c6_eq (g cp : CF Ideal S4000000x5x5) (j : S4000000.Idx) :
    c6 g cp j
      = Host.divf (F := Ideal) (φ := .f32)
          (Host.reduceAdd (F := Ideal) (φ := .f32) (mulf (F := Ideal) (φ := .f32) g cp) (constant S_ .f32 0x00000000#32)
            reducesTo_S4000000x5x5_S4000000_d1_2 h_S_)
          (Host.reduceAdd (F := Ideal) (φ := .f32) g (constant S_ .f32 0x00000000#32)
            reducesTo_S4000000x5x5_S4000000_d1_2 h_S_) j := rfl

/-- … the host quotient at an index is the quotient of the extended reals there … -/
theorem hostDivf_apply (x y : CF Ideal S4000000) (j : S4000000.Idx) :
    Host.divf (F := Ideal) (φ := .f32) x y j = Ideal.div (x j) (y j) := rfl

/-- … and the host sum over the two trailing axes from the zero word is the extended reals' sum from that word's value. -/
theorem hostReduceAdd55_eq (g : CF Ideal S4000000x5x5) (j : S4000000.Idx) :
    Host.reduceAdd (F := Ideal) (φ := .f32) g (constant S_ .f32 0x00000000#32) reducesTo_S4000000x5x5_S4000000_d1_2 h_S_ j
      = Ideal.hostReduceAdd reducesTo_S4000000x5x5_S4000000_d1_2 g (Ideal.ofBits .f32 0x00000000#32) j := rfl

/-- The interpolated coefficient of pair p: the weighted sum over its block, over the sum of the weights. -/
theorem c6_apply (g cp : CF Ideal S4000000x5x5) (p : Fin 4000000) :
    c6 g cp (ix1 p)
      = Ideal.div (∑ ab : Fin 5 × Fin 5, g (ix3 p ab.1 ab.2) * cp (ix3 p ab.1 ab.2)) (∑ ab : Fin 5 × Fin 5, g (ix3 p ab.1 ab.2)) := by
  rw [c6_eq, hostDivf_apply, hostReduceAdd55_eq, hostReduceAdd55_eq, hostReduceAdd_fiber, hostReduceAdd_fiber,
    Ideal.ofBits_zero_f32, zero_add, zero_add]
  rfl

/-- The damping radius of the program at an index is the specification's. -/
theorem bj_apply (q : CF Ideal S4000000) (i : S4000000.Idx) : bj q i = bjr (q i) := rfl

/-- The damped term of the program at an index, over any radius array. -/
theorem twoBody_apply (c q d b : CF Ideal S4000000) (i : S4000000.Idx) :
    twoBody c q d b i
      = Ideal.div (lit 0x3F800000#32 * c i)
            ((d i * d i) * ((d i * d i) * (d i * d i)) + (b i * b i) * ((b i * b i) * (b i * b i)))
          + Ideal.div (lit 0x3E87381D#32 * ((lit 0x40400000#32 * c i) * q i))
            (((d i * d i) * (d i * d i)) * ((d i * d i) * (d i * d i))
              + ((b i * b i) * (b i * b i)) * ((b i * b i) * (b i * b i))) := rfl

/-- With the program's own radius it is the specification's damped term. -/
theorem twoBody_bj_apply (c q d : CF Ideal S4000000) (i : S4000000.Idx) :
    twoBody c q d (bj q) i = damped (c i) (q i) (d i) := by
  rw [twoBody_apply, bj_apply]
  rfl

/-- The program's arithmetic at pair p, over arbitrary coordination numbers, charge products and reference blocks. -/
theorem twoBody_c6_apply (ci cj d q : CF Ideal S4000000) (ra rb cp : CF Ideal S4000000x5x5) (p : Fin 4000000) :
    twoBody (c6 (gauss (dev ci ra) (dev cj rb)) cp) q d (bj q) (ix1 p)
      = pairTerm (ι := Fin 5 × Fin 5) (ci (ix1 p)) (cj (ix1 p)) (d (ix1 p)) (q (ix1 p))
          (fun ab => ra (ix3 p ab.1 ab.2)) (fun ab => rb (ix3 p ab.1 ab.2)) (fun ab => cp (ix3 p ab.1 ab.2)) := by
  rw [twoBody_bj_apply, c6_apply]
  simp only [gauss_dev_apply]
  rfl

/-- The array of terms is the program's arithmetic over the coordination numbers, charge products and blocks. -/
theorem tbOf_eq (a0 : CI Ideal S1x100000) (a2 : CI Ideal S2x4000000) (a3 : CF Ideal S4000000) (a4 a5 : CF Ideal S7)
    (a6 a7 a8 : CF Ideal S7x7x5x5) :
    tbOf a0 a2 a3 a4 a5 a6 a7 a8
      = twoBody
          (c6 (gauss (dev (cni a0 a2 a3 a4) (blocks55 a7 a0 a2)) (dev (cnj a0 a2 a3 a4) (blocks55 a8 a0 a2))) (blocks55 a6 a0 a2))
          (sq a0 a2 a5) a3 (bj (sq a0 a2 a5)) := rfl

/-! ### The result array -/

/-- A rank-0 array spread over the one-entry result reads as its one entry. -/
theorem bcast0_apply (x : CF Ideal S_) (i : S1.Idx) : broadcastInDim S1 ![] bcast_S_S1 x i = x ix0 := by
  unfold broadcastInDim
  exact congrArg x (funext fun a => a.elim0)

/-- The host negation at an index is the negation of the extended reals. -/
theorem hostNegf_apply (x : CF Ideal S_) (j : S_.Idx) : Host.negf (F := Ideal) (φ := .f32) x j = -(x j) := rfl

/-- The result at its index: the energy plus the spread negated host sum of the terms. -/
theorem result_eq (a1 : CF Ideal S1) (tb : CF Ideal S4000000) (i : S1.Idx) :
    result a1 tb i
      = a1 i + broadcastInDim S1 ![] bcast_S_S1
          (Host.negf (F := Ideal) (φ := .f32)
            (Host.reduceAdd (F := Ideal) (φ := .f32) tb (constant S_ .f32 0x00000000#32) reducesTo_S4000000_S_d0 h_S_)) i := rfl

/-- The host sum over the one axis from the zero word is the extended reals' sum from that word's value. -/
theorem hostReduceAdd1_eq (tb : CF Ideal S4000000) (j : S_.Idx) :
    Host.reduceAdd (F := Ideal) (φ := .f32) tb (constant S_ .f32 0x00000000#32) reducesTo_S4000000_S_d0 h_S_ j
      = Ideal.hostReduceAdd reducesTo_S4000000_S_d0 tb (Ideal.ofBits .f32 0x00000000#32) j := rfl

/-- The array of two-body terms, read at a pair. -/
theorem tbOf_apply (a0 : CI Ideal S1x100000) (a2 : CI Ideal S2x4000000) (a3 : CF Ideal S4000000) (a4 a5 : CF Ideal S7)
    (a6 a7 a8 : CF Ideal S7x7x5x5) (p : Fin 4000000) :
    tbOf a0 a2 a3 a4 a5 a6 a7 a8 (ix1 p) = pairAt a0 a2 a3 a4 a5 a6 a7 a8 p := by
  rw [tbOf_eq]
  exact twoBody_c6_apply (cni a0 a2 a3 a4) (cnj a0 a2 a3 a4) a3 (sq a0 a2 a5) (blocks55 a7 a0 a2) (blocks55 a8 a0 a2)
    (blocks55 a6 a0 a2) p

/-- The result array, read at its one index: the energy less the sum of the terms. -/
theorem result_apply (a1 : CF Ideal S1) (tb : CF Ideal S4000000) (i : S1.Idx) :
    result a1 tb i = a1 i + -(∑ p : Fin 4000000, tb (ix1 p)) := by
  have hsum : ∑ j : S4000000.Idx, tb j = ∑ p : Fin 4000000, tb (ix1 p) :=
    (Equiv.sum_comp (⟨ix1, fun j => j 0, fun _ => rfl, fun j => (eq_ix1 j).symm⟩ : Fin 4000000 ≃ S4000000.Idx) tb).symm
  rw [result_eq, bcast0_apply, hostNegf_apply, hostReduceAdd1_eq,
    Ideal.hostReduceAdd_total reducesTo_S4000000_S_d0 (fun b => b.elim0), Ideal.ofBits_zero_f32, zero_add, hsum]

end Cert.ReferenceIdeal.RefValue

end
-- ==== Proof.RRun.lean ====
/-
  The reference program's run, read at the extended reals: its result array holds the energy less the sum of the
  two-body terms of all pairs, and its arguments are unchanged.
-/
import proofs.«407585_j32469952757807_1_alg».proof.Proof.Gen.ReferenceIdeal.Run
import proofs.«407585_j32469952757807_1_alg».proof.Proof.RVal

set_option maxRecDepth 16384

noncomputable section

namespace Cert.ReferenceIdeal.RefValue

open Cert.ReferenceIdeal Cert.ReferenceIdeal.Gen Cert.ReferenceIdeal.Arr
open Idealize.ShloMosaic Idealize.ShloMosaic.TcCoe Idealize.ShloMosaic.ValueIdx Idealize.SL.Sem
open Cert.Dispersion

variable (m : (ℓ : Loc nD τ sig) → Buf (Elt Ideal) ℓ) (ρ : Dev nD → PrngReg)

/-- The reference program's run: the result array holds the energy less the sum of all pair terms; the arguments
    are unchanged. -/
theorem run :
    θ_run defs (onTc (τ := τ) (main (F := Ideal))) ⟨m, fun _ => 0, ρ⟩ (fun r => ∀ c : Dev nD,
      (r.2.mem ((c.tc : Thread nD τ).loc main_v182) : Vec Ideal S1 .f32)
          = (fun i => A1 m c i + -(∑ p : Fin 4000000,
              pairAt (A0 m c) (A2 m c) (A3 m c) (A4 m c) (A5 m c) (A6 m c) (A7 m c) (A8 m c) p))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ⟨?_, (h c).2⟩) (Cert.ReferenceIdeal.Value.run (F := Ideal) m ρ)
  -- the generated run's term is the composition named `result` of `tbOf` of the launch contents
  have e : (r.2.mem ((c.tc : Thread nD τ).loc main_v182) : Vec Ideal S1 .f32)
      = result (A1 m c) (tbOf (A0 m c) (A2 m c) (A3 m c) (A4 m c) (A5 m c) (A6 m c) (A7 m c) (A8 m c)) := (h c).1
  rw [e]
  funext i
  rw [result_apply]
  refine congrArg (fun s => A1 m c i + -s) ?_
  exact Finset.sum_congr rfl (fun p _ => tbOf_apply _ _ _ _ _ _ _ _ p)

end Cert.ReferenceIdeal.RefValue

end
-- ==== Proof.Bridge.lean ====
/-
  The two programs compute the same per-pair vectors. The species, the coordination numbers and the charge
  products are the same operations on the same arguments, but for the two spellings of the logistic exponent,
  (-16) z and -(16 z), which agree on the extended reals.
-/
import proofs.«407585_j32469952757807_1_alg».proof.Proof.KArr
import proofs.«407585_j32469952757807_1_alg».proof.Proof.RArr
import proofs.«407585_j32469952757807_1_alg».proof.Proof.Spec
import Idealize.ShloMosaic.Lib.ValueIdx
import Idealize.ShloMosaic.Lib.ValueLayout
import Idealize.ShloMosaic.Lib.Pipeline.Value

set_option maxRecDepth 16384

noncomputable section

namespace Cert.Bridge

open Cert
open Cert.KernelIdeal (S1x100000 S2x4000000 S4000000 S7 S7x7x5x5)
open Idealize.ShloMosaic Idealize.ShloMosaic.TcCoe Idealize.ShloMosaic.ValueIdx
open Cert.Dispersion

variable (a0 : KernelIdeal.Arr.CI Ideal S1x100000) (a2 : KernelIdeal.Arr.CI Ideal S2x4000000)
  (a3 : KernelIdeal.Arr.CF Ideal S4000000) (a4 a5 : KernelIdeal.Arr.CF Ideal S7) (tab : KernelIdeal.Arr.CF Ideal S7x7x5x5)

/-- The species of each pair's atoms are the same in both programs. -/
theorem si_eq : KernelIdeal.Arr.si a0 a2 = ReferenceIdeal.Arr.si a0 a2 := rfl
theorem sj_eq : KernelIdeal.Arr.sj a0 a2 = ReferenceIdeal.Arr.sj a0 a2 := rfl

/-- The arguments of the counting function are the same operations on the same arguments. -/
theorem zarg_eq : KernelIdeal.Arr.zarg a0 a2 a3 a4 = ReferenceIdeal.Arr.zarg a0 a2 a3 a4 := rfl

/-- The two spellings of the exponent, as vectors over the pairs: at each pair -(16 z) = (-16) z. -/
theorem expo_eq (z : FVec Ideal S4000000 .f32) :
    (Host.negf (mulf (KernelIdeal.Arr.splat (F := Ideal) 0x41800000#32 : FVec Ideal S4000000 .f32) z) : FVec Ideal S4000000 .f32)
      = mulf (ReferenceIdeal.Arr.splat (F := Ideal) 0xC1800000#32 : FVec Ideal S4000000 .f32) z := by
  funext i
  show -(lit 0x41800000#32 * z i) = lit 0xC1800000#32 * z i
  exact (neg16_mul (z i)).symm

/-- The counting terms are the same: the two exponents agree. -/
theorem counting_eq : KernelIdeal.Arr.counting a0 a2 a3 a4 = ReferenceIdeal.Arr.counting a0 a2 a3 a4 := by
  unfold KernelIdeal.Arr.counting ReferenceIdeal.Arr.counting
  rw [expo_eq, zarg_eq]
  rfl

/-- So are the coordination numbers at each pair's atoms, and the charge products. -/
theorem cni_eq : KernelIdeal.Arr.cni a0 a2 a3 a4 = ReferenceIdeal.Arr.cni a0 a2 a3 a4 := by
  unfold KernelIdeal.Arr.cni ReferenceIdeal.Arr.cni
  rw [counting_eq]
  rfl
theorem cnj_eq : KernelIdeal.Arr.cnj a0 a2 a3 a4 = ReferenceIdeal.Arr.cnj a0 a2 a3 a4 := by
  unfold KernelIdeal.Arr.cnj ReferenceIdeal.Arr.cnj
  rw [counting_eq]
  rfl
theorem sq_eq : KernelIdeal.Arr.sq a0 a2 a5 = ReferenceIdeal.Arr.sq a0 a2 a5 := rfl

end Cert.Bridge

end
-- ==== Proof.LibGather.lean ====
/-
  Two gathers and one scatter read at an index.

  * jnp's `take_along_axis (a, idx[:, None], axis = 1)` over an [R × C] table prints as a gather with the row as a
    batching axis: result row r reads column `idx r` (read signed and clamped into the row) of row r.
  * jnp's `y[idx]` over the rows of an [N × C] array prints as a gather whose one start-index component names the
    row and whose offset axis runs over the columns: result (r, c) reads (row `idx r` clamped, c).
  * jnp's `zeros.at[idx].set(v)` over rows prints as a scatter whose body returns the update: when the row numbers
    `idx r` are in range and pairwise distinct, row `idx r` of the result is row r of the updates, and a row that is
    no `idx r` keeps the operand's.
-/
import Mathlib.Logic.Equiv.Defs
import Mathlib.Tactic.Set
import Idealize.ShloMosaic.Lib.StableHlo.Predicate
import Idealize.ShloMosaic.PureOps.ShapeOps

namespace Cert.LibGather

open Idealize.ShloMosaic Idealize.ShloMosaic.StableHlo.Predicate

/-- Entry (r, 0, 0) of an [R × 1 × 1] array of start indices. -/
abbrev ixR11 {R : Nat} (r : Fin R) : (⟨3, ![R, 1, 1]⟩ : Shape).Idx := fun | ⟨0, _⟩ => r | ⟨1, _⟩ => (0 : Fin 1) | ⟨2, _⟩ => (0 : Fin 1)

/-! ## The two gathers

Both proofs read the operand index one operand axis at a time: it is the clamped start plus the batching coordinate
plus the offset coordinate, and with the dimension numbers literal each of the three is a closed term. -/

/-- TAKE ALONG THE SECOND AXIS: the row is a batching axis of both the table and the start indices, the column the one
    collapsed, start-indexed axis, the index vector on the start indices' last axis. -/
theorem gather_along_cols {α : Type} {R C w : Nat} (d : GatherDims ⟨2, ![R, C]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![R, C]⟩ : Shape).Idx → α) (idx : IVec ⟨3, ![R, 1, 1]⟩ w) (r : Fin R) (hC : 0 < C) :
    Host.gather d x idx (ixP r) = x (ij r ⟨min (idx (ixR11 r)).toInt.toNat (C - 1), by omega⟩) := by
  obtain ⟨od, cd, ob, sb, sm, iv, ss, wf⟩ := d
  simp only at hoff hcoll hob hsb hsim hivd
  subst hoff hcoll hob hsb hsim hivd
  unfold Host.gather
  congr 1
  funext a
  apply Fin.ext
  match a with
  | ⟨0, _⟩ =>
    -- the row: a batching axis, so the start is 0 and there is no offset; the batching coordinate is the
    -- result's coordinate on its batch axis 0, which reads the start indices' axis 0
    show GatherDims.start _ _ _ 0 + GatherDims.batchCoord _ _ 0 + GatherDims.offCoord _ _ 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    -- the column: collapsed (slice size 1, no offset) and not batching; its start is component 0 of the start
    -- index, read at the start-indices index (r, 0, 0) and clamped to [0, C − 1]
    have hsl : ss 1 = 1 := wf.2.2.2.2.2.2.2.2.2.2.2.1 1 (List.mem_singleton.mpr rfl)
    show GatherDims.start _ _ _ 1 + GatherDims.batchCoord _ _ 1 + GatherDims.offCoord _ _ 1 = min _ _
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (C - ss 1) = _
    rw [hsl]
    congr 3
    congr 1
    funext b
    apply Fin.ext
    match b with
    | ⟨0, _⟩ => rfl
    | ⟨1, _⟩ => rfl
    | ⟨2, _⟩ => rfl

/-- TAKE OF ROWS: one collapsed, start-indexed row axis; the columns are the offset axis. -/
theorem gather_rows {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (r : Fin R) (c : Fin C) (hN : 0 < N) :
    Host.gather d x idx (ij r c) = x (ij ⟨min (idx (ixP r)).toInt.toNat (N - 1), by omega⟩ c) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, _⟩ =>
    -- the row: collapsed (slice size 1, no offset), no batching; its start is component 0 of the start index,
    -- read at the start-indices index (r, 0) and clamped to [0, N − 1]
    have hsl : ss 0 = 1 := wf.2.2.2.2.2.2.2.2.2.2.2.1 0 (List.mem_singleton.mpr rfl)
    show GatherDims.start _ _ _ 0 + GatherDims.batchCoord _ _ 0 + GatherDims.offCoord _ _ 0 = min _ _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the column: not in the start index map (start 0), not batching; the offset coordinate is the result's
    -- coordinate on its one offset axis
    show GatherDims.start _ _ _ 1 + GatherDims.batchCoord _ _ 1 + GatherDims.offCoord _ _ 1 = c.val
    rw [GatherDims.batchCoord_eq_zero _ _ _ List.not_mem_nil]
    unfold GatherDims.start
    rw [dif_neg (show (1 : Fin 2) ∉ [(0 : Fin 2)] by decide)]
    simp only [Nat.zero_add]
    rfl

/-! ## A left fold of point writes, read at one cell

The scatter is a left fold, over the update indices in order, of "write `v n` at the cell `g n` names, if it names
one". Read at a cell `i₀`: if no update names `i₀` the fold leaves it; if some update names it and every update that
names it carries the same value, the fold ends with that value there, whatever the order. The step is kept abstract
(any function with the two defining equations), so that the lemmas apply to the fold as the scatter spells it. -/

/-- A left fold of point writes leaves a cell no write names as it was. -/
theorem foldl_set_miss {β ι α : Type} [DecidableEq ι] (g : β → Option ι) (v : β → α)
    (step : (ι → α) → β → ι → α)
    (hsome : ∀ r n i, g n = some i → ∀ i', step r n i' = if i' = i then v n else r i')
    (hnone : ∀ r n, g n = none → step r n = r) (i₀ : ι) :
    ∀ (L : List β) (x : ι → α), (∀ n ∈ L, g n ≠ some i₀) → (L.foldl step x) i₀ = x i₀ := by
  intro L
  induction L with
  | nil => intro x _; rfl
  | cons n L ih =>
    intro x h
    rw [List.foldl_cons, ih _ (fun m hm => h m (List.mem_cons_of_mem _ hm))]
    have hn := h n (List.mem_cons_self ..)
    cases hg : g n with
    | none => rw [hnone x n hg]
    | some i =>
      have hne : i₀ ≠ i := fun e => hn (by rw [hg, e])
      rw [hsome x n i hg, if_neg hne]

/-- A left fold of point writes: a cell that some write names, all of whose writers carry the value `a`, ends at `a`.
    By induction on the list: if a later write names the cell, the induction hypothesis applies to the tail from the
    array after the head's step; if none does, the tail leaves the cell as the head's step made it, and the head is
    then the write that names it. -/
theorem foldl_set_hit {β ι α : Type} [DecidableEq ι] (g : β → Option ι) (v : β → α)
    (step : (ι → α) → β → ι → α)
    (hsome : ∀ r n i, g n = some i → ∀ i', step r n i' = if i' = i then v n else r i')
    (hnone : ∀ r n, g n = none → step r n = r) (i₀ : ι) (a : α) :
    ∀ (L : List β) (x : ι → α), (∃ n ∈ L, g n = some i₀) → (∀ n ∈ L, g n = some i₀ → v n = a) →
      (L.foldl step x) i₀ = a := by
  intro L
  induction L with
  | nil => intro x h; obtain ⟨n, hn, _⟩ := h; cases hn
  | cons n L ih =>
    intro x hex hval
    rw [List.foldl_cons]
    by_cases hL : ∃ m ∈ L, g m = some i₀
    · exact ih _ hL (fun m hm => hval m (List.mem_cons_of_mem _ hm))
    · have hmiss : ∀ m ∈ L, g m ≠ some i₀ := fun m hm e => hL ⟨m, hm, e⟩
      rw [foldl_set_miss g v step hsome hnone i₀ L _ hmiss]
      obtain ⟨m, hm, hgm⟩ := hex
      rcases List.mem_cons.mp hm with rfl | hm'
      · rw [hsome x m i₀ hgm, if_pos rfl]
        exact hval m (List.mem_cons_self ..) hgm
      · exact absurd hgm (hmiss m hm')

/-! ## The scatter of rows -/

/-- Where update (r', c') of a set-of-rows scatter lands: at (row r', c'). On the row axis the start is the scatter
    index of r' (read signed, here the in-range number `row r'`) and the window coordinate 0 (the axis is inserted);
    on the column axis the start is 0 (the map does not name it) and the window coordinate c'. Both are in range. -/
theorem scatter_rows_resultIdx {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1) (idx : IVec ⟨2, ![R, 1]⟩ w)
    (row : Fin R → Fin N) (hrow : ∀ r, (idx (ixP r)).toInt = ((row r).val : Int))
    (j : (⟨2, ![R, C]⟩ : Shape).Idx) :
    d.resultIdx? j idx = some (ij (row (j 0)) (j 1)) := by
  obtain ⟨uw, iw, sd, iv, wf⟩ := d
  simp only at huw hiw hsd hivd
  subst huw hiw hsd hivd
  set d : ScatterDims ⟨2, ![N, C]⟩ ⟨2, ![R, 1]⟩ ⟨2, ![R, C]⟩ :=
    { updateWindowDims := [1], insertedWindowDims := [0], scatterDimsToOperandDims := [0], indexVectorDim := 1, wf := wf } with hd
  have hs0 : d.start j idx 0 = ((row (j 0)).val : Int) := by
    unfold ScatterDims.start
    rw [dif_pos (List.mem_singleton.mpr rfl)]
    refine Eq.trans ?_ (hrow (j 0))
    congr 2
    funext b
    apply Fin.ext
    match b with
    | ⟨0, _⟩ => rfl
    | ⟨1, _⟩ => rfl
  have hw0 : d.window j 0 = 0 := rfl
  have hs1 : d.start j idx 1 = 0 := rfl
  have hw1 : d.window j 1 = (j 1).val := rfl
  have h : ∀ a, 0 ≤ d.start j idx a + d.window j a ∧ d.start j idx a + d.window j a < (⟨2, ![N, C]⟩ : Shape).size a := by
    intro a
    match a with
    | ⟨0, _⟩ =>
      show 0 ≤ d.start j idx 0 + d.window j 0 ∧ d.start j idx 0 + (d.window j 0 : Int) < (N : Int)
      rw [hs0, hw0]
      have := (row (j 0)).isLt
      omega
    | ⟨1, _⟩ =>
      show 0 ≤ d.start j idx 1 + d.window j 1 ∧ d.start j idx 1 + (d.window j 1 : Int) < (C : Int)
      rw [hs1, hw1]
      have : (j 1).val < C := (j 1).isLt
      omega
  unfold ScatterDims.resultIdx?
  rw [dif_pos h]
  congr 1
  funext a
  apply Fin.ext
  match a with
  | ⟨0, _⟩ =>
    show (d.start j idx 0 + (d.window j 0 : Int)).toNat = (row (j 0)).val
    rw [hs0, hw0]; simp
  | ⟨1, _⟩ =>
    show (d.start j idx 1 + (d.window j 1 : Int)).toNat = (j 1).val
    rw [hs1, hw1]; simp

/-- SET OF ROWS at in-range, pairwise distinct row numbers: row `row r` of the result is row r of the updates.
    Update (r, c) lands on (row r, c); an update (r', c') that lands there has row r' = row r and c' = c, so it is
    update (r, c) itself since `row` is injective: every writer of the cell carries `upd (r, c)`. -/
theorem scatter_rows_hit {α : Type} {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : (⟨2, ![N, C]⟩ : Shape).Idx → α) (idx : IVec ⟨2, ![R, 1]⟩ w) (upd : (⟨2, ![R, C]⟩ : Shape).Idx → α)
    (row : Fin R → Fin N) (hrow : ∀ r, (idx (ixP r)).toInt = ((row r).val : Int)) (hinj : Function.Injective row)
    (r : Fin R) (c : Fin C) :
    Host.scatter d (fun _ b => b) x idx upd (ij (row r) c) = upd (ij r c) := by
  have hres := scatter_rows_resultIdx d huw hiw hsd hivd idx row hrow
  unfold Host.scatter
  refine foldl_set_hit (fun n => d.resultIdx? ((⟨2, ![R, C]⟩ : Shape).rowMajor.symm n) idx)
    (fun n => upd ((⟨2, ![R, C]⟩ : Shape).rowMajor.symm n)) _ ?_ ?_ (ij (row r) c) (upd (ij r c)) _ x ?_ ?_
  · intro r n i h i'
    simp only [h]
  · intro r n h
    simp only [h]
  · refine ⟨(⟨2, ![R, C]⟩ : Shape).rowMajor (ij r c), List.mem_finRange _, ?_⟩
    show d.resultIdx? ((⟨2, ![R, C]⟩ : Shape).rowMajor.symm ((⟨2, ![R, C]⟩ : Shape).rowMajor (ij r c))) idx = _
    rw [Equiv.symm_apply_apply, hres]
    rfl
  · intro n _ hn
    show upd ((⟨2, ![R, C]⟩ : Shape).rowMajor.symm n) = upd (ij r c)
    have hn' : d.resultIdx? ((⟨2, ![R, C]⟩ : Shape).rowMajor.symm n) idx = some (ij (row r) c) := hn
    rw [hres] at hn'
    have he := Option.some.inj hn'
    have h0 : row (((⟨2, ![R, C]⟩ : Shape).rowMajor.symm n) 0) = row r := congrFun he 0
    have h1 : ((⟨2, ![R, C]⟩ : Shape).rowMajor.symm n) 1 = c := congrFun he 1
    rw [← ij_eta ((⟨2, ![R, C]⟩ : Shape).rowMajor.symm n)]
    congr 2
    exact hinj h0

/-- SET OF ROWS, a row no update names: it keeps the operand's. (Injectivity of `row` is not needed here.) -/
theorem scatter_rows_miss {α : Type} {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : (⟨2, ![N, C]⟩ : Shape).Idx → α) (idx : IVec ⟨2, ![R, 1]⟩ w) (upd : (⟨2, ![R, C]⟩ : Shape).Idx → α)
    (row : Fin R → Fin N) (hrow : ∀ r, (idx (ixP r)).toInt = ((row r).val : Int))
    (ρ : Fin N) (hρ : ∀ r, row r ≠ ρ) (c : Fin C) :
    Host.scatter d (fun _ b => b) x idx upd (ij ρ c) = x (ij ρ c) := by
  have hres := scatter_rows_resultIdx d huw hiw hsd hivd idx row hrow
  unfold Host.scatter
  refine foldl_set_miss (fun n => d.resultIdx? ((⟨2, ![R, C]⟩ : Shape).rowMajor.symm n) idx)
    (fun n => upd ((⟨2, ![R, C]⟩ : Shape).rowMajor.symm n)) _ ?_ ?_ (ij ρ c) _ x ?_
  · intro r n i h i'
    simp only [h]
  · intro r n h
    simp only [h]
  · intro n _ hn
    have hn' : d.resultIdx? ((⟨2, ![R, C]⟩ : Shape).rowMajor.symm n) idx = some (ij ρ c) := hn
    rw [hres] at hn'
    exact hρ _ (congrFun (Option.some.inj hn') 0)

end Cert.LibGather
-- ==== Proof.LibTake.lean ====
/-
  Two takes read at an index.

  * jnp's `y[idx]` over a vector of N entries with a column of R start indices prints as a gather whose one
    start-index component names the entry: result r reads entry `idx r` (read signed, clamped into 0 ... N - 1).
  * jnp's `y[i, j]` over an [N0, N1, C1, C2] table with two index vectors prints as a gather whose start index has two
    components, naming the first two axes, both collapsed; the last two axes are offset axes: result (r, c1, c2) reads
    (idx (r, 0) clamped into 0 ... N0 - 1, idx (r, 1) clamped into 0 ... N1 - 1, c1, c2).
-/
import Mathlib.Logic.Equiv.Defs
import Mathlib.Tactic.Set
import Idealize.ShloMosaic.Lib.StableHlo.Predicate
import Idealize.ShloMosaic.Lib.ValueIdx
import Idealize.ShloMosaic.PureOps.ShapeOps

namespace Cert.LibTake

open Idealize.ShloMosaic Idealize.ShloMosaic.StableHlo.Predicate Idealize.ShloMosaic.ValueIdx

/-- TAKE OF ENTRIES: one collapsed, start-indexed axis; no offset axis. -/
theorem gather_entries {α : Type} {N R w : Nat} (d : GatherDims ⟨1, ![N]⟩ ⟨2, ![R, 1]⟩ ⟨1, ![R]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![R, 1]⟩ w) (r : Fin R) (hN : 0 < N) :
    Host.gather d x idx (ix1 r) = x (ix1 ⟨min (idx (ix2 r 0)).toInt.toNat (N - 1), by omega⟩) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, _⟩ =>
    -- the one axis: collapsed (slice size 1, no offset), no batching; its start is component 0 of the start index,
    -- read at the start-indices index (r, 0) and clamped to [0, N − 1]
    have hsl : ss 0 = 1 := wf.2.2.2.2.2.2.2.2.2.2.2.1 0 (List.mem_singleton.mpr rfl)
    show GatherDims.start _ _ _ 0 + GatherDims.batchCoord _ _ 0 + GatherDims.offCoord _ _ 0 = min _ _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl

/-- TAKE OF BLOCKS AT A PAIR OF INDICES: two collapsed, start-indexed leading axes; the two remaining axes are the
    offset axes, in order. -/
theorem gather_blocks {α : Type} {N0 N1 C1 C2 R w : Nat}
    (d : GatherDims ⟨4, ![N0, N1, C1, C2]⟩ ⟨2, ![R, 2]⟩ ⟨3, ![R, C1, C2]⟩)
    (hoff : d.offsetDims = [1, 2]) (hcoll : d.collapsedSliceDims = [0, 1]) (hob : d.operandBatchingDims = [])
    (hsim : d.startIndexMap = [0, 1]) (hivd : d.indexVectorDim = 1)
    (x : (⟨4, ![N0, N1, C1, C2]⟩ : Shape).Idx → α) (idx : IVec ⟨2, ![R, 2]⟩ w) (r : Fin R) (c1 : Fin C1) (c2 : Fin C2)
    (h0 : 0 < N0) (h1 : 0 < N1) :
    Host.gather d x idx (ix3 r c1 c2)
      = x (ix4 ⟨min (idx (ix2 r 0)).toInt.toNat (N0 - 1), by omega⟩ ⟨min (idx (ix2 r 1)).toInt.toNat (N1 - 1), by omega⟩ c1 c2) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, _⟩ =>
    -- the first axis: collapsed (slice size 1, no offset), no batching; its start is component 0 of the start index,
    -- read at the start-indices index (r, 0) and clamped to [0, N0 − 1]
    have hm : (0 : Fin 4) ∈ [(0 : Fin 4), 1] := by decide
    have hsl : ss 0 = 1 := wf.2.2.2.2.2.2.2.2.2.2.2.1 0 hm
    show GatherDims.start _ _ _ 0 + GatherDims.batchCoord _ _ 0 + GatherDims.offCoord _ _ 0 = min _ _
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos hm]
    show min (idx _).toInt.toNat (N0 - ss 0) = _
    rw [hsl]
    congr 3
    congr 1
    funext b
    apply Fin.ext
    match b with
    | ⟨0, _⟩ => rfl
    | ⟨1, _⟩ => rfl
  | ⟨1, _⟩ =>
    -- the second axis: the same with component 1 of the start index, read at (r, 1) and clamped to [0, N1 − 1]
    have hm : (1 : Fin 4) ∈ [(0 : Fin 4), 1] := by decide
    have hsl : ss 1 = 1 := wf.2.2.2.2.2.2.2.2.2.2.2.1 1 hm
    show GatherDims.start _ _ _ 1 + GatherDims.batchCoord _ _ 1 + GatherDims.offCoord _ _ 1 = min _ _
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos hm]
    show min (idx _).toInt.toNat (N1 - ss 1) = _
    rw [hsl]
    congr 3
    congr 1
    funext b
    apply Fin.ext
    match b with
    | ⟨0, _⟩ => rfl
    | ⟨1, _⟩ => rfl
  | ⟨2, _⟩ =>
    -- the third axis: not in the start index map (start 0), not batching; the offset coordinate is the result's
    -- coordinate on its first offset axis
    show GatherDims.start _ _ _ 2 + GatherDims.batchCoord _ _ 2 + GatherDims.offCoord _ _ 2 = c1.val
    rw [GatherDims.batchCoord_eq_zero _ _ _ List.not_mem_nil]
    unfold GatherDims.start
    rw [dif_neg (show (2 : Fin 4) ∉ [(0 : Fin 4), 1] by decide)]
    simp only [Nat.zero_add]
    rfl
  | ⟨3, _⟩ =>
    -- the fourth axis: likewise, the result's coordinate on its second offset axis
    show GatherDims.start _ _ _ 3 + GatherDims.batchCoord _ _ 3 + GatherDims.offCoord _ _ 3 = c2.val
    rw [GatherDims.batchCoord_eq_zero _ _ _ List.not_mem_nil]
    unfold GatherDims.start
    rw [dif_neg (show (3 : Fin 4) ∉ [(0 : Fin 4), 1] by decide)]
    simp only [Nat.zero_add]
    rfl

end Cert.LibTake
-- ==== Proof.LibWord.lean ====
/-
  Small non-negative 32-bit words under the integer operations jnp's index arithmetic prints to: the floor
  division by 512 (a truncating division corrected by the signs and the remainder), the wrap of a negative index
  (`where (i < 0, i + n, i)`), the clamp to [0, hi] with the constant first, and the in-range test of a gather
  with fill.  Each says that on words whose value is below 2³¹ (and in the stated range) the operation is the
  arithmetic one on the values.
-/
import Idealize.ShloMosaic.Lib.StableHlo.Predicate
import Idealize.ShloMosaic.PureOps.Float

namespace Cert.LibWord

open Idealize.ShloMosaic Idealize.ShloMosaic.StableHlo.Predicate

/-- The sign of a word as an integer: 0, 1 or -1 (the pointwise body of the vector operation `signi`). -/
def sgn (x : BitVec 32) : BitVec 32 := if x = 0 then 0 else if x.msb then -1 else 1

theorem signi_apply {s : Shape} (x : IVec s 32) (i : s.Idx) : signi x i = sgn (x i) := rfl

/-! ## Helpers -/

/-- A word below 2³¹ has its top bit clear. -/
theorem msb_false_of_lt {a : BitVec 32} (ha : a.toNat < 2 ^ 31) : a.msb = false :=
  BitVec.msb_eq_false_iff_two_mul_lt.mpr (by omega)

/-- A bit that is not one is zero. -/
theorem bit_eq_zero_of_ne_one {c : BitVec 1} (h : ¬ c = 1#1) : c = 0#1 := by
  rcases BitVec.eq_zero_or_eq_one c with h0 | h1
  · exact h0
  · exact absurd h1 h

/-- A selection on a cleared bit takes the second branch. -/
theorem select_zero {α : Type} (a b : α) : Scalar.select 0#1 a b = b := by
  unfold Scalar.select
  exact if_neg (by decide)

/-- Division by 512 meets neither corner: the divisor is neither 0 nor -1. -/
theorem not_corner512 (a : BitVec 32) : ¬ IntOp.SDivCorner a 512#32 := by
  intro hc
  rcases hc with hc | ⟨_, hc⟩ <;> exact absurd hc (by decide)

/-- The truncating quotient of a non-negative word by 512 is the quotient of the values. -/
theorem divsi512 (a : BitVec 32) (ha : a.toNat < 2 ^ 31) :
    IntOp.divsi .host a 512#32 = BitVec.ofNat 32 (a.toNat / 512) := by
  have hm : a.msb = false := msb_false_of_lt ha
  apply BitVec.eq_of_toNat_eq
  simp only [IntOp.divsi, if_neg (not_corner512 a), BitVec.sdiv_eq, hm,
    show (512#32 : BitVec 32).msb = false from by decide, BitVec.udiv_eq, BitVec.toNat_udiv, BitVec.toNat_ofNat, Nat.reducePow, Nat.reduceMod]
  omega

/-- The sign of a positive word below 2³¹ is one. -/
theorem sgn_pos {a : BitVec 32} (ha : a.toNat < 2 ^ 31) (h0 : a ≠ 0) : sgn a = 1#32 := by
  unfold sgn
  rw [if_neg h0, msb_false_of_lt ha]
  rfl

/-- jnp's `floor_divide (a, 512)` on a non-negative word: the truncating quotient, lowered by one when the signs
    differ and the remainder is not zero — which never happens here — is the quotient of the values. -/
theorem floorDiv512 (a : BitVec 32) (ha : a.toNat < 2 ^ 31) :
    Scalar.select (IntOp.andi (IntOp.cmpi .ne (sgn a) (sgn 512#32)) (IntOp.cmpi .ne (IntOp.remsi .host a 512#32) 0#32))
      (IntOp.subi (IntOp.divsi .host a 512#32) 1#32) (IntOp.divsi .host a 512#32)
      = BitVec.ofNat 32 (a.toNat / 512) := by
  -- the correction's condition is the cleared bit: at 0 the remainder vanishes, above 0 the signs agree
  have hc : IntOp.andi (IntOp.cmpi .ne (sgn a) (sgn 512#32)) (IntOp.cmpi .ne (IntOp.remsi .host a 512#32) 0#32) = 0#1 := by
    by_cases h0 : a = 0
    · subst h0
      have hr : IntOp.remsi .host (0 : BitVec 32) 512#32 = 0#32 := by
        simp only [IntOp.remsi, if_neg (not_corner512 0)]
        decide
      rw [hr]
      have : IntOp.cmpi .ne (0#32 : BitVec 32) 0#32 = 0#1 := by decide
      rw [this]
      unfold IntOp.andi
      exact BitVec.and_zero
    · have h512 : sgn 512#32 = 1#32 := by unfold sgn; decide
      rw [sgn_pos ha h0, h512]
      have : IntOp.cmpi .ne (1#32 : BitVec 32) 1#32 = 0#1 := by decide
      rw [this]
      unfold IntOp.andi
      exact BitVec.zero_and
  rw [hc, select_zero]
  exact divsi512 a ha

/-- A non-negative word is not below zero in the signed order. -/
theorem not_slt_zero {a : BitVec 32} (ha : a.toNat < 2 ^ 31) : IntOp.cmpi .slt a 0#32 = 0#1 := by
  apply bit_eq_zero_of_ne_one
  intro h
  have := (slt_iff_toNat ha (by decide)).mp h
  simp only [BitVec.toNat_ofNat] at this
  omega

/-- The wrap of a negative index leaves a non-negative word alone. -/
theorem wrapNeg (a k : BitVec 32) (ha : a.toNat < 2 ^ 31) :
    Scalar.select (IntOp.cmpi .slt a 0#32) (IntOp.addi a k) a = a := by
  rw [not_slt_zero ha, select_zero]

/-- The clamp to [0, hi], the constants first (`minimum (hi, maximum (0, a))`), of a word already there. -/
theorem clamp0 (a hi : BitVec 32) (hhi : hi.toNat < 2 ^ 31) (ha : a.toNat ≤ hi.toNat) :
    IntOp.minsi hi (IntOp.maxsi 0#32 a) = a := by
  have ha' : a.toNat < 2 ^ 31 := by omega
  have hti : a.toInt = a.toNat := toInt_eq_toNat_of_lt ha'
  have hth : hi.toInt = hi.toNat := toInt_eq_toNat_of_lt hhi
  have h0 : (0#32 : BitVec 32).toInt = 0 := by decide
  -- the larger of 0 and a is a: a is not below 0
  have hmax : IntOp.maxsi 0#32 a = a := by
    unfold IntOp.maxsi
    have hn : ¬ (a.slt 0#32 = true) := by
      simp only [BitVec.slt, hti, h0, decide_eq_true_eq]
      omega
    exact if_neg hn
  rw [hmax]
  -- the smaller of hi and a is a: hi is not below a
  unfold IntOp.minsi
  have hn : ¬ (hi.slt a = true) := by
    simp only [BitVec.slt, hti, hth, decide_eq_true_eq]
    omega
  exact if_neg hn

/-- The in-range test `0 ≤ a ∧ a ≤ hi` of a word that is in range. -/
theorem inRange (a hi : BitVec 32) (hhi : hi.toNat < 2 ^ 31) (ha : a.toNat ≤ hi.toNat) :
    IntOp.andi (IntOp.cmpi .sge a 0#32) (IntOp.cmpi .sle a hi) = 1#1 := by
  have ha' : a.toNat < 2 ^ 31 := by omega
  have h1 : IntOp.cmpi .sge a 0#32 = 1#1 :=
    (sge_iff_toNat ha' (by decide)).mpr (by simp only [BitVec.toNat_ofNat]; omega)
  have h2 : IntOp.cmpi .sle a hi = 1#1 := (sle_iff_toNat ha' hhi).mpr ha
  rw [h1, h2]
  decide

/-- Words of small values add, subtract and multiply as their values. -/
theorem ofNat_add (a b : ℕ) : BitVec.ofNat 32 a + BitVec.ofNat 32 b = BitVec.ofNat 32 (a + b) := by
  apply BitVec.eq_of_toNat_eq
  simp only [BitVec.toNat_add, BitVec.toNat_ofNat]
  omega
theorem ofNat_sub (a b : ℕ) (h : b ≤ a) (ha : a < 2 ^ 32) : BitVec.ofNat 32 a - BitVec.ofNat 32 b = BitVec.ofNat 32 (a - b) := by
  apply BitVec.eq_of_toNat_eq
  simp only [BitVec.toNat_sub, BitVec.toNat_ofNat]
  omega
theorem ofNat_mul (a b : ℕ) : BitVec.ofNat 32 a * BitVec.ofNat 32 b = BitVec.ofNat 32 (a * b) := by
  apply BitVec.eq_of_toNat_eq
  simp only [BitVec.toNat_mul, BitVec.toNat_ofNat]
  exact (Nat.mul_mod a b (2 ^ 32)).symm
theorem eq_ofNat_toNat (a : BitVec 32) : a = BitVec.ofNat 32 a.toNat := by
  apply BitVec.eq_of_toNat_eq
  rw [BitVec.toNat_ofNat]
  exact (Nat.mod_eq_of_lt a.isLt).symm
theorem toNat_ofNat_lt (a : ℕ) (h : a < 2 ^ 32) : (BitVec.ofNat 32 a).toNat = a := by
  rw [BitVec.toNat_ofNat]
  exact Nat.mod_eq_of_lt h
/-- The signed order tests on small values, as the tests on the values (results as bits). -/
theorem cmpi_sge_ofNat (a b : ℕ) (ha : a < 2 ^ 31) (hb : b < 2 ^ 31) :
    IntOp.cmpi .sge (BitVec.ofNat 32 a) (BitVec.ofNat 32 b) = if b ≤ a then 1#1 else 0#1 := by
  have key : IntOp.cmpi .sge (BitVec.ofNat 32 a) (BitVec.ofNat 32 b) = 1#1 ↔ b ≤ a := by
    unfold IntOp.cmpi
    exact sle_ofNat_iff b a hb ha
  by_cases h : b ≤ a
  · rw [if_pos h]
    exact key.mpr h
  · rw [if_neg h]
    exact bit_eq_zero_of_ne_one (fun hc => h (key.mp hc))
theorem cmpi_slt_ofNat (a b : ℕ) (ha : a < 2 ^ 31) (hb : b < 2 ^ 31) :
    IntOp.cmpi .slt (BitVec.ofNat 32 a) (BitVec.ofNat 32 b) = if a < b then 1#1 else 0#1 := by
  have key : IntOp.cmpi .slt (BitVec.ofNat 32 a) (BitVec.ofNat 32 b) = 1#1 ↔ a < b := by
    unfold IntOp.cmpi
    exact slt_ofNat_iff a b ha hb
  by_cases h : a < b
  · rw [if_pos h]
    exact key.mpr h
  · rw [if_neg h]
    exact bit_eq_zero_of_ne_one (fun hc => h (key.mp hc))
theorem cmpi_eq_word (a b : BitVec 32) : IntOp.cmpi .eq a b = if a = b then 1#1 else 0#1 := by
  by_cases h : a = b
  · rw [if_pos h]
    exact cmpi_eq_iff.mpr h
  · rw [if_neg h]
    exact bit_eq_zero_of_ne_one (fun hc => h (cmpi_eq_iff.mp hc))

end Cert.LibWord
-- ==== Proof.Rows.lean ====
/-
  The reference values are fetched differently by the two programs: the kernel program flattens each 7 x 7 x 5 x 5
  table to 49 x 25 and takes row 7 s_i + s_j; the reference takes the 5 x 5 block at (s_i, s_j). When every species
  lies in 0 ... 6, both species of a pair do, row 7 s_i + s_j lies in 0 ... 48, no index is wrapped or clamped, and
  entry 5 a + b of the row is entry (a, b) of the block.
-/
import proofs.«407585_j32469952757807_1_alg».proof.Proof.KArr
import proofs.«407585_j32469952757807_1_alg».proof.Proof.RArr
import proofs.«407585_j32469952757807_1_alg».proof.Proof.Spec
import proofs.«407585_j32469952757807_1_alg».proof.Proof.Bridge
import proofs.«407585_j32469952757807_1_alg».proof.Proof.LibGather
import proofs.«407585_j32469952757807_1_alg».proof.Proof.LibTake
import proofs.«407585_j32469952757807_1_alg».proof.Proof.LibWord
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.Bridge

open Cert
open Cert.KernelIdeal (S1x100000 S2x4000000 S4000000 S7 S7x7x5x5)
open Idealize.ShloMosaic Idealize.ShloMosaic.TcCoe Idealize.ShloMosaic.ValueIdx
open Cert.Dispersion

/-! ## Reading the pieces at an index -/

section Read

open Idealize.ShloMosaic.StableHlo.Predicate

variable {α : Type}

/-- The two spellings of a rank-2 index, of a column's row, and of a rank-1 index. -/
theorem ij_eq_ix2 {n m : Nat} (p : Fin n) (q : Fin m) : ij p q = ix2 p q := by
  funext d
  match d with
  | ⟨0, _⟩ => rfl
  | ⟨1, _⟩ => rfl

theorem ixP_eq_ix2 {n : Nat} (p : Fin n) : ixP p = ix2 p (0 : Fin 1) := by
  funext d
  match d with
  | ⟨0, _⟩ => rfl
  | ⟨1, _⟩ => rfl

theorem ofFin_eq_ix1 {n : Nat} (p : Fin n) : Shape.Idx.ofFin p = ix1 p := by
  funext d
  match d with
  | ⟨0, _⟩ => rfl

/-- THE COLUMN OF START INDICES read at row p: the vector's entry p, raised by k when it is negative. -/
theorem wrapCol_apply {n : Nat} (h0 : (⟨0, ![]⟩ : Shape).BroadcastsInDim ⟨1, ![n]⟩ ![])
    (h1 : (⟨1, ![n]⟩ : Shape).BroadcastsInDim ⟨2, ![n, 1]⟩ ![0]) (k : BitVec 32) (x : IVec ⟨1, ![n]⟩ 32) (p : Fin n) :
    broadcastInDim ⟨2, ![n, 1]⟩ ![0] h1
        (select (cmpi .slt x (broadcastInDim ⟨1, ![n]⟩ ![] h0 (constantI ⟨0, ![]⟩ 32 0#32)))
          (addi x (broadcastInDim ⟨1, ![n]⟩ ![] h0 (constantI ⟨0, ![]⟩ 32 k))) x) (ix2 p (0 : Fin 1))
      = Scalar.select (IntOp.cmpi .slt (x (ix1 p)) 0#32) (IntOp.addi (x (ix1 p)) k) (x (ix1 p)) := by
  rw [← ixP_eq_ix2, bcast_col1, ofFin_eq_ix1]
  rfl

/-- A non-negative entry is left as it is. -/
theorem wrapCol_small {n : Nat} (h0 : (⟨0, ![]⟩ : Shape).BroadcastsInDim ⟨1, ![n]⟩ ![])
    (h1 : (⟨1, ![n]⟩ : Shape).BroadcastsInDim ⟨2, ![n, 1]⟩ ![0]) (k : BitVec 32) (x : IVec ⟨1, ![n]⟩ 32) (p : Fin n)
    (hx : (x (ix1 p)).toNat < 2 ^ 31) :
    broadcastInDim ⟨2, ![n, 1]⟩ ![0] h1
        (select (cmpi .slt x (broadcastInDim ⟨1, ![n]⟩ ![] h0 (constantI ⟨0, ![]⟩ 32 0#32)))
          (addi x (broadcastInDim ⟨1, ![n]⟩ ![] h0 (constantI ⟨0, ![]⟩ 32 k))) x) (ix2 p (0 : Fin 1))
      = x (ix1 p) := by
  rw [wrapCol_apply, Cert.LibWord.wrapNeg _ _ hx]

/-- TWO COLUMNS SIDE BY SIDE read at (r, 0) and at (r, 1): the first column's, and the second column's, row r. -/
theorem pairCols_left {R : Nat} (hc : Shape.Concatenates [(⟨2, ![R, 1]⟩ : Shape), ⟨2, ![R, 1]⟩] ⟨2, ![R, 2]⟩ 1)
    (u v : (⟨2, ![R, 1]⟩ : Shape).Idx → α) (r : Fin R) :
    concatenate ⟨2, ![R, 2]⟩ 1 [⟨⟨2, ![R, 1]⟩, u⟩, ⟨⟨2, ![R, 1]⟩, v⟩] hc (ix2 r (0 : Fin 2)) = u (ix2 r (0 : Fin 1)) := by
  refine concatenate_pair_apply_left 1 u v hc (ix2 r (0 : Fin 2)) rfl (ix2 r (0 : Fin 1)) ?_
  intro b
  match b with
  | ⟨0, _⟩ => rfl
  | ⟨1, _⟩ => rfl

theorem pairCols_right {R : Nat} (hc : Shape.Concatenates [(⟨2, ![R, 1]⟩ : Shape), ⟨2, ![R, 1]⟩] ⟨2, ![R, 2]⟩ 1)
    (u v : (⟨2, ![R, 1]⟩ : Shape).Idx → α) (r : Fin R) :
    concatenate ⟨2, ![R, 2]⟩ 1 [⟨⟨2, ![R, 1]⟩, u⟩, ⟨⟨2, ![R, 1]⟩, v⟩] hc (ix2 r (1 : Fin 2)) = v (ix2 r (0 : Fin 1)) := by
  refine concatenate_pair_apply_right 1 u v hc (ix2 r (1 : Fin 2)) rfl rfl (ix2 r (0 : Fin 1)) ?_ ?_
  · intro b hb
    match b with
    | ⟨0, _⟩ => rfl
    | ⟨1, _⟩ => exact absurd rfl hb
  · rfl

/-- THE FLATTENED TABLE read at (7 s + t, 5 a + b): the table at (s, t, a, b); the two row-major positions are
    ((7 s + t) 5 + a) 5 + b. -/
theorem flat_apply (tab : (⟨4, ![7, 7, 5, 5]⟩ : Shape).Idx → α)
    (hc : (⟨4, ![7, 7, 5, 5]⟩ : Shape).ShapeCasts ⟨2, ![49, 25]⟩) (s t : Fin 7) (a b : Fin 5)
    (r : Fin 49) (k : Fin 25) (hr : r.val = s.val * 7 + t.val) (hk : k.val = b.val + 5 * a.val) :
    shapeCast ⟨2, ![49, 25]⟩ tab hc (ix2 r k) = tab (ix4 s t a b) := by
  refine shapeCast_apply tab hc (ix2 r k) (ix4 s t a b) ?_
  rw [Shape.rowMajor_val_four, Shape.rowMajor_val_two]
  show (((s.val * 7 + t.val) * 5 + a.val) * 5 + b.val) = r.val * 25 + k.val
  rw [hr, hk]
  omega

end Read

/-! ## The words -/

section Words

open Idealize.ShloMosaic.StableHlo.Predicate

/-- Seven times a word below 7, plus a word below 7, is the word of that number, which is below 49. -/
theorem rowWord (x y : BitVec 32) (hx : x.toNat < 7) (hy : y.toNat < 7) :
    IntOp.addi (IntOp.muli x 7#32) y = BitVec.ofNat 32 (x.toNat * 7 + y.toNat) := by
  unfold IntOp.addi IntOp.muli
  apply BitVec.eq_of_toNat_eq
  simp only [BitVec.toNat_add, BitVec.toNat_mul, BitVec.toNat_ofNat, Nat.reducePow, Nat.reduceMod]
  omega

/-- A word below 2³¹ read signed, as a natural number, and clamped to a bound it is within. -/
theorem clampNat (x : BitVec 32) (m : Nat) (hx : x.toNat < 2 ^ 31) (hm : x.toNat ≤ m) :
    min x.toInt.toNat m = x.toNat := by
  rw [toInt_eq_toNat_of_lt hx, Int.toNat_natCast]
  omega

end Words

/-! ## The two fetches -/

variable (a0 : KernelIdeal.Arr.CI Ideal S1x100000) (a2 : KernelIdeal.Arr.CI Ideal S2x4000000)
  (tab : KernelIdeal.Arr.CF Ideal S7x7x5x5)

/-- Each species of a pair is an entry of the species row, whichever entry the take reads: it is below 7. -/
theorem si_lt (hsp : ∀ i : S1x100000.Idx, (a0 i).toNat < 7) (p : Fin 4000000) :
    (KernelIdeal.Arr.si a0 a2 (ix1 p)).toNat < 7 := by
  unfold KernelIdeal.Arr.si
  rw [Cert.LibTake.gather_entries _ rfl rfl rfl rfl rfl _ _ p (by omega)]
  exact hsp _

theorem sj_lt (hsp : ∀ i : S1x100000.Idx, (a0 i).toNat < 7) (p : Fin 4000000) :
    (KernelIdeal.Arr.sj a0 a2 (ix1 p)).toNat < 7 := by
  unfold KernelIdeal.Arr.sj
  rw [Cert.LibTake.gather_entries _ rfl rfl rfl rfl rfl _ _ p (by omega)]
  exact hsp _

/-- The row number of a pair is the word of 7 s_i + s_j. -/
theorem rowNo_apply (hsp : ∀ i : S1x100000.Idx, (a0 i).toNat < 7) (p : Fin 4000000) :
    KernelIdeal.Arr.rowNo a0 a2 (ix1 p)
      = BitVec.ofNat 32 ((KernelIdeal.Arr.si a0 a2 (ix1 p)).toNat * 7 + (KernelIdeal.Arr.sj a0 a2 (ix1 p)).toNat) :=
  rowWord _ _ (si_lt a0 a2 hsp p) (sj_lt a0 a2 hsp p)

/-- THE KERNEL PROGRAM'S FETCH: entry 5 a + b of row 7 s_i + s_j of the flattened table is the table at
    (s_i, s_j, a, b): the row number is non-negative and below 49, so it is neither wrapped nor clamped. -/
theorem rows25_apply (hsp : ∀ i : S1x100000.Idx, (a0 i).toNat < 7) (p : Fin 4000000) (a b : Fin 5) :
    KernelIdeal.Arr.rows25 tab a0 a2 (ix2 p (pt55 (a, b)))
      = tab (ix4 ⟨(KernelIdeal.Arr.si a0 a2 (ix1 p)).toNat, si_lt a0 a2 hsp p⟩
          ⟨(KernelIdeal.Arr.sj a0 a2 (ix1 p)).toNat, sj_lt a0 a2 hsp p⟩ a b) := by
  have hs := si_lt a0 a2 hsp p
  have ht := sj_lt a0 a2 hsp p
  have hrow := rowNo_apply a0 a2 hsp p
  have hval : (KernelIdeal.Arr.rowNo a0 a2 (ix1 p)).toNat
      = (KernelIdeal.Arr.si a0 a2 (ix1 p)).toNat * 7 + (KernelIdeal.Arr.sj a0 a2 (ix1 p)).toNat := by
    rw [hrow, Cert.LibWord.toNat_ofNat_lt _ (by omega)]
  have hidx : KernelIdeal.Arr.wrapTo 49#32 (KernelIdeal.Arr.rowNo a0 a2) (ix2 p (0 : Fin 1))
      = KernelIdeal.Arr.rowNo a0 a2 (ix1 p) := wrapCol_small _ _ _ _ p (by omega)
  unfold KernelIdeal.Arr.rows25
  rw [← ij_eq_ix2, Cert.LibGather.gather_rows _ rfl rfl rfl rfl rfl _ _ p _ (by omega), ij_eq_ix2]
  refine flat_apply tab _ ⟨_, hs⟩ ⟨_, ht⟩ a b _ _ ?_ (pt55_val a b)
  show min (KernelIdeal.Arr.wrapTo 49#32 (KernelIdeal.Arr.rowNo a0 a2) (Idealize.ShloMosaic.StableHlo.Predicate.ixP p)).toInt.toNat (49 - 1) = _
  rw [ixP_eq_ix2, hidx, clampNat _ (49 - 1) (by omega) (by omega), hval]

/-- THE REFERENCE'S FETCH: entry (a, b) of the block at the pair's two species, which lie in 0 ... 6 and are neither
    wrapped nor clamped. -/
theorem blocks55_apply (hsp : ∀ i : S1x100000.Idx, (a0 i).toNat < 7) (p : Fin 4000000) (a b : Fin 5) :
    ReferenceIdeal.Arr.blocks55 tab a0 a2 (ix3 p a b)
      = tab (ix4 ⟨(KernelIdeal.Arr.si a0 a2 (ix1 p)).toNat, si_lt a0 a2 hsp p⟩
          ⟨(KernelIdeal.Arr.sj a0 a2 (ix1 p)).toNat, sj_lt a0 a2 hsp p⟩ a b) := by
  have hs := si_lt a0 a2 hsp p
  have ht := sj_lt a0 a2 hsp p
  have hi : ReferenceIdeal.Arr.wrapTo 7#32 (KernelIdeal.Arr.si a0 a2) (ix2 p (0 : Fin 1))
      = KernelIdeal.Arr.si a0 a2 (ix1 p) := wrapCol_small _ _ _ _ p (by omega)
  have hj : ReferenceIdeal.Arr.wrapTo 7#32 (KernelIdeal.Arr.sj a0 a2) (ix2 p (0 : Fin 1))
      = KernelIdeal.Arr.sj a0 a2 (ix1 p) := wrapCol_small _ _ _ _ p (by omega)
  unfold ReferenceIdeal.Arr.blocks55 ReferenceIdeal.Arr.pairIdx
  rw [← si_eq a0 a2, ← sj_eq a0 a2,
    Cert.LibTake.gather_blocks _ rfl rfl rfl rfl rfl _ _ p a b (by omega) (by omega)]
  congr 1
  funext e
  apply Fin.ext
  match e with
  | ⟨0, _⟩ =>
    show min (BitVec.toInt (concatenate _ _ _ _ (ix2 p (0 : Fin 2)))).toNat (7 - 1) = _
    rw [pairCols_left, hi, clampNat _ (7 - 1) (by omega) (by omega)]
  | ⟨1, _⟩ =>
    show min (BitVec.toInt (concatenate _ _ _ _ (ix2 p (1 : Fin 2)))).toNat (7 - 1) = _
    rw [pairCols_right, hj, clampNat _ (7 - 1) (by omega) (by omega)]
  | ⟨2, _⟩ => rfl
  | ⟨3, _⟩ => rfl

/-- With every species in 0 ... 6, entry 5 a + b of a pair's row of the flattened table is entry (a, b) of its
    block of the table. -/
theorem rows_eq (hsp : ∀ i : S1x100000.Idx, (a0 i).toNat < 7) (p : Fin 4000000) (a b : Fin 5) :
    KernelIdeal.Arr.rows25 tab a0 a2 (ix2 p (pt55 (a, b))) = ReferenceIdeal.Arr.blocks55 tab a0 a2 (ix3 p a b) := by
  rw [rows25_apply a0 a2 tab hsp p a b, blocks55_apply a0 a2 tab hsp p a b]

end Cert.Bridge

end
-- ==== Proof.Total.lean ====
/-
  The two totals agree: the sum over the 123 grid points of the tile sums is the sum over the 4,000,000 pairs of the
  pair terms. Row r of tile t is row t * 32,768 + r of the lengthened arrays: below 4,000,000 it holds the pair's
  own coordination numbers, distance, charge product and 25 reference values — the same numbers the reference reads,
  the 25 values as its 5 x 5 block numbered 5 a + b —, from 4,000,000 on it is a row of zeros, whose term is zero.
-/
import proofs.«407585_j32469952757807_1_alg».proof.Proof.KHost
import proofs.«407585_j32469952757807_1_alg».proof.Proof.KWin
import proofs.«407585_j32469952757807_1_alg».proof.Proof.RVal
import proofs.«407585_j32469952757807_1_alg».proof.Proof.Bridge
import proofs.«407585_j32469952757807_1_alg».proof.Proof.Rows
import proofs.«407585_j32469952757807_1_alg».proof.Proof.Spec

set_option maxRecDepth 16384

noncomputable section

namespace Cert.Total

open Cert Cert.KernelIdeal Cert.KernelIdeal.Gen Cert.KernelIdeal.Arr Cert.KernelIdeal.Body Cert.KernelIdeal.Win
open Idealize.ShloMosaic Idealize.ShloMosaic.TcCoe Idealize.ShloMosaic.ValueIdx Idealize.SL.Sem
open Cert.Dispersion

variable (m : (ℓ : Loc nD τ sig) → Buf (Elt Ideal) ℓ)

/-- The reference's pair term at the kernel program's argument arrays. -/
abbrev refPair (c : Dev nD) (p : Fin 4000000) : EReal :=
  ReferenceIdeal.RefValue.pairAt (A0 m c) (A2 m c) (A3 m c) (A4 m c) (A5 m c) (A6 m c) (A7 m c) (A8 m c) p

/-- A row of a tile: the pair's term, or zero on the rows that lengthen the arrays. -/
theorem row_eq (c : Dev nD) (hsp : ∀ i : S1x100000.Idx, (A0 m c i).toNat < 7) (t : Fin cfg0.N) (r : Fin 32768) :
    rowTerm (B0 m c t) (B1 m c t) (B2 m c t) (B3 m c t) (B4 m c t) (B5 m c t) (B6 m c t) r
      = if h : t.val * 32768 + r.val < 4000000 then refPair m c ⟨t.val * 32768 + r.val, h⟩ else 0 := by
  unfold rowTerm
  simp only [B0_apply, B1_apply, B2_apply, B3_apply, B4_apply, B5_apply, B6_apply]
  rw [W0_eq, W1_eq, W2_eq, W3_eq, W4_eq, W5_eq, W6_eq]
  simp only [padCol_apply, padTab_apply]
  by_cases h : t.val * 32768 + r.val < 4000000
  · have h' : (rowOf t r).val < 4000000 := h
    simp only [dif_pos h']
    rw [dif_pos h]
    show pairTerm _ _ _ _ _ _ _ = ReferenceIdeal.RefValue.pairAt _ _ _ _ _ _ _ _ _
    unfold ReferenceIdeal.RefValue.pairAt
    rw [Bridge.cni_eq, Bridge.cnj_eq, Bridge.sq_eq]
    refine (pairTerm_equiv pt55 _ _ _ _ _ _ _).symm.trans ?_
    congr 1 <;> funext ab <;> obtain ⟨a, b⟩ := ab
    · exact Bridge.rows_eq (A0 m c) (A2 m c) (A7 m c) hsp ⟨t.val * 32768 + r.val, h⟩ a b
    · exact Bridge.rows_eq (A0 m c) (A2 m c) (A8 m c) hsp ⟨t.val * 32768 + r.val, h⟩ a b
    · exact Bridge.rows_eq (A0 m c) (A2 m c) (A6 m c) hsp ⟨t.val * 32768 + r.val, h⟩ a b
  · have h' : ¬ (rowOf t r).val < 4000000 := h
    simp only [dif_neg h']
    rw [dif_neg h]
    exact pairTerm_pad

/-- The tile split of the sum, for a grid whose length is 123. -/
theorem sum_grid {N : ℕ} (hN : N = 123) (f : Fin 4000000 → EReal) (g : Fin N → Fin 32768 → EReal)
    (hg : ∀ (t : Fin N) (r : Fin 32768),
      g t r = if h : t.val * 32768 + r.val < 4000000 then f ⟨t.val * 32768 + r.val, h⟩ else 0) :
    ∑ t, ∑ r, g t r = ∑ p, f p := by
  subst hN
  exact sum_tiles f g hg

/-- The sum of the tile sums is the sum of the pair terms. -/
theorem total (c : Dev nD) (hsp : ∀ i : S1x100000.Idx, (A0 m c i).toNat < 7) :
    ∑ t : Fin cfg0.N, tileAt m c t = ∑ p : Fin 4000000, refPair m c p :=
  sum_grid N_0 (refPair m c)
    (fun t r => rowTerm (B0 m c t) (B1 m c t) (B2 m c t) (B3 m c t) (B4 m c t) (B5 m c t) (B6 m c t) r)
    (fun t r => row_eq m c hsp t r)

end Cert.Total

end
-- ==== Proof.PreRange.lean ====
/-
  The precondition says, besides the finiteness of the float inputs, that every species lies in 0 ... 6: its last
  conjunct is the conjunction, over the whole species array, of the two signed tests 0 <= s and s < 7.
-/
import proofs.«407585_j32469952757807_1_alg».proof.Proof.Gen.Pre_finite_inputs
import proofs.«407585_j32469952757807_1_alg».proof.Proof.LibWord
import Idealize.ShloMosaic.Lib.ValueIdx
import Idealize.ShloMosaic.Lib.ReduceAll
import Idealize.ShloMosaic.Lib.StableHlo.Predicate

noncomputable section

namespace Cert.PreRange

open Cert.Pre_finite_inputs Cert.Pre_finite_inputs.Gen
open Idealize.ShloMosaic Idealize.ShloMosaic.TcCoe Idealize.ShloMosaic.ValueIdx

/-- Under the precondition every species is one of 0 ... 6. -/
theorem species_lt (a0 : IVec S1x100000 32) (a1 : FVec Ideal S1 .f32) (a2 : IVec S2x4000000 32) (a3 : FVec Ideal S4000000 .f32)
    (a4 a5 : FVec Ideal S7 .f32) (a6 a7 a8 : FVec Ideal S7x7x5x5 .f32)
    (h : Cert.Pre_finite_inputs.fn (F := Ideal) a0 a1 a2 a3 a4 a5 a6 a7 a8 = fun _ => 1#1) (i : S1x100000.Idx) :
    (a0 i).toNat < 7 := by
  -- the precondition is the conjunction of the float part, kept as one unnamed bit, and the species part
  obtain ⟨v33, e⟩ : ∃ v33 : IVec S_ 1, Cert.Pre_finite_inputs.fn_part2 (F := Ideal) a0 v33 = fun _ => 1#1 := ⟨_, h⟩
  have e0 := congrFun e ix0
  unfold Cert.Pre_finite_inputs.fn_part2 at e0
  dsimp only at e0
  -- its second conjunct is the conjunction over the whole species array
  have e1 := (IntOp.andi_eq_one.1 e0).2
  haveI : Subsingleton S_.Idx := ⟨fun a b => funext fun d => d.elim0⟩
  -- so both tests hold at entry i
  have e2 := Host.reduce_andi_all _ _ _ _ ix0 e1 i
  obtain ⟨h0, h7⟩ := IntOp.andi_eq_one.1 e2
  -- the broadcast constants read 0 and 7 at entry i
  have g0 : IntOp.cmpi .sge (a0 i) 0#32 = 1#1 := h0
  have g7 : IntOp.cmpi .slt (a0 i) 7#32 = 1#1 := h7
  -- 0 ≤ s signed: the sign bit is clear, the signed and unsigned readings agree; then s < 7
  have s0 : 0 ≤ (a0 i).toInt := by
    have := IntOp.cmpi_sge.1 g0
    rwa [show (0#32 : BitVec 32).toInt = 0 from by decide] at this
  have s7 : (a0 i).toInt < 7 := by
    have := IntOp.cmpi_slt.1 g7
    rwa [show (7#32 : BitVec 32).toInt = 7 from by decide] at this
  have hs : 2 * (a0 i).toNat < 2 ^ 32 := BitVec.toInt_pos_iff.1 s0
  rw [BitVec.toInt_eq_toNat_of_lt hs] at s7
  exact_mod_cast s7

end Cert.PreRange

end
-- ==== Proof.lean ====
/-
  The certificate: a D3 dispersion energy, E - sum over 4,000,000 atom pairs of a damped two-body term whose C6
  coefficient is a Gaussian-weighted mean over 25 reference points, computed by a kernel program (host gathers and
  a scatter-add for the coordination numbers, then one pipelined region over 123 tiles of 32,768 pairs that keeps a
  scalar accumulator) and by a plain reference.

  Both programs run and leave their arguments unchanged (the three frames). Over the extended reals, from the same
  arguments, with every species in 0 ... 6, they end with the same energy: every pair's term is the same number in
  both (the same coordination numbers and charge products; the same 25 reference values, fetched as row
  7 s_i + s_j of the flattened tables by one program and as block (s_i, s_j) by the other; the two spellings of the
  logistic exponent agree), the rows that lengthen the arrays to whole tiles contribute zero, and a sum of extended
  reals does not depend on its grouping into tiles.
-/
import proofs.«407585_j32469952757807_1_alg».proof.Defs
import proofs.«407585_j32469952757807_1_alg».proof.Proof.Gen.Kernel
import proofs.«407585_j32469952757807_1_alg».proof.Proof.Gen.Kernel.Skeleton
import proofs.«407585_j32469952757807_1_alg».proof.Proof.Gen.Kernel.Launch
import proofs.«407585_j32469952757807_1_alg».proof.Proof.Gen.Kernel.Points
import proofs.«407585_j32469952757807_1_alg».proof.Proof.Gen.Kernel.Frame
import proofs.«407585_j32469952757807_1_alg».proof.Proof.Gen.KernelIdeal
import proofs.«407585_j32469952757807_1_alg».proof.Proof.Gen.KernelIdeal.Skeleton
import proofs.«407585_j32469952757807_1_alg».proof.Proof.Gen.KernelIdeal.Launch
import proofs.«407585_j32469952757807_1_alg».proof.Proof.Gen.KernelIdeal.Points
import proofs.«407585_j32469952757807_1_alg».proof.Proof.Gen.KernelIdeal.Frame
import proofs.«407585_j32469952757807_1_alg».proof.Proof.Gen.ReferenceIdeal
import proofs.«407585_j32469952757807_1_alg».proof.Proof.Gen.ReferenceIdeal.Run
import proofs.«407585_j32469952757807_1_alg».proof.Proof.Gen.Pre_finite_inputs
import proofs.«407585_j32469952757807_1_alg».proof.Proof.KOut
import proofs.«407585_j32469952757807_1_alg».proof.Proof.RRun
import proofs.«407585_j32469952757807_1_alg».proof.Proof.Total
import proofs.«407585_j32469952757807_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the kernel program read at the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel program was read at the extended reals. -/
theorem preserves : Cert.preserves_Kernel_KernelIdeal := trivial

/-- From memories agreeing on the arguments, with every species in 0 ... 6, both programs end at the energy less
    the same sum. -/
theorem algebraic : Cert.algebraic_KernelIdeal_ReferenceIdeal := by
  intro m ρ m' ρ' hpre hagree
  refine ⟨fun c i => Cert.KernelIdeal.Win.A1 m c i + -(∑ t : Fin Cert.KernelIdeal.cfg0.N, Cert.KernelIdeal.Win.tileAt m c t),
    Cert.KernelIdeal.Out.run m ρ, ?_⟩
  refine (θ_run Cert.ReferenceIdeal.defs _ _).mono (fun r h c => ⟨(h c).1.trans ?_, (h c).2⟩)
    (Cert.ReferenceIdeal.RefValue.run m' ρ')
  have hsp : ∀ i : Cert.KernelIdeal.S1x100000.Idx, (Cert.KernelIdeal.Win.A0 m c i).toNat < 7 :=
    Cert.PreRange.species_lt _ _ _ _ _ _ _ _ _ (hpre c)
  obtain ⟨h0, h1, h2, h3, h4, h5, h6, h7, h8⟩ := hagree c
  show _ = fun i => Cert.KernelIdeal.Win.A1 m c i + -(∑ t : Fin Cert.KernelIdeal.cfg0.N, Cert.KernelIdeal.Win.tileAt m c t)
  rw [Cert.Total.total m c hsp]
  dsimp only [Cert.ReferenceIdeal.RefValue.A0, Cert.ReferenceIdeal.RefValue.A1, Cert.ReferenceIdeal.RefValue.A2,
    Cert.ReferenceIdeal.RefValue.A3, Cert.ReferenceIdeal.RefValue.A4, Cert.ReferenceIdeal.RefValue.A5,
    Cert.ReferenceIdeal.RefValue.A6, Cert.ReferenceIdeal.RefValue.A7, Cert.ReferenceIdeal.RefValue.A8]
  rw [h0, h1, h2, h3, h4, h5, h6, h7, h8]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
